-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x262144x16 : Shape := ⟨3, ![8, 262144, 16]⟩
abbrev S8x262144 : Shape := ⟨2, ![8, 262144]⟩
abbrev S_ : Shape := ⟨0, ![]⟩

class Facts : Prop where
  bcast_S_S8x262144x16 : S_.BroadcastsInDim S8x262144x16 (![] : Fin 0 → Fin S8x262144x16.rank)
  reducesTo_S8x262144x16_S_d0_1_2 : S8x262144x16.ReducesTo [0, 1, 2] S_
  h_S_ : 0 < S_.numel
  bcast_S_S8x262144 : S_.BroadcastsInDim S8x262144 (![] : Fin 0 → Fin S8x262144.rank)
  reducesTo_S8x262144_S_d0_1 : S8x262144.ReducesTo [0, 1] S_

variable [Facts]

def fn {F : FTy → Type} [FloatOps F] (main_arg0 : FVec F S8x262144x16 .f32) (main_arg1 : IVec S8x262144 32) : IVec S_ 1 :=
  let main_v0 : FVec F S8x262144x16 .f32 := Host.absf main_arg0
  let main_cst : FVec F S_ .f32 := constant S_ .f32 0x7F800000#32
  let main_v1 : FVec F S8x262144x16 .f32 := broadcastInDim S8x262144x16 ![] bcast_S_S8x262144x16 main_cst
  let main_v2 : IVec S8x262144x16 1 := cmpf .olt main_v0 main_v1
  let main_c : IVec S_ 1 := constantI S_ 1 1#1
  let main_v3 : IVec S_ 1 := (fun x v => Host.reduce IntOp.andi x v reducesTo_S8x262144x16_S_d0_1_2 h_S_) main_v2 main_c
  let main_c_0 : IVec S_ 32 := constantI S_ 32 0#32
  let main_v4 : IVec S8x262144 32 := broadcastInDim S8x262144 ![] bcast_S_S8x262144 main_c_0
  let main_v5 : IVec S8x262144 1 := cmpi .sge main_arg1 main_v4
  let main_c_1 : IVec S_ 32 := constantI S_ 32 32#32
  let main_v6 : IVec S8x262144 32 := broadcastInDim S8x262144 ![] bcast_S_S8x262144 main_c_1
  let main_v7 : IVec S8x262144 1 := cmpi .slt main_arg1 main_v6
  let main_v8 : IVec S8x262144 1 := andi main_v5 main_v7
  let main_c_2 : IVec S_ 1 := constantI S_ 1 1#1
  let main_v9 : IVec S_ 1 := (fun x v => Host.reduce IntOp.andi x v reducesTo_S8x262144_S_d0_1 h_S_) main_v8 main_c_2
  let main_v10 : IVec S_ 1 := andi main_v3 main_v9
  main_v10
-- ==== Kernel.lean ====
abbrev S8x262144x16 : Shape := ⟨3, ![8, 262144, 16]⟩
abbrev S8x262144 : Shape := ⟨2, ![8, 262144]⟩
abbrev S_ : Shape := ⟨0, ![]⟩
abbrev S8x1x262144 : Shape := ⟨3, ![8, 1, 262144]⟩
abbrev S8x16x262144 : Shape := ⟨3, ![8, 16, 262144]⟩
abbrev S8x32x16 : Shape := ⟨3, ![8, 32, 16]⟩
abbrev S8x32x1 : Shape := ⟨3, ![8, 32, 1]⟩
abbrev S1x16x32768 : Shape := ⟨3, ![1, 16, 32768]⟩
abbrev S1x1x32768 : Shape := ⟨3, ![1, 1, 32768]⟩
abbrev S1x32x16 : Shape := ⟨3, ![1, 32, 16]⟩
abbrev S1x32x1 : Shape := ⟨3, ![1, 32, 1]⟩
abbrev S32x16 : Shape := ⟨2, ![32, 16]⟩
abbrev S32x1 : Shape := ⟨2, ![32, 1]⟩
abbrev S1x32768 : Shape := ⟨2, ![1, 32768]⟩
abbrev S16x32768 : Shape := ⟨2, ![16, 32768]⟩
abbrev S32x32768 : Shape := ⟨2, ![32, 32768]⟩
abbrev S32 : Shape := ⟨1, ![32]⟩
abbrev S8x32 : Shape := ⟨2, ![8, 32]⟩
abbrev S32768 : Shape := ⟨1, ![32768]⟩
abbrev S8 : Shape := ⟨1, ![8]⟩
abbrev S8x32x1x16 : Shape := ⟨4, ![8, 32, 1, 16]⟩
abbrev S8x1x32x16 : Shape := ⟨4, ![8, 1, 32, 16]⟩
abbrev S8x32x32x16 : Shape := ⟨4, ![8, 32, 32, 16]⟩
abbrev S8x32x32 : Shape := ⟨3, ![8, 32, 32]⟩
abbrev S32x32 : Shape := ⟨2, ![32, 32]⟩

abbrev nBuf : Space → Nat
  | .hbm => 98
  | .vmem => 19
  | .smem => 0
  | _ => 0

abbrev bufTy : (tb : Table) → Fin (tcTables nBuf tb) → BufTy
  | .hbm, ⟨0, _⟩ => ⟨S8x262144x16, .f32⟩
  | .hbm, ⟨1, _⟩ => ⟨S8x262144, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S8x262144, .i32⟩
  | .hbm, ⟨6, _⟩ => ⟨S8x262144, .i32⟩
  | .hbm, ⟨7, _⟩ => ⟨S_, .i32⟩
  | .hbm, ⟨8, _⟩ => ⟨S8x262144, .i32⟩
  | .hbm, ⟨9, _⟩ => ⟨S8x262144, .i32⟩
  | .hbm, ⟨10, _⟩ => ⟨S8x1x262144, .i32⟩
  | .hbm, ⟨11, _⟩ => ⟨S8x16x262144, .f32⟩
  | .hbm, ⟨12, _⟩ => ⟨S8x32x16, .f32⟩
  | .hbm, ⟨13, _⟩ => ⟨S8x32x1, .f32⟩
  | .hbm, ⟨14, _⟩ => ⟨S8x32, .f32⟩
  | .hbm, ⟨15, _⟩ => ⟨S_, .f32⟩
  | .hbm, ⟨16, _⟩ => ⟨S8x32, .f32⟩
  | .hbm, ⟨17, _⟩ => ⟨S8x32, .f32⟩
  | .hbm, ⟨18, _⟩ => ⟨S8x32x1, .f32⟩
  | .hbm, ⟨19, _⟩ => ⟨S8x32x16, .f32⟩
  | .hbm, ⟨20, _⟩ => ⟨S8x32x16, .f32⟩
  | .hbm, ⟨21, _⟩ => ⟨S8x32x1, .f32⟩
  | .hbm, ⟨22, _⟩ => ⟨S8x32, .f32⟩
  | .hbm, ⟨23, _⟩ => ⟨S8x32, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x32x1x16, .f32⟩
  | .hbm, ⟨34, _⟩ => ⟨S8x1x32x16, .f32⟩
  | .hbm, ⟨35, _⟩ => ⟨S8x32x32x16, .f32⟩
  | .hbm, ⟨36, _⟩ => ⟨S8x32x32x16, .f32⟩
  | .hbm, ⟨37, _⟩ => ⟨S8x32x32x16, .f32⟩
  | .hbm, ⟨38, _⟩ => ⟨S8x32x32x16, .f32⟩
  | .hbm, ⟨39, _⟩ => ⟨S_, .f32⟩
  | .hbm, ⟨40, _⟩ => ⟨S8x32x32, .f32⟩
  | .hbm, ⟨41, _⟩ => ⟨S32x32, .i32⟩
  | .hbm, ⟨42, _⟩ => ⟨S32x32, .i32⟩
  | .hbm, ⟨43, _⟩ => ⟨S_, .i32⟩
  | .hbm, ⟨44, _⟩ => ⟨S32x32, .i32⟩
  | .hbm, ⟨45, _⟩ => ⟨S32x32, .i32⟩
  | .hbm, ⟨46, _⟩ => ⟨S32x32, .i1⟩
  | .hbm, ⟨47, _⟩ => ⟨S_, .f32⟩
  | .hbm, ⟨48, _⟩ => ⟨S_, .f32⟩
  | .hbm, ⟨49, _⟩ => ⟨S8x32x32, .i1⟩
  | .hbm, ⟨50, _⟩ => ⟨S8x32x32, .f32⟩
  | .hbm, ⟨51, _⟩ => ⟨S8x32x32, .f32⟩
  | .hbm, ⟨52, _⟩ => ⟨S8x32x32, .f32⟩
  | .hbm, ⟨53, _⟩ => ⟨S_, .f32⟩
  | .hbm, ⟨54, _⟩ => ⟨S8x32x32, .f32⟩
  | .hbm, ⟨55, _⟩ => ⟨S8x32x32, .f32⟩
  | .hbm, ⟨56, _⟩ => ⟨S_, .f32⟩
  | .hbm, ⟨57, _⟩ => ⟨S8x32x32, .f32⟩
  | .hbm, ⟨58, _⟩ => ⟨S8x32x32, .f32⟩
  | .hbm, ⟨59, _⟩ => ⟨S8x32x32, .f32⟩
  | .hbm, ⟨60, _⟩ => ⟨S_, .f32⟩
  | .hbm, ⟨61, _⟩ => ⟨S_, .f32⟩
  | .hbm, ⟨62, _⟩ => ⟨S8x32x32, .i1⟩
  | .hbm, ⟨63, _⟩ => ⟨S8x32x32, .f32⟩
  | .hbm, ⟨64, _⟩ => ⟨S8x32x32, .f32⟩
  | .hbm, ⟨65, _⟩ => ⟨S_, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8x32x16, .f32⟩
  | .hbm, ⟨75, _⟩ => ⟨S_, .f32⟩
  | .hbm, ⟨76, _⟩ => ⟨S8x32, .f32⟩
  | .hbm, ⟨77, _⟩ => ⟨S_, .f32⟩
  | .hbm, ⟨78, _⟩ => ⟨S8x32, .f32⟩
  | .hbm, ⟨79, _⟩ => ⟨S8x32, .f32⟩
  | .hbm, ⟨80, _⟩ => ⟨S8x32, .f32⟩
  | .hbm, ⟨81, _⟩ => ⟨S_, .f32⟩
  | .hbm, ⟨82, _⟩ => ⟨S8, .f32⟩
  | .hbm, ⟨83, _⟩ => ⟨S_, .f32⟩
  | .hbm, ⟨84, _⟩ => ⟨S8, .f32⟩
  | .hbm, ⟨85, _⟩ => ⟨S8, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .local _ .vmem, ⟨0, _⟩ => ⟨S1x16x32768, .f32⟩
  | .local _ .vmem, ⟨1, _⟩ => ⟨S1x16x32768, .f32⟩
  | .local _ .vmem, ⟨2, _⟩ => ⟨S1x1x32768, .i32⟩
  | .local _ .vmem, ⟨3, _⟩ => ⟨S1x1x32768, .i32⟩
  | .local _ .vmem, ⟨4, _⟩ => ⟨S1x32x16, .f32⟩
  | .local _ .vmem, ⟨5, _⟩ => ⟨S1x32x16, .f32⟩
  | .local _ .vmem, ⟨6, _⟩ => ⟨S1x32x1, .f32⟩
  | .local _ .vmem, ⟨7, _⟩ => ⟨S1x32x1, .f32⟩
  | .local _ .vmem, ⟨8, _⟩ => ⟨S32x16, .f32⟩
  | .local _ .vmem, ⟨9, _⟩ => ⟨S32x1, .f32⟩
  | .local _ .vmem, ⟨10, _⟩ => ⟨S1x16x32768, .f32⟩
  | .local _ .vmem, ⟨11, _⟩ => ⟨S1x16x32768, .f32⟩
  | .local _ .vmem, ⟨12, _⟩ => ⟨S1x1x32768, .i32⟩
  | .local _ .vmem, ⟨13, _⟩ => ⟨S1x1x32768, .i32⟩
  | .local _ .vmem, ⟨14, _⟩ => ⟨S1x32x16, .f32⟩
  | .local _ .vmem, ⟨15, _⟩ => ⟨S1x32x16, .f32⟩
  | .local _ .vmem, ⟨16, _⟩ => ⟨S1x32x1, .f32⟩
  | .local _ .vmem, ⟨17, _⟩ => ⟨S1x32x1, .f32⟩
  | .local _ .vmem, ⟨18, _⟩ => ⟨S32x1, .f32⟩
  | _, _ => ⟨S8x262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_cst_13 : Ref sig .tc := ⟨.hbm, 70, rfl⟩
abbrev main_v41 : Ref sig .tc := ⟨.hbm, 71, rfl⟩
abbrev main_cst_14 : Ref sig .tc := ⟨.hbm, 72, rfl⟩
abbrev main_v42 : Ref sig .tc := ⟨.hbm, 73, rfl⟩
abbrev main_v43 : Ref sig .tc := ⟨.hbm, 74, rfl⟩
abbrev main_cst_15 : Ref sig .tc := ⟨.hbm, 75, rfl⟩
abbrev main_v44 : Ref sig .tc := ⟨.hbm, 76, rfl⟩
abbrev main_cst_16 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_17 : Ref sig .tc := ⟨.hbm, 81, rfl⟩
abbrev main_v48 : Ref sig .tc := ⟨.hbm, 82, rfl⟩
abbrev main_cst_18 : Ref sig .tc := ⟨.hbm, 83, rfl⟩
abbrev main_v49 : Ref sig .tc := ⟨.hbm, 84, rfl⟩
abbrev main_v50 : Ref sig .tc := ⟨.hbm, 85, rfl⟩
abbrev main_cst_19 : Ref sig .tc := ⟨.hbm, 86, rfl⟩
abbrev main_v51 : Ref sig .tc := ⟨.hbm, 87, rfl⟩
abbrev main_cst_20 : Ref sig .tc := ⟨.hbm, 88, rfl⟩
abbrev main_v52 : Ref sig .tc := ⟨.hbm, 89, rfl⟩
abbrev main_cst_21 : Ref sig .tc := ⟨.hbm, 90, rfl⟩
abbrev main_v53 : Ref sig .tc := ⟨.hbm, 91, rfl⟩
abbrev main_cst_22 : Ref sig .tc := ⟨.hbm, 92, rfl⟩
abbrev main_v54 : Ref sig .tc := ⟨.hbm, 93, rfl⟩
abbrev main_v55 : Ref sig .tc := ⟨.hbm, 94, rfl⟩
abbrev main_cst_23 : Ref sig .tc := ⟨.hbm, 95, rfl⟩
abbrev main_v56 : Ref sig .tc := ⟨.hbm, 96, rfl⟩
abbrev main_v57 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_15 : BitVec 32 := 0#32
  let v27 : BitVec 1 := Scalar.cmpi .ne v26 c0_i32_15
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_18 : BitVec 32 := 0#32
  let v35 : BitVec 1 := Scalar.cmpi .ne v34 c0_i32_18
  v35

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x32768 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S8x262144 : S_.BroadcastsInDim S8x262144 (![] : Fin 0 → Fin S8x262144.rank)
  bcast_S8x262144_S8x1x262144_0_2 : S8x262144.BroadcastsInDim S8x1x262144 (![0, 2] : Fin 2 → Fin S8x1x262144.rank)
  transposes_S8x262144x16_S8x16x262144_0_2_1 : S8x262144x16.Transposes [0, 2, 1] S8x16x262144
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1x32768_S1x1x32768_0_0_0 : ∀ a, (![0, 0, 0] : Fin 3 → Nat) a + S1x1x32768.size a ≤ S1x1x32768.size a
  h_S1x1x32768 : 0 < S1x1x32768.numel
  shapeCasts_S1x1x32768_S1x32768 : S1x1x32768.ShapeCasts S1x32768
  inb_S1x16x32768_S1x16x32768_0_0_0 : ∀ a, (![0, 0, 0] : Fin 3 → Nat) a + S1x16x32768.size a ≤ S1x16x32768.size a
  h_S1x16x32768 : 0 < S1x16x32768.numel
  shapeCasts_S1x16x32768_S16x32768 : S1x16x32768.ShapeCasts S16x32768
  iota_S32x32768_d0_w32 : S32x32768.Iotas .tc 32 [0]
  broadcasts_S1x32768_S32x32768 : S1x32768.Broadcasts S32x32768
  natLt_1_32 : 1 < 32
  reduces_S32x32768_S32 : S32x32768.Reduces [1] S32
  shapeCasts_S32_S32x1 : S32.ShapeCasts S32x1
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  shapeCasts_S32x16_S1x32x16 : S32x16.ShapeCasts S1x32x16
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  shapeCasts_S8x32x1_S8x32 : S8x32x1.ShapeCasts S8x32
  bcast_S_S8x32 : S_.BroadcastsInDim S8x32 (![] : Fin 0 → Fin S8x32.rank)
  bcast_S8x32_S8x32x1_0_1 : S8x32.BroadcastsInDim S8x32x1 (![0, 1] : Fin 2 → Fin S8x32x1.rank)
  bcast_S8x32x1_S8x32x16_0_1_2 : S8x32x1.BroadcastsInDim S8x32x16 (![0, 1, 2] : Fin 3 → Fin S8x32x16.rank)
  reduces_S16x32768_S32768 : S16x32768.Reduces [0] S32768
  shapeCasts_S32768_S1x32768 : S32768.ShapeCasts S1x32768
  reducesTo_S8x32_S8_d1 : S8x32.ReducesTo [1] S8
  h_S_ : 0 < S_.numel
  bcast_S_S8 : S_.BroadcastsInDim S8 (![] : Fin 0 → Fin S8.rank)
  reducesTo_S8_S_d0 : S8.ReducesTo [0] S_
  bcast_S8x32x16_S8x32x1x16_0_1_3 : S8x32x16.BroadcastsInDim S8x32x1x16 (![0, 1, 3] : Fin 3 → Fin S8x32x1x16.rank)
  bcast_S8x32x16_S8x1x32x16_0_2_3 : S8x32x16.BroadcastsInDim S8x1x32x16 (![0, 2, 3] : Fin 3 → Fin S8x1x32x16.rank)
  bcast_S8x32x1x16_S8x32x32x16_0_1_2_3 : S8x32x1x16.BroadcastsInDim S8x32x32x16 (![0, 1, 2, 3] : Fin 4 → Fin S8x32x32x16.rank)
  bcast_S8x1x32x16_S8x32x32x16_0_1_2_3 : S8x1x32x16.BroadcastsInDim S8x32x32x16 (![0, 1, 2, 3] : Fin 4 → Fin S8x32x32x16.rank)
  reducesTo_S8x32x32x16_S8x32x32_d3 : S8x32x32x16.ReducesTo [3] S8x32x32
  bcast_S_S32x32 : S_.BroadcastsInDim S32x32 (![] : Fin 0 → Fin S32x32.rank)
  bcast_S32x32_S8x32x32_1_2 : S32x32.BroadcastsInDim S8x32x32 (![1, 2] : Fin 2 → Fin S8x32x32.rank)
  bcast_S_S8x32x32 : S_.BroadcastsInDim S8x32x32 (![] : Fin 0 → Fin S8x32x32.rank)
  reducesTo_S8x32x32_S8_d1_2 : S8x32x32.ReducesTo [1, 2] S8
  reducesTo_S8x32x16_S8x32_d2 : S8x32x16.ReducesTo [2] S8x32
  dot_S32x32768_S16x32768_S32x16_1_1_0_0_n_n_wf : DotDims.WF S32x32768 S16x32768 S32x16 [1] [1] [0] [0] [] []
  dot_S32x16_S32x32768_S16x32768_0_0_1_1_n_n_wf : DotDims.WF S32x16 S32x32768 S16x32768 [0] [0] [1] [1] [] []
  dot_S32x32768_S1x32768_S32x1_1_1_0_0_n_n_wf : DotDims.WF S32x32768 S1x32768 S32x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32768.size a ≤ S8x16x262144.size a
  hwx0_0 : ∀ i : grid0.Coords, EltTy.bits .f32 = 32 ∨ (Rect.block (s := S8x16x262144) S1x16x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x32768.size a ≤ S8x1x262144.size a
  hwx0_1 : ∀ i : grid0.Coords, EltTy.bits .i32 = 32 ∨ (Rect.block (s := S8x1x262144) S1x1x32768.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x16.size a ≤ S8x32x16.size a
  hwx0_2 : ∀ i : grid0.Coords, EltTy.bits .f32 = 32 ∨ (Rect.block (s := S8x32x16) S1x32x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S8x32x1.size a
  hwx0_3 : ∀ i : grid0.Coords, EltTy.bits .f32 = 32 ∨ (Rect.block (s := S8x32x1) S1x32x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x32768.size a ≤ S8x16x262144.size a
  hwx1_0 : ∀ i : grid1.Coords, EltTy.bits .f32 = 32 ∨ (Rect.block (s := S8x16x262144) S1x16x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x32768.size a ≤ S8x1x262144.size a
  hwx1_1 : ∀ i : grid1.Coords, EltTy.bits .i32 = 32 ∨ (Rect.block (s := S8x1x262144) S1x1x32768.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x16.size a ≤ S8x32x16.size a
  hwx1_2 : ∀ i : grid1.Coords, EltTy.bits .f32 = 32 ∨ (Rect.block (s := S8x32x16) S1x32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x1.size a ≤ S8x32x1.size a
  hwx1_3 : ∀ i : grid1.Coords, EltTy.bits .f32 = 32 ∨ (Rect.block (s := S8x32x1) S1x32x1.size (cc1_transform_3 i) (hinb1_3 i)).WholeWords (EltTy.packing .f32)

variable [Facts₀]

def dot_S32x32768_S16x32768_S32x16_1_1_0_0_n_n : DotDims S32x32768 S16x32768 S32x16 where
  lhsContracting := [1]
  rhsContracting := [1]
  lhsNonContracting := [0]
  rhsNonContracting := [0]
  lhsBatch := []
  rhsBatch := []
  wf := dot_S32x32768_S16x32768_S32x16_1_1_0_0_n_n_wf
def dot_S32x16_S32x32768_S16x32768_0_0_1_1_n_n : DotDims S32x16 S32x32768 S16x32768 where
  lhsContracting := [0]
  rhsContracting := [0]
  lhsNonContracting := [1]
  rhsNonContracting := [1]
  lhsBatch := []
  rhsBatch := []
  wf := dot_S32x16_S32x32768_S16x32768_0_0_1_1_n_n_wf
def dot_S32x32768_S1x32768_S32x1_1_1_0_0_n_n : DotDims S32x32768 S1x32768 S32x1 where
  lhsContracting := [1]
  rhsContracting := [1]
  lhsNonContracting := [0]
  rhsNonContracting := [0]
  lhsBatch := []
  rhsBatch := []
  wf := dot_S32x32768_S1x32768_S32x1_1_1_0_0_n_n_wf

abbrev win0_0 : Pipeline.Window sig grid0 :=
  Pipeline.Window.ofSpec (Memref.whole main_v2) S1x16x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x32x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S1x16x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x32x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x32x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x262144x16 : Shape := ⟨3, ![8, 262144, 16]⟩
abbrev S8x262144 : Shape := ⟨2, ![8, 262144]⟩
abbrev S8 : Shape := ⟨1, ![8]⟩
abbrev S8x1 : Shape := ⟨2, ![8, 1]⟩
abbrev S_ : Shape := ⟨0, ![]⟩
abbrev S2097152 : Shape := ⟨1, ![2097152]⟩
abbrev S2097152x16 : Shape := ⟨2, ![2097152, 16]⟩
abbrev S256x16 : Shape := ⟨2, ![256, 16]⟩
abbrev S2097152x1 : Shape := ⟨2, ![2097152, 1]⟩
abbrev S256 : Shape := ⟨1, ![256]⟩
abbrev S256x1 : Shape := ⟨2, ![256, 1]⟩
abbrev S8x32 : Shape := ⟨2, ![8, 32]⟩
abbrev S8x32x16 : Shape := ⟨3, ![8, 32, 16]⟩
abbrev S8x32x1x16 : Shape := ⟨4, ![8, 32, 1, 16]⟩
abbrev S8x1x32x16 : Shape := ⟨4, ![8, 1, 32, 16]⟩
abbrev S8x32x32x16 : Shape := ⟨4, ![8, 32, 32, 16]⟩
abbrev S8x32x32 : Shape := ⟨3, ![8, 32, 32]⟩
abbrev S32x32 : Shape := ⟨2, ![32, 32]⟩

abbrev nBuf : Space → Nat
  | .hbm => 132
  | .vmem => 0
  | .smem => 0
  | _ => 0

abbrev hbmTy0_0 (i : Nat) : BufTy := match i % 128 with
  | 0 => ⟨S8x262144x16, .f32⟩
  | 1 => ⟨S8x262144, .i32⟩
  | 2 => ⟨S8, .i32⟩
  | 3 => ⟨S8x1, .i32⟩
  | 4 => ⟨S_, .i32⟩
  | 5 => ⟨S8x1, .i32⟩
  | 6 => ⟨S8x1, .i32⟩
  | 7 => ⟨S8x262144, .i32⟩
  | 8 => ⟨S8x262144, .i32⟩
  | 9 => ⟨S2097152, .i32⟩
  | 10 => ⟨S2097152x16, .f32⟩
  | 11 => ⟨S_, .f32⟩
  | 12 => ⟨S256x16, .f32⟩
  | 13 => ⟨S2097152x1, .i32⟩
  | 14 => ⟨S256x16, .f32⟩
  | 15 => ⟨S_, .f32⟩
  | 16 => ⟨S2097152, .f32⟩
  | 17 => ⟨S_, .f32⟩
  | 18 => ⟨S256, .f32⟩
  | 19 => ⟨S2097152x1, .i32⟩
  | 20 => ⟨S256, .f32⟩
  | 21 => ⟨S_, .f32⟩
  | 22 => ⟨S256, .f32⟩
  | 23 => ⟨S256, .f32⟩
  | 24 => ⟨S256x1, .f32⟩
  | 25 => ⟨S256x16, .f32⟩
  | 26 => ⟨S256x16, .f32⟩
  | 27 => ⟨S_, .i32⟩
  | 28 => ⟨S2097152, .i32⟩
  | 29 => ⟨S2097152, .i1⟩
  | 30 => ⟨S_, .i32⟩
  | 31 => ⟨S2097152, .i32⟩
  | 32 => ⟨S2097152, .i32⟩
  | 33 => ⟨S2097152, .i32⟩
  | 34 => ⟨S2097152x1, .i32⟩
  | 35 => ⟨S2097152x16, .f32⟩
  | 36 => ⟨S2097152x16, .f32⟩
  | 37 => ⟨S2097152x16, .f32⟩
  | 38 => ⟨S_, .f32⟩
  | 39 => ⟨S2097152, .f32⟩
  | 40 => ⟨S_, .f32⟩
  | 41 => ⟨S2097152, .f32⟩
  | 42 => ⟨S2097152, .f32⟩
  | 43 => ⟨S2097152, .f32⟩
  | 44 => ⟨S_, .f32⟩
  | 45 => ⟨S2097152, .f32⟩
  | 46 => ⟨S2097152, .f32⟩
  | 47 => ⟨S_, .f32⟩
  | 48 => ⟨S2097152, .f32⟩
  | 49 => ⟨S2097152, .f32⟩
  | 50 => ⟨S2097152, .f32⟩
  | 51 => ⟨S_, .f32⟩
  | 52 => ⟨S256, .f32⟩
  | 53 => ⟨S2097152x1, .i32⟩
  | 54 => ⟨S256, .f32⟩
  | 55 => ⟨S256, .f32⟩
  | 56 => ⟨S8x32, .f32⟩
  | 57 => ⟨S_, .f32⟩
  | 58 => ⟨S8, .f32⟩
  | 59 => ⟨S_, .f32⟩
  | 60 => ⟨S8, .f32⟩
  | 61 => ⟨S8, .f32⟩
  | 62 => ⟨S_, .f32⟩
  | 63 => ⟨S_, .f32⟩
  | 64 => ⟨S_, .f32⟩
  | 65 => ⟨S_, .f32⟩
  | 66 => ⟨S8x32x16, .f32⟩
  | 67 => ⟨S8x32x1x16, .f32⟩
  | 68 => ⟨S8x1x32x16, .f32⟩
  | 69 => ⟨S8x32x32x16, .f32⟩
  | 70 => ⟨S8x32x32x16, .f32⟩
  | 71 => ⟨S8x32x32x16, .f32⟩
  | 72 => ⟨S8x32x32x16, .f32⟩
  | 73 => ⟨S_, .f32⟩
  | 74 => ⟨S8x32x32, .f32⟩
  | 75 => ⟨S32x32, .i32⟩
  | 76 => ⟨S32x32, .i32⟩
  | 77 => ⟨S_, .i32⟩
  | 78 => ⟨S32x32, .i32⟩
  | 79 => ⟨S32x32, .i32⟩
  | 80 => ⟨S32x32, .i1⟩
  | 81 => ⟨S_, .f32⟩
  | 82 => ⟨S_, .f32⟩
  | 83 => ⟨S8x32x32, .i1⟩
  | 84 => ⟨S8x32x32, .f32⟩
  | 85 => ⟨S8x32x32, .f32⟩
  | 86 => ⟨S8x32x32, .f32⟩
  | 87 => ⟨S_, .f32⟩
  | 88 => ⟨S8x32x32, .f32⟩
  | 89 => ⟨S8x32x32, .f32⟩
  | 90 => ⟨S_, .f32⟩
  | 91 => ⟨S8x32x32, .f32⟩
  | 92 => ⟨S8x32x32, .f32⟩
  | 93 => ⟨S8x32x32, .f32⟩
  | 94 => ⟨S_, .f32⟩
  | 95 => ⟨S_, .f32⟩
  | 96 => ⟨S8x32x32, .i1⟩
  | 97 => ⟨S8x32x32, .f32⟩
  | 98 => ⟨S8x32x32, .f32⟩
  | 99 => ⟨S_, .f32⟩
  | 100 => ⟨S8, .f32⟩
  | 101 => ⟨S_, .f32⟩
  | 102 => ⟨S8, .f32⟩
  | 103 => ⟨S8, .f32⟩
  | 104 => ⟨S_, .f32⟩
  | 105 => ⟨S_, .f32⟩
  | 106 => ⟨S_, .f32⟩
  | 107 => ⟨S_, .f32⟩
  | 108 => ⟨S8x32x16, .f32⟩
  | 109 => ⟨S_, .f32⟩
  | 110 => ⟨S8x32, .f32⟩
  | 111 => ⟨S_, .f32⟩
  | 112 => ⟨S8x32, .f32⟩
  | 113 => ⟨S8x32, .f32⟩
  | 114 => ⟨S8x32, .f32⟩
  | 115 => ⟨S_, .f32⟩
  | 116 => ⟨S8, .f32⟩
  | 117 => ⟨S_, .f32⟩
  | 118 => ⟨S8, .f32⟩
  | 119 => ⟨S8, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x262144x16, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S8x262144x16, .f32⟩

abbrev hbmTy (i : Nat) : BufTy := match i / 128 with
  | 0 => hbmTy0_0 i
  | 1 => hbmTy0_1 i
  | _ => ⟨S8x262144x16, .f32⟩

abbrev bufTy : (tb : Table) → Fin (tcTables nBuf tb) → BufTy
  | .hbm, ⟨i, _⟩ => hbmTy i
  | _, _ => ⟨S8x262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_cst_13 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_16 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_19 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v68 : Ref sig .tc := ⟨.hbm, 98, rfl⟩
abbrev main_cst_20 : Ref sig .tc := ⟨.hbm, 99, rfl⟩
abbrev main_v69 : Ref sig .tc := ⟨.hbm, 100, rfl⟩
abbrev main_cst_21 : Ref sig .tc := ⟨.hbm, 101, rfl⟩
abbrev main_v70 : Ref sig .tc := ⟨.hbm, 102, rfl⟩
abbrev main_v71 : Ref sig .tc := ⟨.hbm, 103, rfl⟩
abbrev main_cst_22 : Ref sig .tc := ⟨.hbm, 104, rfl⟩
abbrev main_v72 : Ref sig .tc := ⟨.hbm, 105, rfl⟩
abbrev main_cst_23 : Ref sig .tc := ⟨.hbm, 106, rfl⟩
abbrev main_v73 : Ref sig .tc := ⟨.hbm, 107, rfl⟩
abbrev main_v74 : Ref sig .tc := ⟨.hbm, 108, rfl⟩
abbrev main_cst_24 : Ref sig .tc := ⟨.hbm, 109, rfl⟩
abbrev main_v75 : Ref sig .tc := ⟨.hbm, 110, rfl⟩
abbrev main_cst_25 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_26 : Ref sig .tc := ⟨.hbm, 115, rfl⟩
abbrev main_v79 : Ref sig .tc := ⟨.hbm, 116, rfl⟩
abbrev main_cst_27 : Ref sig .tc := ⟨.hbm, 117, rfl⟩
abbrev main_v80 : Ref sig .tc := ⟨.hbm, 118, rfl⟩
abbrev main_v81 : Ref sig .tc := ⟨.hbm, 119, rfl⟩
abbrev main_cst_28 : Ref sig .tc := ⟨.hbm, 120, rfl⟩
abbrev main_v82 : Ref sig .tc := ⟨.hbm, 121, rfl⟩
abbrev main_cst_29 : Ref sig .tc := ⟨.hbm, 122, rfl⟩
abbrev main_v83 : Ref sig .tc := ⟨.hbm, 123, rfl⟩
abbrev main_cst_30 : Ref sig .tc := ⟨.hbm, 124, rfl⟩
abbrev main_v84 : Ref sig .tc := ⟨.hbm, 125, rfl⟩
abbrev main_cst_31 : Ref sig .tc := ⟨.hbm, 126, rfl⟩
abbrev main_v85 : Ref sig .tc := ⟨.hbm, 127, rfl⟩
abbrev main_v86 : Ref sig .tc := ⟨.hbm, 128, rfl⟩
abbrev main_cst_32 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S_S8x1 : S_.BroadcastsInDim S8x1 (![] : Fin 0 → Fin S8x1.rank)
  bcast_S8x1_S8x262144_0_1 : S8x1.BroadcastsInDim S8x262144 (![0, 1] : Fin 2 → Fin S8x262144.rank)
  shapeCasts_S8x262144_S2097152 : S8x262144.ShapeCasts S2097152
  shapeCasts_S8x262144x16_S2097152x16 : S8x262144x16.ShapeCasts S2097152x16
  bcast_S_S256x16 : S_.BroadcastsInDim S256x16 (![] : Fin 0 → Fin S256x16.rank)
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S256 : S_.BroadcastsInDim S256 (![] : Fin 0 → Fin S256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  reducesTo_S2097152x16_S2097152_d1 : S2097152x16.ReducesTo [1] S2097152
  h_S_ : 0 < S_.numel
  shapeCasts_S256_S8x32 : S256.ShapeCasts S8x32
  reducesTo_S8x32_S8_d1 : S8x32.ReducesTo [1] S8
  bcast_S_S8 : S_.BroadcastsInDim S8 (![] : Fin 0 → Fin S8.rank)
  reducesTo_S8_S_d0 : S8.ReducesTo [0] S_
  shapeCasts_S256x16_S8x32x16 : S256x16.ShapeCasts S8x32x16
  bcast_S8x32x16_S8x32x1x16_0_1_3 : S8x32x16.BroadcastsInDim S8x32x1x16 (![0, 1, 3] : Fin 3 → Fin S8x32x1x16.rank)
  bcast_S8x32x16_S8x1x32x16_0_2_3 : S8x32x16.BroadcastsInDim S8x1x32x16 (![0, 2, 3] : Fin 3 → Fin S8x1x32x16.rank)
  bcast_S8x32x1x16_S8x32x32x16_0_1_2_3 : S8x32x1x16.BroadcastsInDim S8x32x32x16 (![0, 1, 2, 3] : Fin 4 → Fin S8x32x32x16.rank)
  bcast_S8x1x32x16_S8x32x32x16_0_1_2_3 : S8x1x32x16.BroadcastsInDim S8x32x32x16 (![0, 1, 2, 3] : Fin 4 → Fin S8x32x32x16.rank)
  reducesTo_S8x32x32x16_S8x32x32_d3 : S8x32x32x16.ReducesTo [3] S8x32x32
  bcast_S_S32x32 : S_.BroadcastsInDim S32x32 (![] : Fin 0 → Fin S32x32.rank)
  bcast_S32x32_S8x32x32_1_2 : S32x32.BroadcastsInDim S8x32x32 (![1, 2] : Fin 2 → Fin S8x32x32.rank)
  bcast_S_S8x32x32 : S_.BroadcastsInDim S8x32x32 (![] : Fin 0 → Fin S8x32x32.rank)
  reducesTo_S8x32x32_S8_d1_2 : S8x32x32.ReducesTo [1, 2] S8
  reducesTo_S8x32x16_S8x32_d2 : S8x32x16.ReducesTo [2] S8x32
  bcast_S_S8x32 : S_.BroadcastsInDim S8x32 (![] : Fin 0 → Fin S8x32.rank)
  scatter_S256x16_S2097152x1_S2097152x16_1_0_0_1_wf : ScatterDims.WF S256x16 S2097152x1 S2097152x16 [1] [0] [0] 1
  scatter_S256_S2097152x1_S2097152_n_0_0_1_wf : ScatterDims.WF S256 S2097152x1 S2097152 [] [0] [0] 1
  gather_S256x16_S2097152x1_S2097152x16_1_0_n_n_0_1_116_wf : GatherDims.WF S256x16 S2097152x1 S2097152x16 [1] [0] [] [0] [] 1 ![1, 16]

variable [Facts₀]

def scatter_S256x16_S2097152x1_S2097152x16_1_0_0_1 : ScatterDims S256x16 S2097152x1 S2097152x16 where
  updateWindowDims := [1]
  insertedWindowDims := [0]
  scatterDimsToOperandDims := [0]
  indexVectorDim := 1
  wf := scatter_S256x16_S2097152x1_S2097152x16_1_0_0_1_wf
def scatter_S256_S2097152x1_S2097152_n_0_0_1 : ScatterDims S256 S2097152x1 S2097152 where
  updateWindowDims := []
  insertedWindowDims := [0]
  scatterDimsToOperandDims := [0]
  indexVectorDim := 1
  wf := scatter_S256_S2097152x1_S2097152_n_0_0_1_wf
def gather_S256x16_S2097152x1_S2097152x16_1_0_n_n_0_1_116 : GatherDims S256x16 S2097152x1 S2097152x16 where
  offsetDims := [1]
  collapsedSliceDims := [0]
  operandBatchingDims := []
  startIndicesBatchingDims := []
  startIndexMap := [0]
  indexVectorDim := 1
  sliceSizes := ![1, 16]
  wf := gather_S256x16_S2097152x1_S2097152x16_1_0_n_n_0_1_116_wf

class Facts : Prop extends Facts₀ where

variable [Facts]
-- ==== Proof.K.R0Runs.lean ====
/-
  Region 0 (the per-cluster sums and counts): the kernel body run once per control case.
  The grid is 8 batches × 8 tiles; a point is in case A at a batch's first tile (both accumulators are reset, then added
  to), in case C at its last tile (added to, then both copied to the output blocks), in case B in between (added to).
  Each run holds the two input blocks at named contents and records, as the pieces stored, what the two accumulators
  and the two output blocks end with.
-/
import proofs.«422320_j2723009265750_3_alg».proof.Proof.Gen.Kernel.Launch
import proofs.«422320_j2723009265750_3_alg».proof.Proof.Gen.Kernel.Skeleton
import proofs.«422320_j2723009265750_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch: the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The copy-out branch: the tile coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S1x32x16 .f32 := (Memref.whole cc0_stg2_0 : Memref sig .tc .vmem S1x32x16 .f32).view
abbrev VO0_3 : View sig .tc .vmem S1x32x1 .f32 := (Memref.whole cc0_stg3_0 : Memref sig .tc .vmem S1x32x1 .f32).view
abbrev ms0_0 (t : Fin cfg0.N) : Memref sig .tc .vmem S1x16x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x1 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S32x16 .f32 := Memref.whole cc0_scratch0
abbrev scM0_1 : Memref sig .tc .vmem S32x1 .f32 := Memref.whole cc0_scratch1
abbrev VS0_0 : View sig .tc .vmem S32x16 .f32 := scM0_0.view
abbrev VS0_1 : View sig .tc .vmem S32x1 .f32 := scM0_1.view

/-- The core's other scoped buffers (the second call's staging buffers and accumulator), each whole at some contents:
    they ride through this region untouched. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The class invariant with the two accumulators as memrefs owned at some contents, the other scoped buffers beside. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; simp only [scM0_0, scM0_1, owns_whole]; try rfl

set_option maxHeartbeats 4000000 in
/-- Case A (the reset branch taken, the copy-out branch not): both accumulators are zeroed, loaded back and stored with the
    tile's contribution added; the output blocks are not touched. The accumulators may hold anything on entry. -/
noncomputable def kernelRun0_A (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i)
    (x0 : Vec F S1x16x32768 .f32) (x1 : Vec F S1x1x32768 .i32) :
    Σ' (LS0 : List (View.Piece (Elt F) S32x16 .f32)), { LS1 : List (View.Piece (Elt F) S32x1 .f32) //
      ∀ (xi2 : Vec F S1x32x16 .f32) (xi3 : Vec F S1x32x1 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__sums_kernel i arg2 harg2 arg3 harg3 arg4 harg4 arg5 harg5 arg6 harg6 arg7 harg7) K } := by
  refine ⟨?_, ?_, fun xi2 xi3 E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

/-! ## The body's run, case by case -/

set_option maxHeartbeats 4000000 in
/-- Case B (neither branch taken): both accumulators are loaded and stored back with the tile's contribution added;
    the output blocks are not touched. The pieces the accumulators end with are found by the run. -/
noncomputable def kernelRun0_B (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i)
    (x0 : Vec F S1x16x32768 .f32) (x1 : Vec F S1x1x32768 .i32) (xs0 : Vec F S32x16 .f32) (xs1 : Vec F S32x1 .f32) :
    Σ' (LS0 : List (View.Piece (Elt F) S32x16 .f32)), { LS1 : List (View.Piece (Elt F) S32x1 .f32) //
      ∀ (xi2 : Vec F S1x32x16 .f32) (xi3 : Vec F S1x32x1 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__sums_kernel i arg2 harg2 arg3 harg3 arg4 harg4 arg5 harg5 arg6 harg6 arg7 harg7) K } := by
  refine ⟨?_, ?_, fun xi2 xi3 E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- Case C (the reset branch not taken, the copy-out branch taken): both accumulators are loaded and stored with the tile's
    contribution added, then loaded again and stored whole into the two output blocks, which may hold anything on entry. -/
noncomputable def kernelRun0_C (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i)
    (x0 : Vec F S1x16x32768 .f32) (x1 : Vec F S1x1x32768 .i32) (xs0 : Vec F S32x16 .f32) (xs1 : Vec F S32x1 .f32) :
    Σ' (L2 : List (View.Piece (Elt F) S1x32x16 .f32)) (L3 : List (View.Piece (Elt F) S1x32x1 .f32)) (LS0 : List (View.Piece (Elt F) S32x16 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__sums_kernel i arg2 harg2 arg3 harg3 arg4 harg4 arg5 harg5 arg6 harg6 arg7 harg7) K } := by
  refine ⟨?_, ?_, ?_, ?_, fun E K => ?run⟩
  case run =>
    simp only [cc0__sums_kernel_eq_skeleton]; unfold cc0__sums_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.K.R0.lean ====
/-
  Region 0 (the per-cluster sums and counts): what the two accumulators and the two output blocks hold after every grid
  point, the proof data of the pipeline over them, and the body obligation.
  The accumulators are carried from one tile of a batch to the next: after a batch's first tile they hold that tile's
  contribution added to zero, after a later tile the tile's contribution added to what the tile before left; at the
  batch's last tile they are copied to the output blocks, which are written back there and nowhere else.
-/
import proofs.«422320_j2723009265750_3_alg».proof.Proof.K.R0Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings' tile and the labels' tile at point `t`, at their literal types. -/
abbrev xblk0 (c : Dev nD) (t : Fin cfg0.N) : Vec F S1x16x32768 .f32 := iblk0 V c 0 t
abbrev lblk0 (c : Dev nD) (t : Fin cfg0.N) : Vec F S1x1x32768 .i32 := iblk0 V c 1 t

/-- An input window's current staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the found pieces read back -/

/-- An output block no case has stored into yet: a placeholder nothing consults (the window is idle and not written back). -/
def idle0_2 : Vec F S1x32x16 .f32 := VO0_2.read (Elt F) VO0_2.junk
def idle0_3 : Vec F S1x32x1 .f32 := VO0_3.read (Elt F) VO0_3.junk

def sout0_A_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) : Vec F S32x16 .f32 :=
  VS0_0.read (Elt F) (VS0_0.writes (Elt F) VS0_0.junk (kernelRun0_A c i arg2 harg2 arg3 harg3 arg4 harg4 arg5 harg5 arg6 harg6 arg7 harg7 hc0 hc1 x0 x1).1)
def sout0_A_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) : Vec F S32x1 .f32 :=
  VS0_1.read (Elt F) (VS0_1.writes (Elt F) VS0_1.junk (kernelRun0_A c i arg2 harg2 arg3 harg3 arg4 harg4 arg5 harg5 arg6 harg6 arg7 harg7 hc0 hc1 x0 x1).2.1)
def sout0_B_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) : Vec F S32x16 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
def sout0_B_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) : Vec F S32x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)
def out0_C_2 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) : Vec F S1x32x16 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
def out0_C_3 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) : Vec F S1x32x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
def sout0_C_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) : Vec F S32x16 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
def sout0_C_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) : Vec F S32x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-- Each case's pieces for a buffer tile it, so they cover it. -/
theorem scover0_A_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) (y : S32x16.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S32x16.size (by sl_kernel_rfl) y
theorem scover0_A_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) (y : S32x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S32x1.size (by sl_kernel_rfl) y
theorem scover0_B_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) (y : S32x16.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S32x16.size (by sl_kernel_rfl) y
theorem scover0_B_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) (y : S32x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S32x1.size (by sl_kernel_rfl) y
theorem cover0_C_2 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) (y : S1x32x16.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x32x16.size (by sl_kernel_rfl) y
theorem cover0_C_3 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) (y : S1x32x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x32x1.size (by sl_kernel_rfl) y
theorem scover0_C_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) (y : S32x16.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S32x16.size (by sl_kernel_rfl) y
theorem scover0_C_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) (y : S32x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S32x1.size (by sl_kernel_rfl) y

/-! ## What the buffers hold after each point -/

/-- After the body at position `n`: ((output block 2, output block 3), (accumulator 0, accumulator 1)). The case is the
    one the closed forms select at `n`; cases B and C start from what position `n - 1` left in the accumulators. -/
def outsAt0 (c : Dev nD) : (n : ℕ) → n < cfg0.N → (Vec F S1x32x16 .f32 × Vec F S1x32x1 .f32) × (Vec F S32x16 .f32 × Vec F S32x1 .f32)
  | 0, hn => ((idle0_2, idle0_3),
      (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)))
  | n + 1, hn =>
    if h0 : (n + 1) % 8 = 0 then
      if h1 : (n + 1) % 8 = 7 then
        False.elim (by omega)
      else
        ((idle0_2, idle0_3),
         (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)))
    else
      if h1 : (n + 1) % 8 = 7 then
        ((out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
          out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2),
         (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2))
      else
        ((idle0_2, idle0_3),
         (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2))

/-- The region invariant before position `n`: before the first point the class's; afterwards the two accumulators at what
    the point before left in them, the other scoped buffers at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 (F := F) c) ∗ (∃ r, prngReg c r))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1.1
    | ⟨3, _⟩ => (outsAt0 V c t.val t.isLt).1.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1.1 := by dsimp only [dat0]
theorem after0_3 (c : Dev nD) (t : Fin cfg0.N) : (dat0 V c).after 3 t = (outsAt0 V c t.val t.isLt).1.2 := by dsimp only [dat0]

/-! ## What the buffers hold at a point of each case -/

/-- At a batch's first tile: case A's contents. -/
theorem outsAt0_A (c : Dev nD) (t : Fin cfg0.N) (h0 : t.val % 8 = 0) (h1 : ¬t.val % 8 = 7) :
    outsAt0 V c t.val t.isLt = ((idle0_2, idle0_3),
      (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
       sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t))) := by
  obtain ⟨n, hn⟩ := t
  cases n with
  | zero => exact rfl
  | succ n => exact (dif_pos h0).trans ((dif_neg h1).trans rfl)

/-- At a tile that is neither first nor last: case B's contents, over what the point before left. -/
theorem outsAt0_B (c : Dev nD) (t : Fin cfg0.N) (h0 : ¬t.val % 8 = 0) (h1 : ¬t.val % 8 = 7) :
    outsAt0 V c t.val t.isLt = ((idle0_2, idle0_3),
      (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
       sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_neg h1).trans rfl)

/-- At a batch's last tile: case C's contents, over what the point before left. -/
theorem outsAt0_C (c : Dev nD) (t : Fin cfg0.N) (h0 : ¬t.val % 8 = 0) (h1 : t.val % 8 = 7) :
    outsAt0 V c t.val t.isLt =
      ((out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
        out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2),
       (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_pos h1).trans rfl)

/-! ## The invariant, position by position -/

theorem PhiS0_zero (c : Dev nD) (n : ℕ) (h : n ≤ cfg0.N) (hz : n = 0) : PhiS0 V c n h = Pipeline.ΦA spec0 c := by
  subst hz; rfl

/-- After point `n`: the accumulators at that point's contents. -/
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ others0 (F := F) c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 (F := F) c) ∗ (∃ r, prngReg c r)) := by
  cases n with
  | zero => exact absurd rfl hz
  | succ n => rfl

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The input buffers hold their blocks; the closed forms say which case the point is in; the
    invariant hands over the accumulators (at anything before the first point, at what the point before left afterwards)
    and takes them back at this point's contents; the output buffers are handed back untouched unless the tile is a
    batch's last, where they are taken at anything and returned at the copy. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HS1, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C_0 sout0_C_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-! ## The found pieces, read as the skeleton's payloads -/

theorem offs0_zero2 : (![0, 0] : Fin 2 → Nat) = fun _ => 0 := funext fun a => by fin_cases a <;> rfl
theorem offs0_zero3 : (![0, 0, 0] : Fin 3 → Nat) = fun _ => 0 := funext fun a => by fin_cases a <;> rfl

/-- Case A leaves in accumulator 0 the tile's contribution added to the zero block it has just stored there. -/
theorem sout0_A_0_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) :
    sout0_A_0 c i arg2 harg2 arg3 harg3 arg4 harg4 arg5 harg5 arg6 harg6 arg7 harg7 hc0 hc1 x0 x1 = k0_pay4 x1 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S32x16) offs0_zero2, View.readCov_unit_zero (S := S32x16) _ offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case A leaves in accumulator 1 the tile's counts added to the zero block it has just stored there. -/
theorem sout0_A_1_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S32x1) offs0_zero2, View.readCov_unit_zero (S := S32x1) _ offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case B leaves in accumulator 0 the tile's contribution added to what it held. -/
theorem sout0_B_0_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) :
    sout0_B_0 c i arg2 harg2 arg3 harg3 arg4 harg4 arg5 harg5 arg6 harg6 arg7 harg7 hc0 hc1 x0 x1 xs0 xs1 = k0_pay4 x1 x0 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case B leaves in accumulator 1 the tile's counts added to what it held. -/
theorem sout0_B_1_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case C leaves in accumulator 0 the tile's contribution added to what it held. -/
theorem sout0_C_0_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) :
    sout0_C_0 c i arg2 harg2 arg3 harg3 arg4 harg4 arg5 harg5 arg6 harg6 arg7 harg7 hc0 hc1 x0 x1 xs0 xs1 = k0_pay4 x1 x0 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case C leaves in accumulator 1 the tile's counts added to what it held. -/
theorem sout0_C_1_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) :
    sout0_C_1 c i arg2 harg2 arg3 harg3 arg4 harg4 arg5 harg5 arg6 harg6 arg7 harg7 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case C leaves in output block 2 the accumulator's new contents, re-laid. -/
theorem out0_C_2_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) :
    out0_C_2 c i arg2 harg2 arg3 harg3 arg4 harg4 arg5 harg5 arg6 harg6 arg7 harg7 hc0 hc1 x0 x1 xs0 xs1 = k0_pay6 (k0_pay4 x1 x0 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero offs0_zero3]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case C leaves in output block 3 the accumulator's new contents, re-laid. -/
theorem out0_C_3_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) :
    out0_C_3 c i arg2 harg2 arg3 harg3 arg4 harg4 arg5 harg5 arg6 harg6 arg7 harg7 hc0 hc1 x0 x1 xs0 xs1 = k0_pay7 (k0_pay5 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero offs0_zero3]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-! ## The body obligation, the invariant's two ends, and the accumulators' recursion -/

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' named contents are forgotten. -/
theorem hout0 (c : Dev nD) : (dat0 V c).Φ (Fin.last cfg0.N) ⊢ Pipeline.ΦA spec0 c :=
  Phi_out0 V c _ (by rw [Fin.val_last]; have : cfg0.N = 64 := N_0; omega)

/-- At a batch's first tile the accumulators end at the tile's contribution added to zero. -/
theorem acc0_first (c : Dev nD) (t : Fin cfg0.N) (h : t.val % 8 = 0) :
    (outsAt0 V c t.val t.isLt).2 = (k0_pay4 (lblk0 V c t) (xblk0 V c t) (k0_pay1 (F := F)), k0_pay5 (lblk0 V c t) (k0_pay2 (F := F))) := by
  have h1 : ¬t.val % 8 = 7 := by omega
  rw [outsAt0_A V c t h h1]
  dsimp only
  exact congrArg₂ Prod.mk
    (sout0_A_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h) (fun h' => h1 ((hcond0_1 t).mp h')) (iblk0 V c 0 t) (iblk0 V c 1 t))
    (sout0_A_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h) (fun h' => h1 ((hcond0_1 t).mp h')) (iblk0 V c 0 t) (iblk0 V c 1 t))

/-- At a later tile they end at the tile's contribution added to what the tile before left. -/
theorem acc0_next (c : Dev nD) (t : Fin cfg0.N) (h : t.val % 8 ≠ 0) :
    (outsAt0 V c t.val t.isLt).2
      = (k0_pay4 (lblk0 V c t) (xblk0 V c t) (outsAt0 V c (t.val - 1) (Nat.lt_of_le_of_lt (Nat.sub_le _ _) t.isLt)).2.1,
         k0_pay5 (lblk0 V c t) (outsAt0 V c (t.val - 1) (Nat.lt_of_le_of_lt (Nat.sub_le _ _) t.isLt)).2.2) := by
  by_cases h1 : t.val % 8 = 7
  · rw [outsAt0_C V c t h h1]
    dsimp only
    exact congrArg₂ Prod.mk
      (sout0_C_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h ((hcond0_0 t).mp h')) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (sout0_C_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h ((hcond0_0 t).mp h')) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
  · rw [outsAt0_B V c t h h1]
    dsimp only
    exact congrArg₂ Prod.mk
      (sout0_B_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h ((hcond0_0 t).mp h')) (fun h' => h1 ((hcond0_1 t).mp h')) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (sout0_B_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h ((hcond0_0 t).mp h')) (fun h' => h1 ((hcond0_1 t).mp h')) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)

/-- At a batch's last tile the output blocks end at the accumulators' final contents, re-laid as [1, 32, ·]. -/
theorem out0_last (c : Dev nD) (t : Fin cfg0.N) (h : t.val % 8 = 7) :
    (outsAt0 V c t.val t.isLt).1 = (k0_pay6 (outsAt0 V c t.val t.isLt).2.1, k0_pay7 (outsAt0 V c t.val t.isLt).2.2) := by
  have h0 : ¬t.val % 8 = 0 := by omega
  rw [outsAt0_C V c t h0 h]
  dsimp only
  exact congrArg₂ Prod.mk
    ((out0_C_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).trans
      (congrArg k0_pay6 (sout0_C_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).symm))
    ((out0_C_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).trans
      (congrArg k0_pay7 (sout0_C_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).symm))

end Cert.Kernel.Hand

end
-- ==== Proof.K.R1Runs.lean ====
/-
  Region 1 (the per-cluster sum of squared hinge distances): the kernel body run once per control case.
  The grid is 8 batches × 8 tiles; a point is in case A at a batch's first tile (the accumulator is reset, then added
  to), in case C at its last tile (added to, then copied to the output block), in case B in between (added to).
  Each run holds the three input blocks at named contents and records, as the pieces stored, what the accumulator
  and the output block end with.
-/
import proofs.«422320_j2723009265750_3_alg».proof.Proof.Gen.Kernel.Launch
import proofs.«422320_j2723009265750_3_alg».proof.Proof.Gen.Kernel.Skeleton
import proofs.«422320_j2723009265750_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch: the tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The copy-out branch: the tile coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1x32x1 .f32 := (Memref.whole cc1_stg3_0 : Memref sig .tc .vmem S1x32x1 .f32).view
abbrev ms1_0 (t : Fin cfg1.N) : Memref sig .tc .vmem S1x16x32768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x32768 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32x1 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S32x1 .f32 := Memref.whole cc1_scratch0
abbrev VS1_0 : View sig .tc .vmem S32x1 .f32 := scM1_0.view

/-- The core's other scoped buffers (the first call's staging buffers and accumulators), each whole at some contents:
    they ride through this region untouched. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The same buffers with one more conjunct at the end of the chain. -/
def others1With (c : Dev nD) (Q : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ Q)

/-- The chain with a last conjunct gives the ten buffers beside that conjunct, -/
theorem others1With_split (c : Dev nD) (Q : sProp 𝕄) : others1With (F := F) c Q ⊢ iprop(others1 (F := F) c ∗ Q) := by
  unfold others1With others1
  iintro ⟨A0, A1, A2, A3, A4, A5, A6, A7, A8, A9, HQ⟩
  isplitr [HQ]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact HQ

/-- and back, -/
theorem others1With_join (c : Dev nD) (Q : sProp 𝕄) : iprop(others1 (F := F) c ∗ Q) ⊢ others1With (F := F) c Q := by
  unfold others1With others1
  iintro ⟨⟨A0, A1, A2, A3, A4, A5, A6, A7, A8, A9⟩, HQ⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact HQ

/-- so the two are equal. -/
theorem others1With_eq (c : Dev nD) (Q : sProp 𝕄) : others1With (F := F) c Q = iprop(others1 (F := F) c ∗ Q) :=
  BI.Entails.antisymm (others1With_split c Q) (others1With_join c Q)

/-- The class invariant with the accumulator as a memref owned at some contents, the other scoped buffers beside. -/
theorem PhiA1_eq (c : Dev nD) :
    (Pipeline.ΦA spec1 c : sProp 𝕄)
      = iprop(iprop(others1 (F := F) c ∗ (∃ d, owns (c : Thread nD τ) scM1_0 fullShare d)) ∗ (∃ r, prngReg c r)) := by
  rw [← others1With_eq]
  unfold Pipeline.ΦA others1With; rw [scopedRest1_eq]; simp only [scM1_0, owns_whole]; try rfl

/-! ## The body's run, case by case -/

set_option maxHeartbeats 4000000 in
/-- Case A (the reset branch taken, the copy-out branch not): the accumulator is zeroed, loaded back and stored with the
    tile's contribution added; the output block is not touched. The accumulator may hold anything on entry. -/
noncomputable def kernelRun1_A (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : cond1_0 i) (hc1 : ¬cond1_1 i)
    (x0 : Vec F S1x16x32768 .f32) (x1 : Vec F S1x1x32768 .i32) (x2 : Vec F S1x32x16 .f32) :
    { LS0 : List (View.Piece (Elt F) S32x1 .f32) //
      ∀ (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__varsum_kernel i arg2 harg2 arg3 harg3 arg4 harg4 arg5 harg5 arg6 harg6) K } := by
  refine ⟨?_, fun xi3 E K => ?run⟩
  case run =>
    simp only [cc1__varsum_kernel_eq_skeleton]; unfold cc1__varsum_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Case B (neither branch taken): the accumulator is loaded and stored back with the tile's contribution added;
    the output block is not touched. -/
noncomputable def kernelRun1_B (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : ¬cond1_1 i)
    (x0 : Vec F S1x16x32768 .f32) (x1 : Vec F S1x1x32768 .i32) (x2 : Vec F S1x32x16 .f32) (xs0 : Vec F S32x1 .f32) :
    { LS0 : List (View.Piece (Elt F) S32x1 .f32) //
      ∀ (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__varsum_kernel i arg2 harg2 arg3 harg3 arg4 harg4 arg5 harg5 arg6 harg6) K } := by
  refine ⟨?_, fun xi3 E K => ?run⟩
  case run =>
    simp only [cc1__varsum_kernel_eq_skeleton]; unfold cc1__varsum_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1
    obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Case C (the reset branch not taken, the copy-out branch taken): the accumulator is loaded and stored with the tile's
    contribution added, then loaded again and stored whole into the output block, which may hold anything on entry. -/
noncomputable def kernelRun1_C (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i)
    (x0 : Vec F S1x16x32768 .f32) (x1 : Vec F S1x1x32768 .i32) (x2 : Vec F S1x32x16 .f32) (xs0 : Vec F S32x1 .f32) :
    Σ' (L3 : List (View.Piece (Elt F) S1x32x1 .f32)), { LS0 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__varsum_kernel i arg2 harg2 arg3 harg3 arg4 harg4 arg5 harg5 arg6 harg6) K } := by
  refine ⟨?_, ?_, fun E K => ?run⟩
  case run =>
    simp only [cc1__varsum_kernel_eq_skeleton]; unfold cc1__varsum_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1
    obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1.lean ====
/-
  Region 1 (the per-cluster sum of squared hinge distances): what the accumulator and the output block hold after every
  grid point, the proof data of the pipeline over them, and the body obligation.
  The accumulator is carried from one tile of a batch to the next: after a batch's first tile it holds that tile's
  contribution added to zero, after a later tile the tile's contribution added to what the tile before left; at the
  batch's last tile it is copied to the output block, which is written back there and nowhere else.
-/
import proofs.«422320_j2723009265750_3_alg».proof.Proof.K.R1Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The embeddings' tile, the labels' tile and the batch's block of means at point `t`, at their literal types. -/
abbrev xblk1 (c : Dev nD) (t : Fin cfg1.N) : Vec F S1x16x32768 .f32 := iblk1 V c 0 t
abbrev lblk1 (c : Dev nD) (t : Fin cfg1.N) : Vec F S1x1x32768 .i32 := iblk1 V c 1 t
abbrev mblk1 (c : Dev nD) (t : Fin cfg1.N) : Vec F S1x32x16 .f32 := iblk1 V c 2 t

/-- An input window's current staging buffer holds its block at every point, fetched there or not (the means' block is
    fetched at a batch's first tile only: at the later tiles its index has not moved), for any proof data over `V` whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the found pieces read back -/

/-- The output block before any case has stored into it: a placeholder nothing consults (the window is idle and not written back). -/
def idle1_3 : Vec F S1x32x1 .f32 := VO1_3.read (Elt F) VO1_3.junk

def sout1_A_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : cond1_0 i) (hc1 : ¬cond1_1 i) (x0 : Vec F S1x16x32768 .f32) (x1 : Vec F S1x1x32768 .i32) (x2 : Vec F S1x32x16 .f32) : Vec F S32x1 .f32 :=
  VS1_0.read (Elt F) (VS1_0.writes (Elt F) VS1_0.junk (kernelRun1_A c i arg2 harg2 arg3 harg3 arg4 harg4 arg5 harg5 arg6 harg6 hc0 hc1 x0 x1 x2).1)
def sout1_B_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : ¬cond1_1 i) (x0 : Vec F S1x16x32768 .f32) (x1 : Vec F S1x1x32768 .i32) (x2 : Vec F S1x32x16 .f32) (xs0 : Vec F S32x1 .f32) : Vec F S32x1 .f32 :=
  VS1_0.read (Elt F) (VS1_0.writes (Elt F) VS1_0.junk (kernelRun1_B c i arg2 harg2 arg3 harg3 arg4 harg4 arg5 harg5 arg6 harg6 hc0 hc1 x0 x1 x2 xs0).1)
def out1_C_3 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) : Vec F S1x32x1 .f32 :=
  VO1_3.read (Elt F) (VO1_3.writes (Elt F) VO1_3.junk (kernelRun1_C c i arg2 harg2 arg3 harg3 arg4 harg4 arg5 harg5 arg6 harg6 hc0 hc1 x0 x1 x2 xs0).1)
def sout1_C_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) : Vec F S32x1 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- Each case's pieces for a buffer tile it, so they cover it. -/
theorem scover1_A_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : cond1_0 i) (hc1 : ¬cond1_1 i) (x0 : Vec F S1x16x32768 .f32) (x1 : Vec F S1x1x32768 .i32) (x2 : Vec F S1x32x16 .f32) (y : S32x1.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S32x1.size (by sl_kernel_rfl) y
theorem scover1_B_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : ¬cond1_1 i) (x0 : Vec F S1x16x32768 .f32) (x1 : Vec F S1x1x32768 .i32) (x2 : Vec F S1x32x16 .f32) (xs0 : Vec F S32x1 .f32) (y : S32x1.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S32x1.size (by sl_kernel_rfl) y
theorem cover1_C_3 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) (y : S1x32x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x32x1.size (by sl_kernel_rfl) y
theorem scover1_C_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) (y : S32x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S32x1.size (by sl_kernel_rfl) y

/-! ## What the buffers hold after each point -/

/-- After the body at position `n`: (the output block, the accumulator). The case is the one the closed forms select at
    `n`; cases B and C start from what position `n - 1` left in the accumulator. -/
def outsAt1 (c : Dev nD) : (n : ℕ) → n < cfg1.N → Vec F S1x32x1 .f32 × Vec F S32x1 .f32
  | 0, hn => (idle1_3,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (idle1_3,
         sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idle1_3,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (idle1_3, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (idle1_3, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, and the generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything at the first point) and takes it
    back at this point's contents; the output block is stored at a batch's last tile and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hr, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr HS0 Hg]
        · isplitl [Hr HS0]
          · isplitl [Hr]; · iexact Hr
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hr HS0 Hg]
        · isplitl [Hr HS0]
          · isplitl [Hr]; · iexact Hr
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS1_castSucc V c t, PhiS1_pos V c _ _ hz]
      iintro ⟨⟨⟨Hr, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS1_castSucc V c t, PhiS1_pos V c _ _ hz]
      iintro ⟨⟨⟨Hr, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-! ## The body obligation, the invariant's two ends, and the accumulator's recursion -/

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨Hr, HS0⟩, Hg⟩
  isplitl [Hr HS0]
  · isplitl [Hr]; · iexact Hr
    iexists _; iexact HS0
  iexact Hg

/-! ## The found pieces, read back as the payloads -/

theorem hz2 : (![0, 0] : Fin 2 → ℕ) = fun _ => 0 := by funext a; fin_cases a <;> rfl
theorem hz3 : (![0, 0, 0] : Fin 3 → ℕ) = fun _ => 0 := by funext a; fin_cases a <;> rfl

/-- Case A leaves the accumulator at the tile's contribution added to zero: the reset store, read back by the load before
    the update, is covered by the update's store. -/
theorem sout1_A_0_eq (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : cond1_0 i) (hc1 : ¬cond1_1 i) (x0 : Vec F S1x16x32768 .f32) (x1 : Vec F S1x1x32768 .i32) (x2 : Vec F S1x32x16 .f32) :
    sout1_A_0 c i arg2 harg2 arg3 harg3 arg4 harg4 arg5 harg5 arg6 harg6 hc0 hc1 x0 x1 x2 = k1_pay3 x1 x0 x2 (k1_pay2 (F := F)) := by
  unfold sout1_A_0; rw [View.read_writes_eq_canon _ _ _ (scover1_A_0 c i arg2 harg2 arg3 harg3 arg4 harg4 arg5 harg5 arg6 harg6 hc0 hc1 x0 x1 x2)]; unfold kernelRun1_A; dsimp only
  sl_unfold_words
  rw [View.canon_cons_unit_zero (S := S32x1) hz2]
  simp only [View.readAt_eq_ld, harg2.read_unread, harg3.read_unread, harg4.read_unread, View.ld_unit_zero (S := S1x16x32768) hz3, View.ld_unit_zero (S := S1x1x32768) hz3, View.ld_unit_zero (S := S1x32x16) hz3, View.readCov_unit_zero (S := S32x1) _ hz2]

/-- Case B leaves it at the tile's contribution added to what it held. -/
theorem sout1_B_0_eq (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : ¬cond1_1 i) (x0 : Vec F S1x16x32768 .f32) (x1 : Vec F S1x1x32768 .i32) (x2 : Vec F S1x32x16 .f32) (xs0 : Vec F S32x1 .f32) :
    sout1_B_0 c i arg2 harg2 arg3 harg3 arg4 harg4 arg5 harg5 arg6 harg6 hc0 hc1 x0 x1 x2 xs0 = k1_pay3 x1 x0 x2 xs0 := by
  unfold sout1_B_0; rw [View.read_writes_eq_canon _ _ _ (scover1_B_0 c i arg2 harg2 arg3 harg3 arg4 harg4 arg5 harg5 arg6 harg6 hc0 hc1 x0 x1 x2 xs0)]; unfold kernelRun1_B; dsimp only
  sl_unfold_words
  rw [View.canon_unit_zero (S := S32x1) hz2]
  simp only [View.readAt_eq_ld, harg2.read_unread, harg3.read_unread, harg4.read_unread, harg6.read_unread, View.ld_unit_zero (S := S1x16x32768) hz3, View.ld_unit_zero (S := S1x1x32768) hz3, View.ld_unit_zero (S := S1x32x16) hz3, View.ld_unit_zero (S := S32x1) hz2]

/-- So does case C, -/
theorem sout1_C_0_eq (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) :
    sout1_C_0 c i arg2 harg2 arg3 harg3 arg4 harg4 arg5 harg5 arg6 harg6 hc0 hc1 x0 x1 x2 xs0 = k1_pay3 x1 x0 x2 xs0 := by
  unfold sout1_C_0; rw [View.read_writes_eq_canon _ _ _ (scover1_C_0 c i arg2 harg2 arg3 harg3 arg4 harg4 arg5 harg5 arg6 harg6 hc0 hc1 x0 x1 x2 xs0)]; unfold kernelRun1_C; dsimp only
  sl_unfold_words
  rw [View.canon_unit_zero (S := S32x1) hz2]
  simp only [View.readAt_eq_ld, harg2.read_unread, harg3.read_unread, harg4.read_unread, harg6.read_unread, View.ld_unit_zero (S := S1x16x32768) hz3, View.ld_unit_zero (S := S1x1x32768) hz3, View.ld_unit_zero (S := S1x32x16) hz3, View.ld_unit_zero (S := S32x1) hz2]

/-- and it leaves the output block at the accumulator's new contents re-laid. -/
theorem out1_C_3_eq (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) :
    out1_C_3 c i arg2 harg2 arg3 harg3 arg4 harg4 arg5 harg5 arg6 harg6 hc0 hc1 x0 x1 x2 xs0 = k1_pay1 (k1_pay3 x1 x0 x2 xs0) := by
  unfold out1_C_3; rw [View.read_writes_eq_canon _ _ _ (cover1_C_3 c i arg2 harg2 arg3 harg3 arg4 harg4 arg5 harg5 arg6 harg6 hc0 hc1 x0 x1 x2 xs0)]; unfold kernelRun1_C; dsimp only
  sl_unfold_words
  rw [View.canon_unit_zero (S := S1x32x1) hz3]
  simp only [View.readAt_eq_ld, harg2.read_unread, harg3.read_unread, harg4.read_unread, harg6.read_unread, View.ld_unit_zero (S := S1x16x32768) hz3, View.ld_unit_zero (S := S1x1x32768) hz3, View.ld_unit_zero (S := S1x32x16) hz3, View.ld_unit_zero (S := S32x1) hz2, View.readCov_unit_zero (S := S32x1) _ hz2]

/-- At a batch's first tile the accumulator ends at the tile's contribution added to zero. -/
theorem acc1_first (c : Dev nD) (t : Fin cfg1.N) (h : t.val % 8 = 0) :
    (outsAt1 V c t.val t.isLt).2 = k1_pay3 (lblk1 V c t) (xblk1 V c t) (mblk1 V c t) (k1_pay2 (F := F)) := by
  have h1 : ¬t.val % 8 = 7 := by omega
  rw [outsAt1_A V c t h h1]; dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h) (fun h' => h1 ((hcond1_1 t).mp h')) (iblk1 V c 0 t) (iblk1 V c 1 t) (iblk1 V c 2 t)

/-- At a later tile it ends at the tile's contribution added to what the tile before left. -/
theorem acc1_next (c : Dev nD) (t : Fin cfg1.N) (h : t.val % 8 ≠ 0) :
    (outsAt1 V c t.val t.isLt).2
      = k1_pay3 (lblk1 V c t) (xblk1 V c t) (mblk1 V c t) (outsAt1 V c (t.val - 1) (Nat.lt_of_le_of_lt (Nat.sub_le _ _) t.isLt)).2 := by
  by_cases h1 : t.val % 8 = 7
  · rw [outsAt1_C V c t h h1]; dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h h1]; dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) (fun h' => h1 ((hcond1_1 t).mp h')) (iblk1 V c 0 t) (iblk1 V c 1 t) (iblk1 V c 2 t) (outsAt1 V c (t.val - 1) (Nat.lt_of_le_of_lt (Nat.sub_le _ _) t.isLt)).2

/-- At a batch's last tile the output block ends at the accumulator's final contents, re-laid as [1, 32, 1]. -/
theorem out1_last (c : Dev nD) (t : Fin cfg1.N) (h : t.val % 8 = 7) :
    (outsAt1 V c t.val t.isLt).1 = k1_pay1 (outsAt1 V c t.val t.isLt).2 := by
  have h0 : ¬t.val % 8 = 0 := by omega
  rw [outsAt1_C V c t h0 h]; dsimp only
  exact (out1_C_3_eq c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2).trans
    (congrArg k1_pay1 (sout1_C_0_eq c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2).symm)

end Cert.Kernel.Hand

end
-- ==== Proof.K.Run.lean ====
/-
  The whole program's run: @main as host stretches and the two kernel regions, each region entered from the buffer
  contents the stretch before it left and left at those contents with its output arrays replaced by what its
  write-backs leave. Every weakly fair execution terminates, and every unscoped buffer ends at the last stretch's
  contents: in particular the arguments as launched, and the result at the host tail's term of the regions' outputs.
-/
import proofs.«422320_j2723009265750_3_alg».proof.Proof.K.R0
import proofs.«422320_j2723009265750_3_alg».proof.Proof.K.R1
import proofs.«422320_j2723009265750_3_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents around the regions -/

/-- What region 0 is entered from, read at the TensorCore's references. -/
abbrev Ve0 : (c : Dev nD) → (b : Ref sig .tc) → Buf (Elt F) ((c : Thread nD τ).loc b) := fun c b => Gen.V3 m c b

/-- What region 0 leaves: its arrays at what the pipeline's write-backs leave, every other buffer as entered. -/
def W4 (c : Dev nD) : Valuation τ sig (Elt F) :=
  Pipeline.withArrays spec0 c (Gen.V3 m c) fun w => (dat0 (Ve0 m) c).arrAt w cfg0.N
theorem W4_arr (c : Dev nD) (w : Fin cfg0.W) :
    W4 m c (Proc.devRef .tc (Pipeline.arrRef spec0 w)) = (dat0 (Ve0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb

/-- The regions' outputs as far as region 0 determines them. -/
def outs4 : Gen.Outs (F := F) := fun _ r c => W4 m c r

/-- What region 1 is entered from. -/
abbrev Ve1 : (c : Dev nD) → (b : Ref sig .tc) → Buf (Elt F) ((c : Thread nD τ).loc b) := fun c b => Gen.V5 m (outs4 m) c b

/-- What region 1 leaves. -/
def W6 (c : Dev nD) : Valuation τ sig (Elt F) :=
  Pipeline.withArrays spec1 c (Gen.V5 m (outs4 m) c) fun w => (dat1 (Ve1 m) c).arrAt w cfg1.N
theorem W6_arr (c : Dev nD) (w : Fin cfg1.W) :
    W6 m c (Proc.devRef .tc (Pipeline.arrRef spec1 w)) = (dat1 (Ve1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = Gen.V5 m (outs4 m) c (Proc.devRef .tc b) := by
  unfold W6; exact Pipeline.withArrays_of_ne spec1 c _ _ b hb

/-- What the two regions leave in their output arrays. -/
def outs : Gen.Outs (F := F) := fun J r c => if J ≤ 4 then W4 m c r else W6 m c r

theorem outs_4 (r : Ref sig .tc) (c : Dev nD) : outs m 4 r c = W4 m c r := by
  unfold outs; exact if_pos (by decide)
theorem outs_6 (r : Ref sig .tc) (c : Dev nD) : outs m 6 r c = W6 m c r := by
  unfold outs; exact if_neg (by decide)
theorem V4_outs (c : Dev nD) : Gen.V4 m (outs m) c = Gen.V4 m (outs4 m) c := by
  unfold Gen.V4
  rw [outs_4, outs_4]; rfl
theorem V5_outs (c : Dev nD) : Gen.V5 m (outs m) c = Gen.V5 m (outs4 m) c := by
  show StableHlo.after hostOps1 (Gen.V4 m (outs m) c) = StableHlo.after hostOps1 (Gen.V4 m (outs4 m) c)
  rw [V4_outs]
attribute [irreducible] outs

/-- The valuation after region 0 at its two output arrays, for any outputs. -/
theorem V4_at0 (o : Gen.Outs (F := F)) (c : Dev nD) : Gen.V4 m o c (Proc.devRef .tc main_v3_0) = o 4 main_v3_0 c :=
  (Function.update_of_ne (StableHlo.devRef_ne_of_ne (show main_v3_0 ≠ main_v3_1 by decide) : (Proc.devRef .tc main_v3_0 : DevRef τ sig) ≠ Proc.devRef .tc main_v3_1) _ _).trans
    (Function.update_self _ _ _)
theorem V4_at1 (o : Gen.Outs (F := F)) (c : Dev nD) : Gen.V4 m o c (Proc.devRef .tc main_v3_1) = o 4 main_v3_1 c :=
  Function.update_self _ _ _
theorem V6_at (o : Gen.Outs (F := F)) (c : Dev nD) : Gen.V6 m o c (Proc.devRef .tc main_v10) = o 6 main_v10 c :=
  Function.update_self _ _ _

theorem hF0_0 (c : Dev nD) : (dat0 (Ve0 m) c).arrAt 0 cfg0.N = Gen.V4 m (outs m) c (Pipeline.arrRef spec0 0) :=
  ((dat0 (Ve0 m) c).arrAt_in 0 rfl _).trans ((A_eq0 (Ve0 m) c 0).trans (Gen.V4_of m (outs m) c main_v2 (by decide)).symm)
theorem hF0_1 (c : Dev nD) : (dat0 (Ve0 m) c).arrAt 1 cfg0.N = Gen.V4 m (outs m) c (Pipeline.arrRef spec0 1) :=
  ((dat0 (Ve0 m) c).arrAt_in 1 rfl _).trans ((A_eq0 (Ve0 m) c 1).trans (Gen.V4_of m (outs m) c main_v1 (by decide)).symm)
theorem W4_v3_0 (c : Dev nD) : (dat0 (Ve0 m) c).arrAt 2 cfg0.N = W4 m c (Proc.devRef .tc main_v3_0) := (W4_arr m c 2).symm
theorem W4_v3_1 (c : Dev nD) : (dat0 (Ve0 m) c).arrAt 3 cfg0.N = W4 m c (Proc.devRef .tc main_v3_1) := (W4_arr m c 3).symm
theorem V4_v3_0 (c : Dev nD) : W4 m c (Proc.devRef .tc main_v3_0) = Gen.V4 m (outs m) c (Proc.devRef .tc main_v3_0) :=
  (outs_4 m main_v3_0 c).symm.trans (V4_at0 m (outs m) c).symm
theorem V4_v3_1 (c : Dev nD) : W4 m c (Proc.devRef .tc main_v3_1) = Gen.V4 m (outs m) c (Proc.devRef .tc main_v3_1) :=
  (outs_4 m main_v3_1 c).symm.trans (V4_at1 m (outs m) c).symm
theorem hF0_2 (c : Dev nD) : (dat0 (Ve0 m) c).arrAt 2 cfg0.N = Gen.V4 m (outs m) c (Pipeline.arrRef spec0 2) :=
  (W4_v3_0 m c).trans (V4_v3_0 m c)
theorem hF0_3 (c : Dev nD) : (dat0 (Ve0 m) c).arrAt 3 cfg0.N = Gen.V4 m (outs m) c (Pipeline.arrRef spec0 3) :=
  (W4_v3_1 m c).trans (V4_v3_1 m c)

/-- After region 0 each of its arrays holds what the pipeline leaves, -/
theorem hF0 (c : Dev nD) (w : Fin cfg0.W) : (dat0 (Ve0 m) c).arrAt w cfg0.N = Gen.V4 m (outs m) c (Pipeline.arrRef spec0 w) :=
  match w with
  | ⟨0, _⟩ => hF0_0 m c
  | ⟨1, _⟩ => hF0_1 m c
  | ⟨2, _⟩ => hF0_2 m c
  | ⟨3, _⟩ => hF0_3 m c
/-- and every other buffer what it held at entry. -/
theorem hrest0 (c : Dev nD) : ∀ b : Ref sig .tc, b ∉ Finset.univ.image (Pipeline.arrRef spec0) → Gen.V4 m (outs m) c b = Ve0 m c b := by
  intro b hb
  refine Gen.V4_of m (outs m) c b ?_
  intro hmem
  simp only [List.mem_cons, List.mem_nil_iff, or_false] at hmem
  rcases hmem with rfl | rfl
  · exact hb (Finset.mem_image.mpr ⟨2, Finset.mem_univ _, rfl⟩)
  · exact hb (Finset.mem_image.mpr ⟨3, Finset.mem_univ _, rfl⟩)

theorem hF1_0 (c : Dev nD) : (dat1 (Ve1 m) c).arrAt 0 cfg1.N = Gen.V6 m (outs m) c (Pipeline.arrRef spec1 0) :=
  ((dat1 (Ve1 m) c).arrAt_in 0 rfl _).trans ((A_eq1 (Ve1 m) c 0).trans ((Gen.V6_of m (outs m) c main_v2 (by decide)).trans (congrFun (V5_outs m c) _)).symm)
theorem hF1_1 (c : Dev nD) : (dat1 (Ve1 m) c).arrAt 1 cfg1.N = Gen.V6 m (outs m) c (Pipeline.arrRef spec1 1) :=
  ((dat1 (Ve1 m) c).arrAt_in 1 rfl _).trans ((A_eq1 (Ve1 m) c 1).trans ((Gen.V6_of m (outs m) c main_v1 (by decide)).trans (congrFun (V5_outs m c) _)).symm)
theorem hF1_2 (c : Dev nD) : (dat1 (Ve1 m) c).arrAt 2 cfg1.N = Gen.V6 m (outs m) c (Pipeline.arrRef spec1 2) :=
  ((dat1 (Ve1 m) c).arrAt_in 2 rfl _).trans ((A_eq1 (Ve1 m) c 2).trans ((Gen.V6_of m (outs m) c main_v9 (by decide)).trans (congrFun (V5_outs m c) _)).symm)
theorem W6_v10 (c : Dev nD) : (dat1 (Ve1 m) c).arrAt 3 cfg1.N = W6 m c (Proc.devRef .tc main_v10) := (W6_arr m c 3).symm
theorem V6_v10 (c : Dev nD) : W6 m c (Proc.devRef .tc main_v10) = Gen.V6 m (outs m) c (Proc.devRef .tc main_v10) :=
  (outs_6 m main_v10 c).symm.trans (V6_at m (outs m) c).symm
theorem hF1_3 (c : Dev nD) : (dat1 (Ve1 m) c).arrAt 3 cfg1.N = Gen.V6 m (outs m) c (Pipeline.arrRef spec1 3) :=
  (W6_v10 m c).trans (V6_v10 m c)

theorem hF1 (c : Dev nD) (w : Fin cfg1.W) : (dat1 (Ve1 m) c).arrAt w cfg1.N = Gen.V6 m (outs m) c (Pipeline.arrRef spec1 w) :=
  match w with
  | ⟨0, _⟩ => hF1_0 m c
  | ⟨1, _⟩ => hF1_1 m c
  | ⟨2, _⟩ => hF1_2 m c
  | ⟨3, _⟩ => hF1_3 m c
theorem hrest1 (c : Dev nD) : ∀ b : Ref sig .tc, b ∉ Finset.univ.image (Pipeline.arrRef spec1) → Gen.V6 m (outs m) c b = Ve1 m c b := by
  intro b hb
  refine (Gen.V6_of m (outs m) c b ?_).trans (congrFun (V5_outs m c) _)
  intro hmem
  simp only [List.mem_cons, List.mem_nil_iff, or_false] at hmem
  rcases hmem with rfl
  exact hb (Finset.mem_image.mpr ⟨3, Finset.mem_univ _, rfl⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the contents before it, left at the contents
    after it. Its arrays are split out of the unscoped buffers and put back at their exit contents; the generator
    register goes into the invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (fun b => (Gen.V4 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at their exit contents; the generator
    register goes into the invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V5_outs m c]
    have hsplit := Pipeline.arrays_of_unscopedBufs (p := 1) (pcfgs (F := F)) Gen.adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Ve1 m c) (fun b => (Gen.V6 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters, every weakly fair execution of @main terminates, nothing faulting, and every
    unscoped buffer of the TensorCore ends at the contents the last host stretch leaves. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V11 m (outs m) c b) := by
  refine Pipeline.θ_run_regions_kit_dev (pcfgs (F := F)) Gen.adm (pdats m) () cellOf_inj emb₁ defs₀ 𝒱₀ L lv m ρ main
    (Gen.segs m (outs m) 𝒱₀ L lv (fun _ => R) () (pdats m) (reg0 m) (reg1 m))
    (fun c Q => by
      rewrite [main_chain c, Pipeline.Seg.run_eq_chain,
        show (Gen.segs m (outs m) 𝒱₀ L lv (fun _ => R) () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V11 m (outs m) c))
    (hch := fun c => ⟨.rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V11 m (outs m) c b)
    (hfin := fun c s' => by
      iintro ⟨Hh, HSI⟩
      unfold StableHlo.held
      imodintro
      iapply (pointsTo_read_all (Pipeline.ucRefs τ sig) (fun b => (((c : Thread nD τ)).1, b)) (Gen.V11 m (outs m) c) s')
      isplitl [Hh] <;> iassumption)
    (hQ := fun s h c => h c)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Gen.V11_main_arg0 m (outs m) c),
     (h c _ (mem_uc main_arg1 (by decide))).trans (Gen.V11_main_arg1 m (outs m) c)⟩) (run_all m ρ)

/-- The run with the result named: the result buffer ends at the last stretch's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v57) = Gen.V11 m (outs m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v57 (by decide)),
     (h c _ (mem_uc main_arg0 (by decide))).trans (Gen.V11_main_arg0 m (outs m) c),
     (h c _ (mem_uc main_arg1 (by decide))).trans (Gen.V11_main_arg1 m (outs m) c)⟩) (run_all m ρ)

end Cert.Kernel.Hand

end
-- ==== Proof.KI.R0Runs.lean ====
/-
  Region 0 (the per-cluster sums and counts): the kernel body run once per control case.
  The grid is 8 batches × 8 tiles; a point is in case A at a batch's first tile (both accumulators are reset, then added
  to), in case C at its last tile (added to, then both copied to the output blocks), in case B in between (added to).
  Each run holds the two input blocks at named contents and records, as the pieces stored, what the two accumulators
  and the two output blocks end with.
-/
import proofs.«422320_j2723009265750_3_alg».proof.Proof.Gen.KernelIdeal.Launch
import proofs.«422320_j2723009265750_3_alg».proof.Proof.Gen.KernelIdeal.Skeleton
import proofs.«422320_j2723009265750_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch: the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The copy-out branch: the tile coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev VO0_2 : View sig .tc .vmem S1x32x16 .f32 := (Memref.whole cc0_stg2_0 : Memref sig .tc .vmem S1x32x16 .f32).view
abbrev VO0_3 : View sig .tc .vmem S1x32x1 .f32 := (Memref.whole cc0_stg3_0 : Memref sig .tc .vmem S1x32x1 .f32).view
abbrev ms0_0 (t : Fin cfg0.N) : Memref sig .tc .vmem S1x16x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x32768 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x1 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S32x16 .f32 := Memref.whole cc0_scratch0
abbrev scM0_1 : Memref sig .tc .vmem S32x1 .f32 := Memref.whole cc0_scratch1
abbrev VS0_0 : View sig .tc .vmem S32x16 .f32 := scM0_0.view
abbrev VS0_1 : View sig .tc .vmem S32x1 .f32 := scM0_1.view

/-- The core's other scoped buffers (the second call's staging buffers and accumulator), each whole at some contents:
    they ride through this region untouched. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- The class invariant with the two accumulators as memrefs owned at some contents, the other scoped buffers beside. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; simp only [scM0_0, scM0_1, owns_whole]; try rfl

set_option maxHeartbeats 4000000 in
/-- Case A (the reset branch taken, the copy-out branch not): both accumulators are zeroed, loaded back and stored with the
    tile's contribution added; the output blocks are not touched. The accumulators may hold anything on entry. -/
noncomputable def kernelRun0_A (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i)
    (x0 : Vec F S1x16x32768 .f32) (x1 : Vec F S1x1x32768 .i32) :
    Σ' (LS0 : List (View.Piece (Elt F) S32x16 .f32)), { LS1 : List (View.Piece (Elt F) S32x1 .f32) //
      ∀ (xi2 : Vec F S1x32x16 .f32) (xi3 : Vec F S1x32x1 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare xi2
                ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__sums_kernel i arg2 harg2 arg3 harg3 arg4 harg4 arg5 harg5 arg6 harg6 arg7 harg7) K } := by
  refine ⟨?_, ?_, fun xi2 xi3 E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

/-! ## The body's run, case by case -/

set_option maxHeartbeats 4000000 in
/-- Case B (neither branch taken): both accumulators are loaded and stored back with the tile's contribution added;
    the output blocks are not touched. The pieces the accumulators end with are found by the run. -/
noncomputable def kernelRun0_B (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i)
    (x0 : Vec F S1x16x32768 .f32) (x1 : Vec F S1x1x32768 .i32) (xs0 : Vec F S32x16 .f32) (xs1 : Vec F S32x1 .f32) :
    Σ' (LS0 : List (View.Piece (Elt F) S32x16 .f32)), { LS1 : List (View.Piece (Elt F) S32x1 .f32) //
      ∀ (xi2 : Vec F S1x32x16 .f32) (xi3 : Vec F S1x32x1 .f32) (E : Set ℕ) (K : PUnit → sProp 𝕄),
        iprop(owns (c : Thread nD τ) arg2 fullShare x0 ∗ owns (c : Thread nD τ) arg3 fullShare x1
            ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare xi2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__sums_kernel i arg2 harg2 arg3 harg3 arg4 harg4 arg5 harg5 arg6 harg6 arg7 harg7) K } := by
  refine ⟨?_, ?_, fun xi2 xi3 E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1
    obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 4000000 in
/-- Case C (the reset branch not taken, the copy-out branch taken): both accumulators are loaded and stored with the tile's
    contribution added, then loaded again and stored whole into the two output blocks, which may hold anything on entry. -/
noncomputable def kernelRun0_C (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i)
    (x0 : Vec F S1x16x32768 .f32) (x1 : Vec F S1x1x32768 .i32) (xs0 : Vec F S32x16 .f32) (xs1 : Vec F S32x1 .f32) :
    Σ' (L2 : List (View.Piece (Elt F) S1x32x16 .f32)) (L3 : List (View.Piece (Elt F) S1x32x1 .f32)) (LS0 : List (View.Piece (Elt F) S32x16 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__sums_kernel i arg2 harg2 arg3 harg3 arg4 harg4 arg5 harg5 arg6 harg6 arg7 harg7) K } := by
  refine ⟨?_, ?_, ?_, ?_, fun E K => ?run⟩
  case run =>
    simp only [cc0__sums_kernel_eq_skeleton]; unfold cc0__sums_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.R0.lean ====
/-
  Region 0 (the per-cluster sums and counts): what the two accumulators and the two output blocks hold after every grid
  point, the proof data of the pipeline over them, and the body obligation.
  The accumulators are carried from one tile of a batch to the next: after a batch's first tile they hold that tile's
  contribution added to zero, after a later tile the tile's contribution added to what the tile before left; at the
  batch's last tile they are copied to the output blocks, which are written back there and nowhere else.
-/
import proofs.«422320_j2723009265750_3_alg».proof.Proof.KI.R0Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embeddings' tile and the labels' tile at point `t`, at their literal types. -/
abbrev xblk0 (c : Dev nD) (t : Fin cfg0.N) : Vec F S1x16x32768 .f32 := iblk0 V c 0 t
abbrev lblk0 (c : Dev nD) (t : Fin cfg0.N) : Vec F S1x1x32768 .i32 := iblk0 V c 1 t

/-- An input window's current staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: the found pieces read back -/

/-- An output block no case has stored into yet: a placeholder nothing consults (the window is idle and not written back). -/
def idle0_2 : Vec F S1x32x16 .f32 := VO0_2.read (Elt F) VO0_2.junk
def idle0_3 : Vec F S1x32x1 .f32 := VO0_3.read (Elt F) VO0_3.junk

def sout0_A_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) : Vec F S32x16 .f32 :=
  VS0_0.read (Elt F) (VS0_0.writes (Elt F) VS0_0.junk (kernelRun0_A c i arg2 harg2 arg3 harg3 arg4 harg4 arg5 harg5 arg6 harg6 arg7 harg7 hc0 hc1 x0 x1).1)
def sout0_A_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) : Vec F S32x1 .f32 :=
  VS0_1.read (Elt F) (VS0_1.writes (Elt F) VS0_1.junk (kernelRun0_A c i arg2 harg2 arg3 harg3 arg4 harg4 arg5 harg5 arg6 harg6 arg7 harg7 hc0 hc1 x0 x1).2.1)
def sout0_B_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) : Vec F S32x16 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).1)
def sout0_B_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) : Vec F S32x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.1)
def out0_C_2 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) : Vec F S1x32x16 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
def out0_C_3 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) : Vec F S1x32x1 .f32 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
def sout0_C_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) : Vec F S32x16 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
def sout0_C_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) : Vec F S32x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-- Each case's pieces for a buffer tile it, so they cover it. -/
theorem scover0_A_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) (y : S32x16.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S32x16.size (by sl_kernel_rfl) y
theorem scover0_A_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) (y : S32x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S32x1.size (by sl_kernel_rfl) y
theorem scover0_B_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) (y : S32x16.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S32x16.size (by sl_kernel_rfl) y
theorem scover0_B_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) (y : S32x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S32x1.size (by sl_kernel_rfl) y
theorem cover0_C_2 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) (y : S1x32x16.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x32x16.size (by sl_kernel_rfl) y
theorem cover0_C_3 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) (y : S1x32x1.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1x32x1.size (by sl_kernel_rfl) y
theorem scover0_C_0 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) (y : S32x16.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S32x16.size (by sl_kernel_rfl) y
theorem scover0_C_1 (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) (y : S32x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S32x1.size (by sl_kernel_rfl) y

/-! ## What the buffers hold after each point -/

/-- After the body at position `n`: ((output block 2, output block 3), (accumulator 0, accumulator 1)). The case is the
    one the closed forms select at `n`; cases B and C start from what position `n - 1` left in the accumulators. -/
def outsAt0 (c : Dev nD) : (n : ℕ) → n < cfg0.N → (Vec F S1x32x16 .f32 × Vec F S1x32x1 .f32) × (Vec F S32x16 .f32 × Vec F S32x1 .f32)
  | 0, hn => ((idle0_2, idle0_3),
      (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)))
  | n + 1, hn =>
    if h0 : (n + 1) % 8 = 0 then
      if h1 : (n + 1) % 8 = 7 then
        False.elim (by omega)
      else
        ((idle0_2, idle0_3),
         (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)))
    else
      if h1 : (n + 1) % 8 = 7 then
        ((out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
          out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2),
         (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2,
          sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2))
      else
        ((idle0_2, idle0_3),
         (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2,
          sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2))

/-- The region invariant before position `n`: before the first point the class's; afterwards the two accumulators at what
    the point before left in them, the other scoped buffers at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 (F := F) c) ∗ (∃ r, prngReg c r))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1.1
    | ⟨3, _⟩ => (outsAt0 V c t.val t.isLt).1.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1.1 := by dsimp only [dat0]
theorem after0_3 (c : Dev nD) (t : Fin cfg0.N) : (dat0 V c).after 3 t = (outsAt0 V c t.val t.isLt).1.2 := by dsimp only [dat0]

/-! ## What the buffers hold at a point of each case -/

/-- At a batch's first tile: case A's contents. -/
theorem outsAt0_A (c : Dev nD) (t : Fin cfg0.N) (h0 : t.val % 8 = 0) (h1 : ¬t.val % 8 = 7) :
    outsAt0 V c t.val t.isLt = ((idle0_2, idle0_3),
      (sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t),
       sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t))) := by
  obtain ⟨n, hn⟩ := t
  cases n with
  | zero => exact rfl
  | succ n => exact (dif_pos h0).trans ((dif_neg h1).trans rfl)

/-- At a tile that is neither first nor last: case B's contents, over what the point before left. -/
theorem outsAt0_B (c : Dev nD) (t : Fin cfg0.N) (h0 : ¬t.val % 8 = 0) (h1 : ¬t.val % 8 = 7) :
    outsAt0 V c t.val t.isLt = ((idle0_2, idle0_3),
      (sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
       sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_neg h1).trans rfl)

/-- At a batch's last tile: case C's contents, over what the point before left. -/
theorem outsAt0_C (c : Dev nD) (t : Fin cfg0.N) (h0 : ¬t.val % 8 = 0) (h1 : t.val % 8 = 7) :
    outsAt0 V c t.val t.isLt =
      ((out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
        out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2),
       (sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_pos h1).trans rfl)

/-! ## The invariant, position by position -/

theorem PhiS0_zero (c : Dev nD) (n : ℕ) (h : n ≤ cfg0.N) (hz : n = 0) : PhiS0 V c n h = Pipeline.ΦA spec0 c := by
  subst hz; rfl

/-- After point `n`: the accumulators at that point's contents. -/
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ others0 (F := F) c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 (F := F) c) ∗ (∃ r, prngReg c r)) := by
  cases n with
  | zero => exact absurd rfl hz
  | succ n => rfl

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The input buffers hold their blocks; the closed forms say which case the point is in; the
    invariant hands over the accumulators (at anything before the first point, at what the point before left afterwards)
    and takes them back at this point's contents; the output buffers are handed back untouched unless the tile is a
    batch's last, where they are taken at anything and returned at the copy. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3
      · rw [PhiS0_castSucc V c t, PhiS0_pos V c _ _ hz]
        iintro ⟨⟨⟨HS0, HS1, Hoth⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hoth Hg]
        · isplitl [HS0 HS1 Hoth]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            iexact Hoth
          iexact Hg
        isplitl [Ho]; · iexact Ho
        isplitl [H0]; · iexact H0
        isplitl [H1]; · iexact H1
        isplitl [H2]; · iexists _; iexact H2
        iexists _; iexact H3
  · have hz : t.val ≠ 0 := fun hz => h0 (by rw [hz])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_2 out0_C_3 sout0_C_0 sout0_C_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ (fun h => h0 ((hcond0_0 t).mp h)) ((hcond0_1 t).mpr h1) (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0 sout0_B_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      iexists _; iexact H3

/-- After any point but the first the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-! ## The found pieces, read as the skeleton's payloads -/

theorem offs0_zero2 : (![0, 0] : Fin 2 → Nat) = fun _ => 0 := funext fun a => by fin_cases a <;> rfl
theorem offs0_zero3 : (![0, 0, 0] : Fin 3 → Nat) = fun _ => 0 := funext fun a => by fin_cases a <;> rfl

/-- Case A leaves in accumulator 0 the tile's contribution added to the zero block it has just stored there. -/
theorem sout0_A_0_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) :
    sout0_A_0 c i arg2 harg2 arg3 harg3 arg4 harg4 arg5 harg5 arg6 harg6 arg7 harg7 hc0 hc1 x0 x1 = k0_pay4 x1 x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S32x16) offs0_zero2, View.readCov_unit_zero (S := S32x16) _ offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case A leaves in accumulator 1 the tile's counts added to the zero block it has just stored there. -/
theorem sout0_A_1_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : cond0_0 i) (hc1 : ¬cond0_1 i) (x0 : Vec F S1x16x32768 .f32) (x1 : Vec F S1x1x32768 .i32) :
    sout0_A_1 c i arg2 harg2 arg3 harg3 arg4 harg4 arg5 harg5 arg6 harg6 arg7 harg7 hc0 hc1 x0 x1 = k0_pay5 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S32x1) offs0_zero2, View.readCov_unit_zero (S := S32x1) _ offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case B leaves in accumulator 0 the tile's contribution added to what it held. -/
theorem sout0_B_0_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) :
    sout0_B_0 c i arg2 harg2 arg3 harg3 arg4 harg4 arg5 harg5 arg6 harg6 arg7 harg7 hc0 hc1 x0 x1 xs0 xs1 = k0_pay4 x1 x0 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case B leaves in accumulator 1 the tile's counts added to what it held. -/
theorem sout0_B_1_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : ¬cond0_1 i) (x0 : Vec F S1x16x32768 .f32) (x1 : Vec F S1x1x32768 .i32) (xs0 : Vec F S32x16 .f32) (xs1 : Vec F S32x1 .f32) :
    sout0_B_1 c i arg2 harg2 arg3 harg3 arg4 harg4 arg5 harg5 arg6 harg6 arg7 harg7 hc0 hc1 x0 x1 xs0 xs1 = k0_pay5 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case C leaves in accumulator 0 the tile's contribution added to what it held. -/
theorem sout0_C_0_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) :
    sout0_C_0 c i arg2 harg2 arg3 harg3 arg4 harg4 arg5 harg5 arg6 harg6 arg7 harg7 hc0 hc1 x0 x1 xs0 xs1 = k0_pay4 x1 x0 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case C leaves in accumulator 1 the tile's counts added to what it held. -/
theorem sout0_C_1_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) :
    sout0_C_1 c i arg2 harg2 arg3 harg3 arg4 harg4 arg5 harg5 arg6 harg6 arg7 harg7 hc0 hc1 x0 x1 xs0 xs1 = k0_pay5 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero offs0_zero2]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case C leaves in output block 2 the accumulator's new contents, re-laid. -/
theorem out0_C_2_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) :
    out0_C_2 c i arg2 harg2 arg3 harg3 arg4 harg4 arg5 harg5 arg6 harg6 arg7 harg7 hc0 hc1 x0 x1 xs0 xs1 = k0_pay6 (k0_pay4 x1 x0 xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero offs0_zero3]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-- Case C leaves in output block 3 the accumulator's new contents, re-laid. -/
theorem out0_C_3_eq (c : Dev nD) (i : grid0.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x16 .f32) (harg6 : arg6.IsWhole) (arg7 : Memref sig .tc .vmem S32x1 .f32) (harg7 : arg7.IsWhole) (hc0 : ¬cond0_0 i) (hc1 : cond0_1 i) (x0 : Vec F S1x16x32768 .f32) (x1 : Vec F S1x1x32768 .i32) (xs0 : Vec F S32x16 .f32) (xs1 : Vec F S32x1 .f32) :
    out0_C_3 c i arg2 harg2 arg3 harg3 arg4 harg4 arg5 harg5 arg6 harg6 arg7 harg7 hc0 hc1 x0 x1 xs0 xs1 = k0_pay7 (k0_pay5 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero offs0_zero3]
  simp only [View.readCov_unit_zero (S := S32x16) _ offs0_zero2, View.readCov_unit_zero (S := S32x1) _ offs0_zero2, View.readAt_eq_ld,
    harg2.read_unread, harg3.read_unread, harg6.read_unread, harg7.read_unread,
    View.ld_unit_zero (S := S1x16x32768) offs0_zero3, View.ld_unit_zero (S := S1x1x32768) offs0_zero3,
    View.ld_unit_zero (S := S32x16) offs0_zero2, View.ld_unit_zero (S := S32x1) offs0_zero2]

/-! ## The body obligation, the invariant's two ends, and the accumulators' recursion -/

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulators' named contents are forgotten. -/
theorem hout0 (c : Dev nD) : (dat0 V c).Φ (Fin.last cfg0.N) ⊢ Pipeline.ΦA spec0 c :=
  Phi_out0 V c _ (by rw [Fin.val_last]; have : cfg0.N = 64 := N_0; omega)

/-- At a batch's first tile the accumulators end at the tile's contribution added to zero. -/
theorem acc0_first (c : Dev nD) (t : Fin cfg0.N) (h : t.val % 8 = 0) :
    (outsAt0 V c t.val t.isLt).2 = (k0_pay4 (lblk0 V c t) (xblk0 V c t) (k0_pay1 (F := F)), k0_pay5 (lblk0 V c t) (k0_pay2 (F := F))) := by
  have h1 : ¬t.val % 8 = 7 := by omega
  rw [outsAt0_A V c t h h1]
  dsimp only
  exact congrArg₂ Prod.mk
    (sout0_A_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h) (fun h' => h1 ((hcond0_1 t).mp h')) (iblk0 V c 0 t) (iblk0 V c 1 t))
    (sout0_A_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h) (fun h' => h1 ((hcond0_1 t).mp h')) (iblk0 V c 0 t) (iblk0 V c 1 t))

/-- At a later tile they end at the tile's contribution added to what the tile before left. -/
theorem acc0_next (c : Dev nD) (t : Fin cfg0.N) (h : t.val % 8 ≠ 0) :
    (outsAt0 V c t.val t.isLt).2
      = (k0_pay4 (lblk0 V c t) (xblk0 V c t) (outsAt0 V c (t.val - 1) (Nat.lt_of_le_of_lt (Nat.sub_le _ _) t.isLt)).2.1,
         k0_pay5 (lblk0 V c t) (outsAt0 V c (t.val - 1) (Nat.lt_of_le_of_lt (Nat.sub_le _ _) t.isLt)).2.2) := by
  by_cases h1 : t.val % 8 = 7
  · rw [outsAt0_C V c t h h1]
    dsimp only
    exact congrArg₂ Prod.mk
      (sout0_C_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h ((hcond0_0 t).mp h')) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (sout0_C_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h ((hcond0_0 t).mp h')) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
  · rw [outsAt0_B V c t h h1]
    dsimp only
    exact congrArg₂ Prod.mk
      (sout0_B_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h ((hcond0_0 t).mp h')) (fun h' => h1 ((hcond0_1 t).mp h')) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)
      (sout0_B_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h ((hcond0_0 t).mp h')) (fun h' => h1 ((hcond0_1 t).mp h')) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2)

/-- At a batch's last tile the output blocks end at the accumulators' final contents, re-laid as [1, 32, ·]. -/
theorem out0_last (c : Dev nD) (t : Fin cfg0.N) (h : t.val % 8 = 7) :
    (outsAt0 V c t.val t.isLt).1 = (k0_pay6 (outsAt0 V c t.val t.isLt).2.1, k0_pay7 (outsAt0 V c t.val t.isLt).2.2) := by
  have h0 : ¬t.val % 8 = 0 := by omega
  rw [outsAt0_C V c t h0 h]
  dsimp only
  exact congrArg₂ Prod.mk
    ((out0_C_2_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).trans
      (congrArg k0_pay6 (sout0_C_0_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).symm))
    ((out0_C_3_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).trans
      (congrArg k0_pay7 (sout0_C_1_eq c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2).symm))

end Cert.KernelIdeal.Hand

end
-- ==== Proof.KI.R1Runs.lean ====
/-
  Region 1 (the per-cluster sum of squared hinge distances): the kernel body run once per control case.
  The grid is 8 batches × 8 tiles; a point is in case A at a batch's first tile (the accumulator is reset, then added
  to), in case C at its last tile (added to, then copied to the output block), in case B in between (added to).
  Each run holds the three input blocks at named contents and records, as the pieces stored, what the accumulator
  and the output block end with.
-/
import proofs.«422320_j2723009265750_3_alg».proof.Proof.Gen.KernelIdeal.Launch
import proofs.«422320_j2723009265750_3_alg».proof.Proof.Gen.KernelIdeal.Skeleton
import proofs.«422320_j2723009265750_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch: the tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The copy-out branch: the tile coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S1x32x1 .f32 := (Memref.whole cc1_stg3_0 : Memref sig .tc .vmem S1x32x1 .f32).view
abbrev ms1_0 (t : Fin cfg1.N) : Memref sig .tc .vmem S1x16x32768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x32768 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32x1 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S32x1 .f32 := Memref.whole cc1_scratch0
abbrev VS1_0 : View sig .tc .vmem S32x1 .f32 := scM1_0.view

/-- The core's other scoped buffers (the first call's staging buffers and accumulators), each whole at some contents:
    they ride through this region untouched. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The same buffers with one more conjunct at the end of the chain. -/
def others1With (c : Dev nD) (Q : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ Q)

/-- The chain with a last conjunct gives the ten buffers beside that conjunct, -/
theorem others1With_split (c : Dev nD) (Q : sProp 𝕄) : others1With (F := F) c Q ⊢ iprop(others1 (F := F) c ∗ Q) := by
  unfold others1With others1
  iintro ⟨A0, A1, A2, A3, A4, A5, A6, A7, A8, A9, HQ⟩
  isplitr [HQ]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact HQ

/-- and back, -/
theorem others1With_join (c : Dev nD) (Q : sProp 𝕄) : iprop(others1 (F := F) c ∗ Q) ⊢ others1With (F := F) c Q := by
  unfold others1With others1
  iintro ⟨⟨A0, A1, A2, A3, A4, A5, A6, A7, A8, A9⟩, HQ⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact HQ

/-- so the two are equal. -/
theorem others1With_eq (c : Dev nD) (Q : sProp 𝕄) : others1With (F := F) c Q = iprop(others1 (F := F) c ∗ Q) :=
  BI.Entails.antisymm (others1With_split c Q) (others1With_join c Q)

/-- The class invariant with the accumulator as a memref owned at some contents, the other scoped buffers beside. -/
theorem PhiA1_eq (c : Dev nD) :
    (Pipeline.ΦA spec1 c : sProp 𝕄)
      = iprop(iprop(others1 (F := F) c ∗ (∃ d, owns (c : Thread nD τ) scM1_0 fullShare d)) ∗ (∃ r, prngReg c r)) := by
  rw [← others1With_eq]
  unfold Pipeline.ΦA others1With; rw [scopedRest1_eq]; simp only [scM1_0, owns_whole]; try rfl

/-! ## The body's run, case by case -/

set_option maxHeartbeats 4000000 in
/-- Case A (the reset branch taken, the copy-out branch not): the accumulator is zeroed, loaded back and stored with the
    tile's contribution added; the output block is not touched. The accumulator may hold anything on entry. -/
noncomputable def kernelRun1_A (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : cond1_0 i) (hc1 : ¬cond1_1 i)
    (x0 : Vec F S1x16x32768 .f32) (x1 : Vec F S1x1x32768 .i32) (x2 : Vec F S1x32x16 .f32) :
    { LS0 : List (View.Piece (Elt F) S32x1 .f32) //
      ∀ (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__varsum_kernel i arg2 harg2 arg3 harg3 arg4 harg4 arg5 harg5 arg6 harg6) K } := by
  refine ⟨?_, fun xi3 E K => ?run⟩
  case run =>
    simp only [cc1__varsum_kernel_eq_skeleton]; unfold cc1__varsum_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Case B (neither branch taken): the accumulator is loaded and stored back with the tile's contribution added;
    the output block is not touched. -/
noncomputable def kernelRun1_B (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : ¬cond1_1 i)
    (x0 : Vec F S1x16x32768 .f32) (x1 : Vec F S1x1x32768 .i32) (x2 : Vec F S1x32x16 .f32) (xs0 : Vec F S32x1 .f32) :
    { LS0 : List (View.Piece (Elt F) S32x1 .f32) //
      ∀ (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1__varsum_kernel i arg2 harg2 arg3 harg3 arg4 harg4 arg5 harg5 arg6 harg6) K } := by
  refine ⟨?_, fun xi3 E K => ?run⟩
  case run =>
    simp only [cc1__varsum_kernel_eq_skeleton]; unfold cc1__varsum_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1
    obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Case C (the reset branch not taken, the copy-out branch taken): the accumulator is loaded and stored with the tile's
    contribution added, then loaded again and stored whole into the output block, which may hold anything on entry. -/
noncomputable def kernelRun1_C (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i)
    (x0 : Vec F S1x16x32768 .f32) (x1 : Vec F S1x1x32768 .i32) (x2 : Vec F S1x32x16 .f32) (xs0 : Vec F S32x1 .f32) :
    Σ' (L3 : List (View.Piece (Elt F) S1x32x1 .f32)), { LS0 : List (View.Piece (Elt F) S32x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1__varsum_kernel i arg2 harg2 arg3 harg3 arg4 harg4 arg5 harg5 arg6 harg6) K } := by
  refine ⟨?_, ?_, fun E K => ?run⟩
  case run =>
    simp only [cc1__varsum_kernel_eq_skeleton]; unfold cc1__varsum_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1
    obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1.lean ====
/-
  Region 1 (the per-cluster sum of squared hinge distances): what the accumulator and the output block hold after every
  grid point, the proof data of the pipeline over them, and the body obligation.
  The accumulator is carried from one tile of a batch to the next: after a batch's first tile it holds that tile's
  contribution added to zero, after a later tile the tile's contribution added to what the tile before left; at the
  batch's last tile it is copied to the output block, which is written back there and nowhere else.
-/
import proofs.«422320_j2723009265750_3_alg».proof.Proof.KI.R1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The embeddings' tile, the labels' tile and the batch's block of means at point `t`, at their literal types. -/
abbrev xblk1 (c : Dev nD) (t : Fin cfg1.N) : Vec F S1x16x32768 .f32 := iblk1 V c 0 t
abbrev lblk1 (c : Dev nD) (t : Fin cfg1.N) : Vec F S1x1x32768 .i32 := iblk1 V c 1 t
abbrev mblk1 (c : Dev nD) (t : Fin cfg1.N) : Vec F S1x32x16 .f32 := iblk1 V c 2 t

/-- An input window's current staging buffer holds its block at every point, fetched there or not (the means' block is
    fetched at a batch's first tile only: at the later tiles its index has not moved), for any proof data over `V` whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves: the found pieces read back -/

/-- The output block before any case has stored into it: a placeholder nothing consults (the window is idle and not written back). -/
def idle1_3 : Vec F S1x32x1 .f32 := VO1_3.read (Elt F) VO1_3.junk

def sout1_A_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : cond1_0 i) (hc1 : ¬cond1_1 i) (x0 : Vec F S1x16x32768 .f32) (x1 : Vec F S1x1x32768 .i32) (x2 : Vec F S1x32x16 .f32) : Vec F S32x1 .f32 :=
  VS1_0.read (Elt F) (VS1_0.writes (Elt F) VS1_0.junk (kernelRun1_A c i arg2 harg2 arg3 harg3 arg4 harg4 arg5 harg5 arg6 harg6 hc0 hc1 x0 x1 x2).1)
def sout1_B_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : ¬cond1_1 i) (x0 : Vec F S1x16x32768 .f32) (x1 : Vec F S1x1x32768 .i32) (x2 : Vec F S1x32x16 .f32) (xs0 : Vec F S32x1 .f32) : Vec F S32x1 .f32 :=
  VS1_0.read (Elt F) (VS1_0.writes (Elt F) VS1_0.junk (kernelRun1_B c i arg2 harg2 arg3 harg3 arg4 harg4 arg5 harg5 arg6 harg6 hc0 hc1 x0 x1 x2 xs0).1)
def out1_C_3 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) : Vec F S1x32x1 .f32 :=
  VO1_3.read (Elt F) (VO1_3.writes (Elt F) VO1_3.junk (kernelRun1_C c i arg2 harg2 arg3 harg3 arg4 harg4 arg5 harg5 arg6 harg6 hc0 hc1 x0 x1 x2 xs0).1)
def sout1_C_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) : Vec F S32x1 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- Each case's pieces for a buffer tile it, so they cover it. -/
theorem scover1_A_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : cond1_0 i) (hc1 : ¬cond1_1 i) (x0 : Vec F S1x16x32768 .f32) (x1 : Vec F S1x1x32768 .i32) (x2 : Vec F S1x32x16 .f32) (y : S32x1.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S32x1.size (by sl_kernel_rfl) y
theorem scover1_B_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : ¬cond1_1 i) (x0 : Vec F S1x16x32768 .f32) (x1 : Vec F S1x1x32768 .i32) (x2 : Vec F S1x32x16 .f32) (xs0 : Vec F S32x1 .f32) (y : S32x1.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S32x1.size (by sl_kernel_rfl) y
theorem cover1_C_3 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) (y : S1x32x1.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x32x1.size (by sl_kernel_rfl) y
theorem scover1_C_0 (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) (y : S32x1.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S32x1.size (by sl_kernel_rfl) y

/-! ## What the buffers hold after each point -/

/-- After the body at position `n`: (the output block, the accumulator). The case is the one the closed forms select at
    `n`; cases B and C start from what position `n - 1` left in the accumulator. -/
def outsAt1 (c : Dev nD) : (n : ℕ) → n < cfg1.N → Vec F S1x32x1 .f32 × Vec F S32x1 .f32
  | 0, hn => (idle1_3,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (idle1_3,
         sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idle1_3,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 8 = 0) (h1 : ¬t.val % 8 = 7) :
    outsAt1 V c t.val t.isLt = (idle1_3, sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = (idle1_3, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, and the generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything at the first point) and takes it
    back at this point's contents; the output block is stored at a batch's last tile and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Hr, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Hr HS0 Hg]
        · isplitl [Hr HS0]
          · isplitl [Hr]; · iexact Hr
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨Hr, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Hr HS0 Hg]
        · isplitl [Hr HS0]
          · isplitl [Hr]; · iexact Hr
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      rw [PhiS1_castSucc V c t, PhiS1_pos V c _ _ hz]
      iintro ⟨⟨⟨Hr, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      rw [PhiS1_castSucc V c t, PhiS1_pos V c _ _ hz]
      iintro ⟨⟨⟨Hr, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr HS0]
        · isplitl [Hr]; · iexact Hr
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-! ## The body obligation, the invariant's two ends, and the accumulator's recursion -/

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨Hr, HS0⟩, Hg⟩
  isplitl [Hr HS0]
  · isplitl [Hr]; · iexact Hr
    iexists _; iexact HS0
  iexact Hg

/-! ## The found pieces, read back as the payloads -/

theorem hz2 : (![0, 0] : Fin 2 → ℕ) = fun _ => 0 := by funext a; fin_cases a <;> rfl
theorem hz3 : (![0, 0, 0] : Fin 3 → ℕ) = fun _ => 0 := by funext a; fin_cases a <;> rfl

/-- Case A leaves the accumulator at the tile's contribution added to zero: the reset store, read back by the load before
    the update, is covered by the update's store. -/
theorem sout1_A_0_eq (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : cond1_0 i) (hc1 : ¬cond1_1 i) (x0 : Vec F S1x16x32768 .f32) (x1 : Vec F S1x1x32768 .i32) (x2 : Vec F S1x32x16 .f32) :
    sout1_A_0 c i arg2 harg2 arg3 harg3 arg4 harg4 arg5 harg5 arg6 harg6 hc0 hc1 x0 x1 x2 = k1_pay3 x1 x0 x2 (k1_pay2 (F := F)) := by
  unfold sout1_A_0; rw [View.read_writes_eq_canon _ _ _ (scover1_A_0 c i arg2 harg2 arg3 harg3 arg4 harg4 arg5 harg5 arg6 harg6 hc0 hc1 x0 x1 x2)]; unfold kernelRun1_A; dsimp only
  sl_unfold_words
  rw [View.canon_cons_unit_zero (S := S32x1) hz2]
  simp only [View.readAt_eq_ld, harg2.read_unread, harg3.read_unread, harg4.read_unread, View.ld_unit_zero (S := S1x16x32768) hz3, View.ld_unit_zero (S := S1x1x32768) hz3, View.ld_unit_zero (S := S1x32x16) hz3, View.readCov_unit_zero (S := S32x1) _ hz2]

/-- Case B leaves it at the tile's contribution added to what it held. -/
theorem sout1_B_0_eq (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : ¬cond1_1 i) (x0 : Vec F S1x16x32768 .f32) (x1 : Vec F S1x1x32768 .i32) (x2 : Vec F S1x32x16 .f32) (xs0 : Vec F S32x1 .f32) :
    sout1_B_0 c i arg2 harg2 arg3 harg3 arg4 harg4 arg5 harg5 arg6 harg6 hc0 hc1 x0 x1 x2 xs0 = k1_pay3 x1 x0 x2 xs0 := by
  unfold sout1_B_0; rw [View.read_writes_eq_canon _ _ _ (scover1_B_0 c i arg2 harg2 arg3 harg3 arg4 harg4 arg5 harg5 arg6 harg6 hc0 hc1 x0 x1 x2 xs0)]; unfold kernelRun1_B; dsimp only
  sl_unfold_words
  rw [View.canon_unit_zero (S := S32x1) hz2]
  simp only [View.readAt_eq_ld, harg2.read_unread, harg3.read_unread, harg4.read_unread, harg6.read_unread, View.ld_unit_zero (S := S1x16x32768) hz3, View.ld_unit_zero (S := S1x1x32768) hz3, View.ld_unit_zero (S := S1x32x16) hz3, View.ld_unit_zero (S := S32x1) hz2]

/-- So does case C, -/
theorem sout1_C_0_eq (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) :
    sout1_C_0 c i arg2 harg2 arg3 harg3 arg4 harg4 arg5 harg5 arg6 harg6 hc0 hc1 x0 x1 x2 xs0 = k1_pay3 x1 x0 x2 xs0 := by
  unfold sout1_C_0; rw [View.read_writes_eq_canon _ _ _ (scover1_C_0 c i arg2 harg2 arg3 harg3 arg4 harg4 arg5 harg5 arg6 harg6 hc0 hc1 x0 x1 x2 xs0)]; unfold kernelRun1_C; dsimp only
  sl_unfold_words
  rw [View.canon_unit_zero (S := S32x1) hz2]
  simp only [View.readAt_eq_ld, harg2.read_unread, harg3.read_unread, harg4.read_unread, harg6.read_unread, View.ld_unit_zero (S := S1x16x32768) hz3, View.ld_unit_zero (S := S1x1x32768) hz3, View.ld_unit_zero (S := S1x32x16) hz3, View.ld_unit_zero (S := S32x1) hz2]

/-- and it leaves the output block at the accumulator's new contents re-laid. -/
theorem out1_C_3_eq (c : Dev nD) (i : grid1.Coords) (arg2 : Memref sig .tc .vmem S1x16x32768 .f32) (harg2 : arg2.IsWhole) (arg3 : Memref sig .tc .vmem S1x1x32768 .i32) (harg3 : arg3.IsWhole) (arg4 : Memref sig .tc .vmem S1x32x16 .f32) (harg4 : arg4.IsWhole) (arg5 : Memref sig .tc .vmem S1x32x1 .f32) (harg5 : arg5.IsWhole) (arg6 : Memref sig .tc .vmem S32x1 .f32) (harg6 : arg6.IsWhole) (hc0 : ¬cond1_0 i) (hc1 : cond1_1 i) (x0 : Vec F S1x16x32768 .f32) (x1 : Vec F S1x1x32768 .i32) (x2 : Vec F S1x32x16 .f32) (xs0 : Vec F S32x1 .f32) :
    out1_C_3 c i arg2 harg2 arg3 harg3 arg4 harg4 arg5 harg5 arg6 harg6 hc0 hc1 x0 x1 x2 xs0 = k1_pay1 (k1_pay3 x1 x0 x2 xs0) := by
  unfold out1_C_3; rw [View.read_writes_eq_canon _ _ _ (cover1_C_3 c i arg2 harg2 arg3 harg3 arg4 harg4 arg5 harg5 arg6 harg6 hc0 hc1 x0 x1 x2 xs0)]; unfold kernelRun1_C; dsimp only
  sl_unfold_words
  rw [View.canon_unit_zero (S := S1x32x1) hz3]
  simp only [View.readAt_eq_ld, harg2.read_unread, harg3.read_unread, harg4.read_unread, harg6.read_unread, View.ld_unit_zero (S := S1x16x32768) hz3, View.ld_unit_zero (S := S1x1x32768) hz3, View.ld_unit_zero (S := S1x32x16) hz3, View.ld_unit_zero (S := S32x1) hz2, View.readCov_unit_zero (S := S32x1) _ hz2]

/-- At a batch's first tile the accumulator ends at the tile's contribution added to zero. -/
theorem acc1_first (c : Dev nD) (t : Fin cfg1.N) (h : t.val % 8 = 0) :
    (outsAt1 V c t.val t.isLt).2 = k1_pay3 (lblk1 V c t) (xblk1 V c t) (mblk1 V c t) (k1_pay2 (F := F)) := by
  have h1 : ¬t.val % 8 = 7 := by omega
  rw [outsAt1_A V c t h h1]; dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h) (fun h' => h1 ((hcond1_1 t).mp h')) (iblk1 V c 0 t) (iblk1 V c 1 t) (iblk1 V c 2 t)

/-- At a later tile it ends at the tile's contribution added to what the tile before left. -/
theorem acc1_next (c : Dev nD) (t : Fin cfg1.N) (h : t.val % 8 ≠ 0) :
    (outsAt1 V c t.val t.isLt).2
      = k1_pay3 (lblk1 V c t) (xblk1 V c t) (mblk1 V c t) (outsAt1 V c (t.val - 1) (Nat.lt_of_le_of_lt (Nat.sub_le _ _) t.isLt)).2 := by
  by_cases h1 : t.val % 8 = 7
  · rw [outsAt1_C V c t h h1]; dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h h1]; dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h' => h ((hcond1_0 t).mp h')) (fun h' => h1 ((hcond1_1 t).mp h')) (iblk1 V c 0 t) (iblk1 V c 1 t) (iblk1 V c 2 t) (outsAt1 V c (t.val - 1) (Nat.lt_of_le_of_lt (Nat.sub_le _ _) t.isLt)).2

/-- At a batch's last tile the output block ends at the accumulator's final contents, re-laid as [1, 32, 1]. -/
theorem out1_last (c : Dev nD) (t : Fin cfg1.N) (h : t.val % 8 = 7) :
    (outsAt1 V c t.val t.isLt).1 = k1_pay1 (outsAt1 V c t.val t.isLt).2 := by
  have h0 : ¬t.val % 8 = 0 := by omega
  rw [outsAt1_C V c t h0 h]; dsimp only
  exact (out1_C_3_eq c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2).trans
    (congrArg k1_pay1 (sout1_C_0_eq c (grid1.coords t) (ms1_0 t) (hs1_0 t) (ms1_1 t) (hs1_1 t) (ms1_2 t) (hs1_2 t) (ms1_3 t) (hs1_3 t) scM1_0 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2).symm)

end Cert.KernelIdeal.Hand

end
-- ==== Proof.KI.Run.lean ====
/-
  The whole program's run: @main as host stretches and the two kernel regions, each region entered from the buffer
  contents the stretch before it left and left at those contents with its output arrays replaced by what its
  write-backs leave. Every weakly fair execution terminates, and every unscoped buffer ends at the last stretch's
  contents: in particular the arguments as launched, and the result at the host tail's term of the regions' outputs.
-/
import proofs.«422320_j2723009265750_3_alg».proof.Proof.KI.R0
import proofs.«422320_j2723009265750_3_alg».proof.Proof.KI.R1
import proofs.«422320_j2723009265750_3_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents around the regions -/

/-- What region 0 is entered from, read at the TensorCore's references. -/
abbrev Ve0 : (c : Dev nD) → (b : Ref sig .tc) → Buf (Elt F) ((c : Thread nD τ).loc b) := fun c b => Gen.V3 m c b

/-- What region 0 leaves: its arrays at what the pipeline's write-backs leave, every other buffer as entered. -/
def W4 (c : Dev nD) : Valuation τ sig (Elt F) :=
  Pipeline.withArrays spec0 c (Gen.V3 m c) fun w => (dat0 (Ve0 m) c).arrAt w cfg0.N
theorem W4_arr (c : Dev nD) (w : Fin cfg0.W) :
    W4 m c (Proc.devRef .tc (Pipeline.arrRef spec0 w)) = (dat0 (Ve0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Gen.V3 m c (Proc.devRef .tc b) := by
  unfold W4; exact Pipeline.withArrays_of_ne spec0 c _ _ b hb

/-- The regions' outputs as far as region 0 determines them. -/
def outs4 : Gen.Outs (F := F) := fun _ r c => W4 m c r

/-- What region 1 is entered from. -/
abbrev Ve1 : (c : Dev nD) → (b : Ref sig .tc) → Buf (Elt F) ((c : Thread nD τ).loc b) := fun c b => Gen.V5 m (outs4 m) c b

/-- What region 1 leaves. -/
def W6 (c : Dev nD) : Valuation τ sig (Elt F) :=
  Pipeline.withArrays spec1 c (Gen.V5 m (outs4 m) c) fun w => (dat1 (Ve1 m) c).arrAt w cfg1.N
theorem W6_arr (c : Dev nD) (w : Fin cfg1.W) :
    W6 m c (Proc.devRef .tc (Pipeline.arrRef spec1 w)) = (dat1 (Ve1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = Gen.V5 m (outs4 m) c (Proc.devRef .tc b) := by
  unfold W6; exact Pipeline.withArrays_of_ne spec1 c _ _ b hb

/-- What the two regions leave in their output arrays. -/
def outs : Gen.Outs (F := F) := fun J r c => if J ≤ 4 then W4 m c r else W6 m c r

theorem outs_4 (r : Ref sig .tc) (c : Dev nD) : outs m 4 r c = W4 m c r := by
  unfold outs; exact if_pos (by decide)
theorem outs_6 (r : Ref sig .tc) (c : Dev nD) : outs m 6 r c = W6 m c r := by
  unfold outs; exact if_neg (by decide)
theorem V4_outs (c : Dev nD) : Gen.V4 m (outs m) c = Gen.V4 m (outs4 m) c := by
  unfold Gen.V4
  rw [outs_4, outs_4]; rfl
theorem V5_outs (c : Dev nD) : Gen.V5 m (outs m) c = Gen.V5 m (outs4 m) c := by
  show StableHlo.after hostOps1 (Gen.V4 m (outs m) c) = StableHlo.after hostOps1 (Gen.V4 m (outs4 m) c)
  rw [V4_outs]
attribute [irreducible] outs

/-- The valuation after region 0 at its two output arrays, for any outputs. -/
theorem V4_at0 (o : Gen.Outs (F := F)) (c : Dev nD) : Gen.V4 m o c (Proc.devRef .tc main_v3_0) = o 4 main_v3_0 c :=
  (Function.update_of_ne (StableHlo.devRef_ne_of_ne (show main_v3_0 ≠ main_v3_1 by decide) : (Proc.devRef .tc main_v3_0 : DevRef τ sig) ≠ Proc.devRef .tc main_v3_1) _ _).trans
    (Function.update_self _ _ _)
theorem V4_at1 (o : Gen.Outs (F := F)) (c : Dev nD) : Gen.V4 m o c (Proc.devRef .tc main_v3_1) = o 4 main_v3_1 c :=
  Function.update_self _ _ _
theorem V6_at (o : Gen.Outs (F := F)) (c : Dev nD) : Gen.V6 m o c (Proc.devRef .tc main_v10) = o 6 main_v10 c :=
  Function.update_self _ _ _

theorem hF0_0 (c : Dev nD) : (dat0 (Ve0 m) c).arrAt 0 cfg0.N = Gen.V4 m (outs m) c (Pipeline.arrRef spec0 0) :=
  ((dat0 (Ve0 m) c).arrAt_in 0 rfl _).trans ((A_eq0 (Ve0 m) c 0).trans (Gen.V4_of m (outs m) c main_v2 (by decide)).symm)
theorem hF0_1 (c : Dev nD) : (dat0 (Ve0 m) c).arrAt 1 cfg0.N = Gen.V4 m (outs m) c (Pipeline.arrRef spec0 1) :=
  ((dat0 (Ve0 m) c).arrAt_in 1 rfl _).trans ((A_eq0 (Ve0 m) c 1).trans (Gen.V4_of m (outs m) c main_v1 (by decide)).symm)
theorem W4_v3_0 (c : Dev nD) : (dat0 (Ve0 m) c).arrAt 2 cfg0.N = W4 m c (Proc.devRef .tc main_v3_0) := (W4_arr m c 2).symm
theorem W4_v3_1 (c : Dev nD) : (dat0 (Ve0 m) c).arrAt 3 cfg0.N = W4 m c (Proc.devRef .tc main_v3_1) := (W4_arr m c 3).symm
theorem V4_v3_0 (c : Dev nD) : W4 m c (Proc.devRef .tc main_v3_0) = Gen.V4 m (outs m) c (Proc.devRef .tc main_v3_0) :=
  (outs_4 m main_v3_0 c).symm.trans (V4_at0 m (outs m) c).symm
theorem V4_v3_1 (c : Dev nD) : W4 m c (Proc.devRef .tc main_v3_1) = Gen.V4 m (outs m) c (Proc.devRef .tc main_v3_1) :=
  (outs_4 m main_v3_1 c).symm.trans (V4_at1 m (outs m) c).symm
theorem hF0_2 (c : Dev nD) : (dat0 (Ve0 m) c).arrAt 2 cfg0.N = Gen.V4 m (outs m) c (Pipeline.arrRef spec0 2) :=
  (W4_v3_0 m c).trans (V4_v3_0 m c)
theorem hF0_3 (c : Dev nD) : (dat0 (Ve0 m) c).arrAt 3 cfg0.N = Gen.V4 m (outs m) c (Pipeline.arrRef spec0 3) :=
  (W4_v3_1 m c).trans (V4_v3_1 m c)

/-- After region 0 each of its arrays holds what the pipeline leaves, -/
theorem hF0 (c : Dev nD) (w : Fin cfg0.W) : (dat0 (Ve0 m) c).arrAt w cfg0.N = Gen.V4 m (outs m) c (Pipeline.arrRef spec0 w) :=
  match w with
  | ⟨0, _⟩ => hF0_0 m c
  | ⟨1, _⟩ => hF0_1 m c
  | ⟨2, _⟩ => hF0_2 m c
  | ⟨3, _⟩ => hF0_3 m c
/-- and every other buffer what it held at entry. -/
theorem hrest0 (c : Dev nD) : ∀ b : Ref sig .tc, b ∉ Finset.univ.image (Pipeline.arrRef spec0) → Gen.V4 m (outs m) c b = Ve0 m c b := by
  intro b hb
  refine Gen.V4_of m (outs m) c b ?_
  intro hmem
  simp only [List.mem_cons, List.mem_nil_iff, or_false] at hmem
  rcases hmem with rfl | rfl
  · exact hb (Finset.mem_image.mpr ⟨2, Finset.mem_univ _, rfl⟩)
  · exact hb (Finset.mem_image.mpr ⟨3, Finset.mem_univ _, rfl⟩)

theorem hF1_0 (c : Dev nD) : (dat1 (Ve1 m) c).arrAt 0 cfg1.N = Gen.V6 m (outs m) c (Pipeline.arrRef spec1 0) :=
  ((dat1 (Ve1 m) c).arrAt_in 0 rfl _).trans ((A_eq1 (Ve1 m) c 0).trans ((Gen.V6_of m (outs m) c main_v2 (by decide)).trans (congrFun (V5_outs m c) _)).symm)
theorem hF1_1 (c : Dev nD) : (dat1 (Ve1 m) c).arrAt 1 cfg1.N = Gen.V6 m (outs m) c (Pipeline.arrRef spec1 1) :=
  ((dat1 (Ve1 m) c).arrAt_in 1 rfl _).trans ((A_eq1 (Ve1 m) c 1).trans ((Gen.V6_of m (outs m) c main_v1 (by decide)).trans (congrFun (V5_outs m c) _)).symm)
theorem hF1_2 (c : Dev nD) : (dat1 (Ve1 m) c).arrAt 2 cfg1.N = Gen.V6 m (outs m) c (Pipeline.arrRef spec1 2) :=
  ((dat1 (Ve1 m) c).arrAt_in 2 rfl _).trans ((A_eq1 (Ve1 m) c 2).trans ((Gen.V6_of m (outs m) c main_v9 (by decide)).trans (congrFun (V5_outs m c) _)).symm)
theorem W6_v10 (c : Dev nD) : (dat1 (Ve1 m) c).arrAt 3 cfg1.N = W6 m c (Proc.devRef .tc main_v10) := (W6_arr m c 3).symm
theorem V6_v10 (c : Dev nD) : W6 m c (Proc.devRef .tc main_v10) = Gen.V6 m (outs m) c (Proc.devRef .tc main_v10) :=
  (outs_6 m main_v10 c).symm.trans (V6_at m (outs m) c).symm
theorem hF1_3 (c : Dev nD) : (dat1 (Ve1 m) c).arrAt 3 cfg1.N = Gen.V6 m (outs m) c (Pipeline.arrRef spec1 3) :=
  (W6_v10 m c).trans (V6_v10 m c)

theorem hF1 (c : Dev nD) (w : Fin cfg1.W) : (dat1 (Ve1 m) c).arrAt w cfg1.N = Gen.V6 m (outs m) c (Pipeline.arrRef spec1 w) :=
  match w with
  | ⟨0, _⟩ => hF1_0 m c
  | ⟨1, _⟩ => hF1_1 m c
  | ⟨2, _⟩ => hF1_2 m c
  | ⟨3, _⟩ => hF1_3 m c
theorem hrest1 (c : Dev nD) : ∀ b : Ref sig .tc, b ∉ Finset.univ.image (Pipeline.arrRef spec1) → Gen.V6 m (outs m) c b = Ve1 m c b := by
  intro b hb
  refine (Gen.V6_of m (outs m) c b ?_).trans (congrFun (V5_outs m c) _)
  intro hmem
  simp only [List.mem_cons, List.mem_nil_iff, or_false] at hmem
  rcases hmem with rfl
  exact hb (Finset.mem_image.mpr ⟨3, Finset.mem_univ _, rfl⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the contents before it, left at the contents
    after it. Its arrays are split out of the unscoped buffers and put back at their exit contents; the generator
    register goes into the invariant and comes back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine BIBase.Entails.trans (hout0 (Ve0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Ve0 m c) (fun b => (Gen.V4 m (outs m) c) b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at their exit contents; the generator
    register goes into the invariant and comes back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V5_outs m c]
    have hsplit := Pipeline.arrays_of_unscopedBufs (p := 1) (pcfgs (F := F)) Gen.adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    rw [Pipeline.ownSems0_none]
    refine BIBase.Entails.trans (hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Ve1 m c) (fun b => (Gen.V6 m (outs m) c) b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters, every weakly fair execution of @main terminates, nothing faulting, and every
    unscoped buffer of the TensorCore ends at the contents the last host stretch leaves. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = Gen.V11 m (outs m) c b) := by
  refine Pipeline.θ_run_regions_kit_dev (pcfgs (F := F)) Gen.adm (pdats m) () cellOf_inj emb₁ defs₀ 𝒱₀ L lv m ρ main
    (Gen.segs m (outs m) 𝒱₀ L lv (fun _ => R) () (pdats m) (reg0 m) (reg1 m))
    (fun c Q => by
      rewrite [main_chain c, Pipeline.Seg.run_eq_chain,
        show (Gen.segs m (outs m) 𝒱₀ L lv (fun _ => R) () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V11 m (outs m) c))
    (hch := fun c => ⟨.rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V11 m (outs m) c b)
    (hfin := fun c s' => by
      iintro ⟨Hh, HSI⟩
      unfold StableHlo.held
      imodintro
      iapply (pointsTo_read_all (Pipeline.ucRefs τ sig) (fun b => (((c : Thread nD τ)).1, b)) (Gen.V11 m (outs m) c) s')
      isplitl [Hh] <;> iassumption)
    (hQ := fun s h c => h c)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (Gen.V11_main_arg0 m (outs m) c),
     (h c _ (mem_uc main_arg1 (by decide))).trans (Gen.V11_main_arg1 m (outs m) c)⟩) (run_all m ρ)

/-- The run with the result named: the result buffer ends at the last stretch's contents, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v57) = Gen.V11 m (outs m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v57 (by decide)),
     (h c _ (mem_uc main_arg0 (by decide))).trans (Gen.V11_main_arg0 m (outs m) c),
     (h c _ (mem_uc main_arg1 (by decide))).trans (Gen.V11_main_arg1 m (outs m) c)⟩) (run_all m ρ)

end Cert.KernelIdeal.Hand

end
-- ==== Proof.Spec.lean ====
/-
  The mathematics both programs compute, over the extended reals.

  E b n f is coordinate f of point n of batch b, Lw b n the point's label word. A point belongs to cluster k when its
  label word is k. Per batch and cluster: the sum of the cluster's points (`sums`), their number (`counts`), the
  number floored at one (`safe`), the mean (`mean`); per point the pull term of its distance to its cluster's mean
  (`pull`), summed per cluster (`varsum`) and divided by the floored count (`vpc`).
  The kernel adds a batch's points tile by tile, 32768 at a time, starting from zero (`accT`); the sum over a batch's
  points is the last of those partial sums (`accT_last`).
-/
import Idealize.ShloMosaic.PureOps.Ideal
import Idealize.ShloMosaic.Lib.ValueIdx
import Mathlib.Algebra.BigOperators.Fin
import Mathlib.Algebra.BigOperators.Group.Finset.Piecewise
import Mathlib.Data.Fintype.BigOperators
import Mathlib.Logic.Equiv.Fin.Basic

noncomputable section

namespace Cert.Spec

open Idealize.ShloMosaic

/-- The indicator that a label word is cluster `k`. -/
def oh (w : BitVec 32) (k : ℕ) : EReal := if w = BitVec.ofNat 32 k then 1 else 0

theorem oh_mul (w : BitVec 32) (k : ℕ) (x : EReal) : oh w k * x = if w = BitVec.ofNat 32 k then x else 0 := by
  unfold oh; split <;> simp

theorem mul_oh (w : BitVec 32) (k : ℕ) (x : EReal) : x * oh w k = if w = BitVec.ofNat 32 k then x else 0 := by
  unfold oh; split <;> simp

/-- Two cluster numbers below 32 have the same 32-bit word exactly when they are equal. -/
theorem ofNat_eq_iff (l k' : Fin 32) : BitVec.ofNat 32 l.val = BitVec.ofNat 32 k'.val ↔ l = k' := by
  constructor
  · intro h
    have h2 := congrArg BitVec.toNat h
    simp only [BitVec.toNat_ofNat] at h2
    have := l.isLt
    have := k'.isLt
    apply Fin.ext
    omega
  · intro h
    rw [h]

/-- Reading a row of a 32-row table by the indicator of a label in range picks that row. -/
theorem gather_oh (μ : Fin 32 → EReal) (l : Fin 32) : ∑ k' : Fin 32, μ k' * oh (BitVec.ofNat 32 l.val) k'.val = μ l := by
  have key : ∀ k' : Fin 32, μ k' * oh (BitVec.ofNat 32 l.val) k'.val = if l = k' then μ k' else 0 := by
    intro k'
    rw [mul_oh]
    simp only [ofNat_eq_iff]
  simp only [key]
  rw [Finset.sum_ite_eq]
  simp only [Finset.mem_univ, if_true]

section Clusters

variable (E : Fin 8 → Fin 262144 → Fin 16 → EReal) (Lw : Fin 8 → Fin 262144 → BitVec 32)

/-- Every label word is a cluster number below 32. -/
def InRange : Prop := ∀ b n, ∃ l : Fin 32, Lw b n = BitVec.ofNat 32 l.val

def sums (b : Fin 8) (k : Fin 32) (f : Fin 16) : EReal := ∑ n : Fin 262144, oh (Lw b n) k.val * E b n f
def counts (b : Fin 8) (k : Fin 32) : EReal := ∑ n : Fin 262144, oh (Lw b n) k.val
def safe (b : Fin 8) (k : Fin 32) : EReal := max (counts Lw b k) (Ideal.ofBits .f32 0x3F800000#32)
def mean (b : Fin 8) (k : Fin 32) (f : Fin 16) : EReal := Ideal.div (sums E Lw b k f) (safe Lw b k)

/-- The pull term of a point `x` against a mean row `μ`: the squared distance floored at the literal 1e-12, its root
    less a quarter, floored at zero, squared. -/
def pull (x μ : Fin 16 → EReal) : EReal :=
  let d := max (Ideal.sqrt (max (∑ f : Fin 16, (x f - μ f) * (x f - μ f)) (Ideal.ofBits .f32 0x2B8CBCCC#32)) - Ideal.ofBits .f32 0x3E800000#32)
    (Ideal.ofBits .f32 0x00000000#32)
  d * d

/-- The mean row a point is compared with, read by the indicator of its label. -/
def meanAt (b : Fin 8) (n : Fin 262144) (f : Fin 16) : EReal := ∑ k' : Fin 32, mean E Lw b k' f * oh (Lw b n) k'.val

def pvar (b : Fin 8) (n : Fin 262144) : EReal := pull (E b n) (meanAt E Lw b n)
def varsum (b : Fin 8) (k : Fin 32) : EReal := ∑ n : Fin 262144, oh (Lw b n) k.val * pvar E Lw b n
def vpc (b : Fin 8) (k : Fin 32) : EReal := Ideal.div (varsum E Lw b k) (safe Lw b k)

/-- With labels in range the mean row a point is compared with is its own cluster's. -/
theorem meanAt_eq (h : InRange Lw) (b : Fin 8) (n : Fin 262144) (l : Fin 32) (hl : Lw b n = BitVec.ofNat 32 l.val) (f : Fin 16) :
    meanAt E Lw b n f = mean E Lw b l f := by
  unfold meanAt; rw [hl]; exact gather_oh (fun k' => mean E Lw b k' f) l

end Clusters

/-! ## A batch's points, tile by tile -/

/-- Point `n` of tile `j` among a batch's 262144 points. -/
def tpt (j : Fin 8) (n : Fin 32768) : Fin 262144 := ⟨32768 * j.val + n.val, by have := j.isLt; have := n.isLt; omega⟩

/-- A tile's contribution. -/
def tileSum (g : Fin 262144 → EReal) (j : Fin 8) : EReal := ∑ n : Fin 32768, g (tpt j n)

/-- The partial sums as the kernel forms them: the first tile added to `z`, each later tile added to what is there. -/
def accT (z : EReal) (g : Fin 262144 → EReal) : (j : ℕ) → j < 8 → EReal
  | 0, h => z + tileSum g ⟨0, h⟩
  | j + 1, h => accT z g j (Nat.lt_of_succ_lt h) + tileSum g ⟨j + 1, h⟩

/-- The points of a batch are the points of its eight tiles: the sum over all of them is the sum of the tile sums. -/
theorem sum_tiles (g : Fin 262144 → EReal) : ∑ n : Fin 262144, g n = ∑ j : Fin 8, tileSum g j := by
  unfold tileSum
  rw [← Fintype.sum_prod_type' (fun (j : Fin 8) (n : Fin 32768) => g (tpt j n))]
  symm
  apply Fintype.sum_equiv (finProdFinEquiv.trans (finCongr (by norm_num : 8 * 32768 = 262144)))
  intro p
  congr 1
  apply Fin.ext
  simp only [tpt, Equiv.trans_apply, finProdFinEquiv_apply_val, finCongr_apply, Fin.coe_cast]
  omega

/-- After the last tile the partial sum from zero is the sum over all the batch's points. -/
theorem accT_last (g : Fin 262144 → EReal) : accT 0 g 7 (by decide) = ∑ n : Fin 262144, g n := by
  rw [sum_tiles, Fin.sum_univ_eight]
  simp only [accT, zero_add]
  rfl

end Cert.Spec

end
-- ==== Proof.KI.Val0.lean ====
/-
  Region 0's two output arrays at the ideal instance, entry by entry: the per-cluster sums and counts of a batch's
  points. A tile's contribution to an accumulator entry is the matrix product of the one-hot label tile with the
  embeddings tile (for the sums) and the lane sum of the one-hot tile (for the counts); the accumulators add the eight
  tiles of a batch in order starting from zero, and the batch's last point copies them out, so block b of each output
  array is the sum over all of batch b's points.
-/
import proofs.«422320_j2723009265750_3_alg».proof.Proof.KI.R0
import proofs.«422320_j2723009265750_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

variable (V : (c : Dev nD) → (b : Ref sig .tc) → Buf (Elt Ideal) ((c : Thread nD τ).loc b))

theorem cmp_word (w : BitVec 32) (k : ℕ) :
    ((((IntOp.cmpi .eq w (BitVec.ofNat 32 k)).setWidth 32).toInt : ℝ) : EReal) = Cert.Spec.oh w k := by
  unfold Cert.Spec.oh
  by_cases h : w = BitVec.ofNat 32 k
  · rw [if_pos h, h]; simp [IntOp.cmpi]
  · rw [if_neg h]
    have hb : (w == BitVec.ofNat 32 k) = false := by simpa using h
    simp [IntOp.cmpi, hb]

/-- The one-hot tile's entry (k, n): one when lane n's label word is k, zero otherwise. -/
theorem pay3_apply (l : Vec Ideal S1x1x32768 .i32) (k : Fin 32) (n : Fin 32768) :
    k0_pay3 (F := Ideal) l (ix2 k n) = Cert.Spec.oh (l (ix3 (0 : Fin 1) (0 : Fin 1) n)) k.val := by
  unfold k0_pay3
  show ((((IntOp.cmpi .eq (broadcastTo S32x32768 (shapeCast S1x32768 l shapeCasts_S1x1x32768_S1x32768) broadcasts_S1x32768_S32x32768 (ix2 k n))
      (iota .tc S32x32768 32 [0] iota_S32x32768_d0_w32 (ix2 k n))).setWidth 32).toInt : ℝ) : EReal) = _
  rw [broadcastTo_1b_ab_apply, shapeCast_1ab_ab_apply, iota_single_apply]
  exact cmp_word _ _

/-- A vector [a] cast to the column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a [32, 32768] tile at row k is the sum of the row's entries. -/
theorem laneSum_apply (src : FVec Ideal S32x32768 .f32) (hφ : FKind.Formats .f32)
    (hacc : (0x00000000#32 : BitVec 32) = FKind.add.neutral .f32 hφ) (k : Fin 32) :
    multiReduction (F := Ideal) .add [1] S32 src 0x00000000#32 reduces_S32x32768_S32 hφ hacc (ix1 k)
      = ∑ n : Fin 32768, src (ix2 k n) := by
  refine (Ideal.multiReduction_add_single src 0x00000000#32 reduces_S32x32768_S32 hφ hacc (ix1 k)).trans ?_
  refine Finset.sum_congr rfl fun n _ => congrArg src ?_
  funext ax
  match ax with
  | ⟨0, _⟩ => rfl
  | ⟨1, _⟩ => rfl

/-- The counts accumulator after a tile: what it held plus the number of the tile's lanes whose label word is k. -/
theorem pay5_apply (l : Vec Ideal S1x1x32768 .i32) (a : Vec Ideal S32x1 .f32) (k : Fin 32) :
    k0_pay5 (F := Ideal) l a (ix2 k (0 : Fin 1))
      = a (ix2 k (0 : Fin 1)) + ∑ n : Fin 32768, Cert.Spec.oh (l (ix3 (0 : Fin 1) (0 : Fin 1) n)) k.val := by
  unfold k0_pay5
  rw [shapeCast_self]
  show a (ix2 k (0 : Fin 1)) + shapeCast S32x1 (multiReduction (F := Ideal) .add [1] S32 (k0_pay3 l) 0x00000000#32 reduces_S32x32768_S32 (.inl rfl) rfl) shapeCasts_S32_S32x1 (ix2 k (0 : Fin 1)) = _
  rw [shapeCast_a_a1_apply]
  refine congrArg (a (ix2 k (0 : Fin 1)) + ·) ?_
  refine (laneSum_apply (k0_pay3 l) _ _ k).trans ?_
  exact Finset.sum_congr rfl fun n _ => pay3_apply l k n

/-- The product's operand indices at output entry (k, f) and contraction position q, axis by axis. -/
theorem lhs_dot_0 (k : Fin 32) (f : Fin 16) (q : dot_S32x32768_S16x32768_S32x16_1_1_0_0_n_n.contr.Idx) :
    ((dot_S32x32768_S16x32768_S32x16_1_1_0_0_n_n.lhsIdx (ix2 k f) q) (0 : Fin 2)).val = k.val := by
  simp [DotDims.lhsIdx, dot_S32x32768_S16x32768_S32x16_1_1_0_0_n_n]; rfl
theorem lhs_dot_1 (k : Fin 32) (f : Fin 16) (q : dot_S32x32768_S16x32768_S32x16_1_1_0_0_n_n.contr.Idx) :
    ((dot_S32x32768_S16x32768_S32x16_1_1_0_0_n_n.lhsIdx (ix2 k f) q) (1 : Fin 2)).val = (q ⟨0, by decide⟩).val :=
  dot_S32x32768_S16x32768_S32x16_1_1_0_0_n_n.lhsIdx_val_of_single (cl := (1 : Fin 2)) rfl (ix2 k f) q
theorem rhs_dot_0 (k : Fin 32) (f : Fin 16) (q : dot_S32x32768_S16x32768_S32x16_1_1_0_0_n_n.contr.Idx) :
    ((dot_S32x32768_S16x32768_S32x16_1_1_0_0_n_n.rhsIdx (ix2 k f) q) (0 : Fin 2)).val = f.val := by
  simp [DotDims.rhsIdx, dot_S32x32768_S16x32768_S32x16_1_1_0_0_n_n]; rfl
theorem rhs_dot_1 (k : Fin 32) (f : Fin 16) (q : dot_S32x32768_S16x32768_S32x16_1_1_0_0_n_n.contr.Idx) :
    ((dot_S32x32768_S16x32768_S32x16_1_1_0_0_n_n.rhsIdx (ix2 k f) q) (1 : Fin 2)).val = (q ⟨0, by decide⟩).val :=
  dot_S32x32768_S16x32768_S32x16_1_1_0_0_n_n.rhsIdx_val_of_single (cr := (1 : Fin 2)) rfl (ix2 k f) q

/-- The tile product into a zero accumulator at entry (k, f): the sum over the lanes of the products of the entries. -/
theorem tileProduct_apply (o : FVec Ideal S32x32768 .f32) (x : FVec Ideal S16x32768 .f32) (k : Fin 32) (f : Fin 16) :
    matmul dot_S32x32768_S16x32768_S32x16_1_1_0_0_n_n none o x (constant (F := Ideal) S32x16 .f32 0x00000000#32) (ix2 k f)
      = ∑ n : Fin 32768, o (ix2 k n) * x (ix2 f n) := by
  show FloatOps.matmul dot_S32x32768_S16x32768_S32x16_1_1_0_0_n_n none o x (constant (F := Ideal) S32x16 .f32 0x00000000#32) (ix2 k f) = _
  rw [Ideal.matmul_constant_zero_apply,
    ← Equiv.sum_comp (contrEquiv1 dot_S32x32768_S16x32768_S32x16_1_1_0_0_n_n 32768 rfl rfl).symm]
  refine Finset.sum_congr rfl fun c _ => ?_
  have c2 := contrEquiv1_symm_val dot_S32x32768_S16x32768_S32x16_1_1_0_0_n_n 32768 rfl rfl c
  have l2 : dot_S32x32768_S16x32768_S32x16_1_1_0_0_n_n.lhsIdx (ix2 k f)
      ((contrEquiv1 dot_S32x32768_S16x32768_S32x16_1_1_0_0_n_n 32768 rfl rfl).symm c) = ix2 k c := by
    funext ax; apply Fin.ext
    match ax with
    | ⟨0, _⟩ => exact lhs_dot_0 _ _ _
    | ⟨1, _⟩ => exact (lhs_dot_1 _ _ _).trans c2
  have r2 : dot_S32x32768_S16x32768_S32x16_1_1_0_0_n_n.rhsIdx (ix2 k f)
      ((contrEquiv1 dot_S32x32768_S16x32768_S32x16_1_1_0_0_n_n 32768 rfl rfl).symm c) = ix2 f c := by
    funext ax; apply Fin.ext
    match ax with
    | ⟨0, _⟩ => exact rhs_dot_0 _ _ _
    | ⟨1, _⟩ => exact (rhs_dot_1 _ _ _).trans c2
  rw [l2, r2]

/-- The sums accumulator after a tile: what it held plus, over the tile's lanes, the indicator that the lane's label
    word is k times the lane's coordinate f. -/
theorem pay4_apply (l : Vec Ideal S1x1x32768 .i32) (x : Vec Ideal S1x16x32768 .f32) (a : Vec Ideal S32x16 .f32) (k : Fin 32) (f : Fin 16) :
    k0_pay4 (F := Ideal) l x a (ix2 k f)
      = a (ix2 k f) + ∑ n : Fin 32768, Cert.Spec.oh (l (ix3 (0 : Fin 1) (0 : Fin 1) n)) k.val * x (ix3 (0 : Fin 1) f n) := by
  unfold k0_pay4
  rw [shapeCast_self]
  show a (ix2 k f) + matmul dot_S32x32768_S16x32768_S32x16_1_1_0_0_n_n none (k0_pay3 l) (shapeCast S16x32768 x shapeCasts_S1x16x32768_S16x32768) (constant (F := Ideal) S32x16 .f32 0x00000000#32) (ix2 k f) = _
  refine congrArg (a (ix2 k f) + ·) ?_
  refine (tileProduct_apply (k0_pay3 l) _ k f).trans ?_
  refine Finset.sum_congr rfl fun n _ => ?_
  rw [pay3_apply, shapeCast_1ab_ab_apply]

/-- The printed index maps, decided over the grid: the embeddings' and the labels' blocks sit at (t / 8, 0, t % 8), the
    two outputs' blocks at (t / 8, 0, 0). -/
theorem idx_facts0 : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The embeddings' tile at point 8 b + j, read off the array: lane n of the tile is point 32768 j + n of batch b. -/
theorem xblk0_apply (c : Dev nD) (t : Fin cfg0.N) (b j : Fin 8) (ht : t.val = 8 * b.val + j.val) (f : Fin 16) (n : Fin 32768) :
    (xblk0 (F := Ideal) V c t) (ix3 (0 : Fin 1) f n) = V c main_v2 (ix3 b f (Cert.Spec.tpt j n)) := by
  obtain ⟨e0, e1, e2, -⟩ := idx_facts0 t
  show V c main_v2 (((cfg0.win 0).blk t).view.emb (ix3 (0 : Fin 1) f n)) = _
  refine congrArg (V c main_v2) ?_
  funext a; apply Fin.ext
  match a with
  | ⟨0, _⟩ => show win0_0.index t (0 : Fin 3) * 1 + 1 * 0 = b.val; omega
  | ⟨1, _⟩ => show win0_0.index t (1 : Fin 3) * 16 + 1 * f.val = f.val; omega
  | ⟨2, _⟩ => show win0_0.index t (2 : Fin 3) * 32768 + 1 * n.val = 32768 * j.val + n.val; omega

/-- The labels' tile at point 8 b + j, read off the array. -/
theorem lblk0_apply (c : Dev nD) (t : Fin cfg0.N) (b j : Fin 8) (ht : t.val = 8 * b.val + j.val) (n : Fin 32768) :
    (lblk0 (F := Ideal) V c t) (ix3 (0 : Fin 1) (0 : Fin 1) n) = V c main_v1 (ix3 b (0 : Fin 1) (Cert.Spec.tpt j n)) := by
  obtain ⟨-, -, -, e0, e1, e2, -⟩ := idx_facts0 t
  show V c main_v1 (((cfg0.win 1).blk t).view.emb (ix3 (0 : Fin 1) (0 : Fin 1) n)) = _
  refine congrArg (V c main_v1) ?_
  funext a; apply Fin.ext
  match a with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 32768 + 1 * n.val = 32768 * j.val + n.val; omega

/-- The addend of the sums entry (b, k, f): the indicator that point n's label word is k times the point's coordinate f. -/
def gS (c : Dev nD) (b : Fin 8) (k : Fin 32) (f : Fin 16) : Fin 262144 → EReal :=
  fun n => Cert.Spec.oh (V c main_v1 (ix3 b (0 : Fin 1) n)) k.val * V c main_v2 (ix3 b f n)

/-- The addend of the counts entry (b, k): the indicator that point n's label word is k. -/
def gC (c : Dev nD) (b : Fin 8) (k : Fin 32) : Fin 262144 → EReal :=
  fun n => Cert.Spec.oh (V c main_v1 (ix3 b (0 : Fin 1) n)) k.val

/-- The zero splats are zero. -/
theorem pay1_apply (i : S32x16.Idx) : (k0_pay1 (F := Ideal)) i = 0 := by
  unfold k0_pay1; rw [shapeCast_self]; exact Ideal.ofBits_zero_f32
theorem pay2_apply (i : S32x1.Idx) : (k0_pay2 (F := Ideal)) i = 0 := by
  unfold k0_pay2; rw [shapeCast_self]; exact Ideal.ofBits_zero_f32

/-- After tile j of batch b the two accumulators' entries are the partial sums of the batch's points through tile j. -/
theorem acc0_tile (c : Dev nD) (b : Fin 8) (k : Fin 32) (f : Fin 16) :
    ∀ (j : ℕ) (hj : j < 8) (t : Fin cfg0.N), t.val = 8 * b.val + j →
      (outsAt0 (F := Ideal) V c t.val t.isLt).2.1 (ix2 k f) = Cert.Spec.accT 0 (gS V c b k f) j hj
        ∧ (outsAt0 (F := Ideal) V c t.val t.isLt).2.2 (ix2 k (0 : Fin 1)) = Cert.Spec.accT 0 (gC V c b k) j hj
  | 0, hj, t, ht => by
    have h0 : t.val % 8 = 0 := by omega
    rw [acc0_first V c t h0]
    constructor
    · show k0_pay4 (lblk0 V c t) (xblk0 V c t) (k0_pay1 (F := Ideal)) (ix2 k f) = _
      refine (pay4_apply (lblk0 V c t) (xblk0 V c t) (k0_pay1 (F := Ideal)) k f).trans ?_
      rw [pay1_apply]
      show 0 + _ = 0 + Cert.Spec.tileSum (gS V c b k f) ⟨0, hj⟩
      refine congrArg (0 + ·) (Finset.sum_congr rfl fun n _ => ?_)
      rw [lblk0_apply V c t b ⟨0, hj⟩ ht n, xblk0_apply V c t b ⟨0, hj⟩ ht f n]
      rfl
    · show k0_pay5 (lblk0 V c t) (k0_pay2 (F := Ideal)) (ix2 k (0 : Fin 1)) = _
      refine (pay5_apply (lblk0 V c t) (k0_pay2 (F := Ideal)) k).trans ?_
      rw [pay2_apply]
      show 0 + _ = 0 + Cert.Spec.tileSum (gC V c b k) ⟨0, hj⟩
      refine congrArg (0 + ·) (Finset.sum_congr rfl fun n _ => ?_)
      rw [lblk0_apply V c t b ⟨0, hj⟩ ht n]
      rfl
  | j + 1, hj, t, ht => by
    have h0 : t.val % 8 ≠ 0 := by omega
    have hN : t.val - 1 < cfg0.N := Nat.lt_of_le_of_lt (Nat.sub_le _ _) t.isLt
    obtain ⟨ih1, ih2⟩ := acc0_tile c b k f j (Nat.lt_of_succ_lt hj) ⟨t.val - 1, hN⟩ (by show t.val - 1 = _; omega)
    rw [acc0_next V c t h0]
    constructor
    · show k0_pay4 (lblk0 V c t) (xblk0 V c t) (outsAt0 V c (t.val - 1) hN).2.1 (ix2 k f) = _
      refine (pay4_apply (lblk0 V c t) (xblk0 V c t) (outsAt0 V c (t.val - 1) hN).2.1 k f).trans ?_
      show _ = Cert.Spec.accT 0 (gS V c b k f) j (Nat.lt_of_succ_lt hj) + Cert.Spec.tileSum (gS V c b k f) ⟨j + 1, hj⟩
      refine congr (congrArg HAdd.hAdd ih1) (Finset.sum_congr rfl fun n _ => ?_)
      rw [lblk0_apply V c t b ⟨j + 1, hj⟩ ht n, xblk0_apply V c t b ⟨j + 1, hj⟩ ht f n]
      rfl
    · show k0_pay5 (lblk0 V c t) (outsAt0 V c (t.val - 1) hN).2.2 (ix2 k (0 : Fin 1)) = _
      refine (pay5_apply (lblk0 V c t) (outsAt0 V c (t.val - 1) hN).2.2 k).trans ?_
      show _ = Cert.Spec.accT 0 (gC V c b k) j (Nat.lt_of_succ_lt hj) + Cert.Spec.tileSum (gC V c b k) ⟨j + 1, hj⟩
      refine congr (congrArg HAdd.hAdd ih2) (Finset.sum_congr rfl fun n _ => ?_)
      rw [lblk0_apply V c t b ⟨j + 1, hj⟩ ht n]
      rfl

/-- The sums array's entry and the counts array's entry as the sums over a batch's points. -/
@[irreducible] def sumsAt (c : Dev nD) (b : Fin 8) (k : Fin 32) (f : Fin 16) : EReal := ∑ n : Fin 262144, gS V c b k f n
@[irreducible] def countsAt (c : Dev nD) (b : Fin 8) (k : Fin 32) : EReal := ∑ n : Fin 262144, gC V c b k n

/-- What the two output arrays end holding, as functions of the array index. -/
def G2 (c : Dev nD) : S8x32x16.Idx → EReal := fun i => sumsAt V c (i 0) (i 1) (i 2)
def G3 (c : Dev nD) : S8x32x1.Idx → EReal := fun i => countsAt V c (i 0) (i 1)

/-- At a batch's last point the sums block written back is the batch's block of the sums over all its points. -/
theorem flushed2_eq (c : Dev nD) (t : Fin cfg0.N) (hf : (cfg0.win 2).flush t = true) :
    (dat0 (F := Ideal) V c).flushed 2 t = ((cfg0.win 2).blk t).view.read (Elt Ideal) (G2 V c) := by
  have h7 : t.val % 8 = 7 := (flush0_2 t).mp hf
  have hN : t.val < 64 := lt_of_lt_of_eq t.isLt N_0
  obtain ⟨-, -, -, -, -, -, e0, e1, e2, -⟩ := idx_facts0 t
  show (cfg0.win 2).cut (grid0.coords t) ((dat0 V c).after 2 t) = _
  rw [after0_2, out0_last V c t h7]
  funext y
  obtain ⟨u, k, f, rfl⟩ : ∃ (u : Fin 1) (k : Fin 32) (f : Fin 16), y = ix3 u k f := ⟨y 0, y 1, y 2, eq_ix3 y⟩
  show k0_pay6 (F := Ideal) (outsAt0 V c t.val t.isLt).2.1 (ix3 u k f) = G2 V c (((cfg0.win 2).blk t).view.emb (ix3 u k f))
  have e : ((cfg0.win 2).blk t).view.emb (ix3 u k f) = ix3 (⟨t.val / 8, by omega⟩ : Fin 8) k f := by
    funext a; apply Fin.ext
    match a with
    | ⟨0, _⟩ => show win0_2.index t (0 : Fin 3) * 1 + 1 * u.val = t.val / 8; omega
    | ⟨1, _⟩ => show win0_2.index t (1 : Fin 3) * 32 + 1 * k.val = k.val; omega
    | ⟨2, _⟩ => show win0_2.index t (2 : Fin 3) * 16 + 1 * f.val = f.val; omega
  rw [e]
  unfold k0_pay6
  rw [shapeCast_ab_1ab_apply]
  refine ((acc0_tile V c ⟨t.val / 8, by omega⟩ k f 7 (by decide) t (by show t.val = 8 * (t.val / 8) + 7; omega)).1).trans ?_
  refine (Cert.Spec.accT_last _).trans ?_
  unfold G2 sumsAt
  rfl

/-- The same for the counts block. -/
theorem flushed3_eq (c : Dev nD) (t : Fin cfg0.N) (hf : (cfg0.win 3).flush t = true) :
    (dat0 (F := Ideal) V c).flushed 3 t = ((cfg0.win 3).blk t).view.read (Elt Ideal) (G3 V c) := by
  have h7 : t.val % 8 = 7 := (flush0_3 t).mp hf
  have hN : t.val < 64 := lt_of_lt_of_eq t.isLt N_0
  obtain ⟨-, -, -, -, -, -, -, -, -, e0, e1, e2⟩ := idx_facts0 t
  show (cfg0.win 3).cut (grid0.coords t) ((dat0 V c).after 3 t) = _
  rw [after0_3, out0_last V c t h7]
  funext y
  obtain ⟨u, k, z, rfl⟩ : ∃ (u : Fin 1) (k : Fin 32) (z : Fin 1), y = ix3 u k z := ⟨y 0, y 1, y 2, eq_ix3 y⟩
  show k0_pay7 (F := Ideal) (outsAt0 V c t.val t.isLt).2.2 (ix3 u k z) = G3 V c (((cfg0.win 3).blk t).view.emb (ix3 u k z))
  have e : ((cfg0.win 3).blk t).view.emb (ix3 u k z) = ix3 (⟨t.val / 8, by omega⟩ : Fin 8) k (0 : Fin 1) := by
    funext a; apply Fin.ext
    match a with
    | ⟨0, _⟩ => show win0_3.index t (0 : Fin 3) * 1 + 1 * u.val = t.val / 8; omega
    | ⟨1, _⟩ => show win0_3.index t (1 : Fin 3) * 32 + 1 * k.val = k.val; omega
    | ⟨2, _⟩ => show win0_3.index t (2 : Fin 3) * 1 + 1 * z.val = 0; omega
  rw [e]
  unfold k0_pay7
  rw [shapeCast_ab_1ab_apply]
  have hz : z = (0 : Fin 1) := Fin.ext (by omega)
  subst hz
  refine ((acc0_tile V c ⟨t.val / 8, by omega⟩ k (0 : Fin 16) 7 (by decide) t (by show t.val = 8 * (t.val / 8) + 7; omega)).2).trans ?_
  refine (Cert.Spec.accT_last _).trans ?_
  unfold G3 countsAt
  rfl

/-- The last point of batch b. -/
def lastPt (b : Fin 8) : Fin cfg0.N := ⟨8 * b.val + 7, by rw [show cfg0.N = 64 from N_0]; omega⟩

/-- Entry (b, k, f) of the sums array after region 0: the sum over batch b's points of the indicator that the point's
    label word is k times the point's coordinate f. -/
theorem sums_val (c : Dev nD) (b : Fin 8) (k : Fin 32) (f : Fin 16) :
    ((dat0 (F := Ideal) V c).arrAt 2 cfg0.N : S8x32x16.Idx → EReal) (ix3 b k f)
      = ∑ n : Fin 262144, Cert.Spec.oh (V c main_v1 (ix3 b (0 : Fin 1) n)) k.val * V c main_v2 (ix3 b f n) := by
  have hf : (cfg0.win 2).flush (lastPt b) = true := (flush0_2 (lastPt b)).mpr (by show (8 * b.val + 7) % 8 = 7; omega)
  obtain ⟨-, -, -, -, -, -, e0, e1, e2, -⟩ := idx_facts0 (lastPt b)
  have e : ((cfg0.win 2).blk (lastPt b)).view.emb (ix3 (0 : Fin 1) k f) = ix3 b k f := by
    funext a; apply Fin.ext
    match a with
    | ⟨0, _⟩ => show win0_2.index (lastPt b) (0 : Fin 3) * 1 + 1 * 0 = b.val; rw [e0]; show (8 * b.val + 7) / 8 * 1 + 1 * 0 = b.val; omega
    | ⟨1, _⟩ => show win0_2.index (lastPt b) (1 : Fin 3) * 32 + 1 * k.val = k.val; omega
    | ⟨2, _⟩ => show win0_2.index (lastPt b) (2 : Fin 3) * 16 + 1 * f.val = f.val; omega
  have hm : ix3 b k f ∈ ((cfg0.win 2).blk (lastPt b)).view.set := by
    rw [← e]; exact View.emb_mem_set _ _
  refine ((dat0 (F := Ideal) V c).arrAt_apply_of_mem 2 (G2 V c) (fun t ht => flushed2_eq V c t ht) cfg0.N (lastPt b) (ix3 b k f)
    (lastPt b).isLt hf hm).trans ?_
  unfold G2 sumsAt gS
  rfl

/-- Entry (b, k, 0) of the counts array after region 0: the number of batch b's points whose label word is k. -/
theorem counts_val (c : Dev nD) (b : Fin 8) (k : Fin 32) :
    ((dat0 (F := Ideal) V c).arrAt 3 cfg0.N : S8x32x1.Idx → EReal) (ix3 b k (0 : Fin 1))
      = ∑ n : Fin 262144, Cert.Spec.oh (V c main_v1 (ix3 b (0 : Fin 1) n)) k.val := by
  have hf : (cfg0.win 3).flush (lastPt b) = true := (flush0_3 (lastPt b)).mpr (by show (8 * b.val + 7) % 8 = 7; omega)
  obtain ⟨-, -, -, -, -, -, -, -, -, e0, e1, e2⟩ := idx_facts0 (lastPt b)
  have e : ((cfg0.win 3).blk (lastPt b)).view.emb (ix3 (0 : Fin 1) k (0 : Fin 1)) = ix3 b k (0 : Fin 1) := by
    funext a; apply Fin.ext
    match a with
    | ⟨0, _⟩ => show win0_3.index (lastPt b) (0 : Fin 3) * 1 + 1 * 0 = b.val; rw [e0]; show (8 * b.val + 7) / 8 * 1 + 1 * 0 = b.val; omega
    | ⟨1, _⟩ => show win0_3.index (lastPt b) (1 : Fin 3) * 32 + 1 * k.val = k.val; omega
    | ⟨2, _⟩ => show win0_3.index (lastPt b) (2 : Fin 3) * 1 + 1 * 0 = 0; omega
  have hm : ix3 b k (0 : Fin 1) ∈ ((cfg0.win 3).blk (lastPt b)).view.set := by
    rw [← e]; exact View.emb_mem_set _ _
  refine ((dat0 (F := Ideal) V c).arrAt_apply_of_mem 3 (G3 V c) (fun t ht => flushed3_eq V c t ht) cfg0.N (lastPt b) (ix3 b k (0 : Fin 1))
    (lastPt b).isLt hf hm).trans ?_
  unfold G3 countsAt gC
  rfl

end Cert.KernelIdeal.Hand

end
-- ==== Proof.KI.KHost0.lean ====
/-
  The kernel program's host side at the ideal instance, up to the cluster means: the two regions read the embeddings
  transposed and the labels clipped into [0, 31] and re-laid (the clip changes no label in range); between the regions
  the means are the sums over the counts floored at one.
-/
import proofs.«422320_j2723009265750_3_alg».proof.Proof.KI.Run
import proofs.«422320_j2723009265750_3_alg».proof.Proof.KI.Val0
import proofs.«422320_j2723009265750_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The two arguments read at explicit coordinates. -/
abbrev Ek : Fin 8 → Fin 262144 → Fin 16 → EReal := fun b n f => (m ((c : Thread nD τ).loc main_arg0) : S8x262144x16.Idx → EReal) (ix3 b n f)
abbrev Lk : Fin 8 → Fin 262144 → BitVec 32 := fun b n => (m ((c : Thread nD τ).loc main_arg1) : S8x262144.Idx → BitVec 32) (ix2 b n)

/-! ## The host operations read at an index -/

namespace KHost0

/-- Clipping a cluster number below 32 into [0, 31] leaves it. -/
theorem clip_word : ∀ l : Fin 32, IntOp.minsi 31#32 (IntOp.maxsi 0#32 (BitVec.ofNat 32 l.val)) = BitVec.ofNat 32 l.val := by decide

/-- The re-laid labels [8, 1, 262144] at (b, 0, n) are the labels [8, 262144] at (b, n). -/
theorem relabel_apply (x : S8x262144.Idx → BitVec 32) (b : Fin 8) (n : Fin 262144) :
    broadcastInDim S8x1x262144 ![0, 2] bcast_S8x262144_S8x1x262144_0_2 x (ix3 b (0 : Fin 1) n) = x (ix2 b n) :=
  broadcastInDim_apply _ bcast_S8x262144_S8x1x262144_0_2 x (ix3 b (0 : Fin 1) n) (ix2 b n) (fun a => match a with
    | ⟨0, _⟩ => by show b.val = if (8 : Nat) = 1 then 0 else b.val; rw [if_neg (by decide)]
    | ⟨1, _⟩ => by show n.val = if (262144 : Nat) = 1 then 0 else n.val; rw [if_neg (by decide)])

/-- The counts [8, 32, 1] re-laid as [8, 32]: (b, k) reads (b, k, 0). -/
theorem recount_apply (x : S8x32x1.Idx → EReal) (b : Fin 8) (k : Fin 32) :
    shapeCast S8x32 x shapeCasts_S8x32x1_S8x32 (ix2 b k) = x (ix3 b k (0 : Fin 1)) :=
  shapeCast_apply x shapeCasts_S8x32x1_S8x32 (ix2 b k) (ix3 b k (0 : Fin 1))
    (by rw [Shape.rowMajor_val_three, Shape.rowMajor_val_two]; show (b.val * 32 + k.val) * 1 + 0 = b.val * 32 + k.val; omega)

/-- The floored counts [8, 32] spread over the coordinates: (b, k, f) reads (b, k). -/
theorem spread_apply (x : S8x32.Idx → EReal) (b : Fin 8) (k : Fin 32) (f : Fin 16) :
    broadcastInDim S8x32x16 ![0, 1, 2] bcast_S8x32x1_S8x32x16_0_1_2 (broadcastInDim S8x32x1 ![0, 1] bcast_S8x32_S8x32x1_0_1 x) (ix3 b k f) = x (ix2 b k) :=
  (broadcastInDim_apply _ bcast_S8x32x1_S8x32x16_0_1_2 _ (ix3 b k f) (ix3 b k (0 : Fin 1)) (fun a => match a with
    | ⟨0, _⟩ => by show b.val = if (8 : Nat) = 1 then 0 else b.val; rw [if_neg (by decide)]
    | ⟨1, _⟩ => by show k.val = if (32 : Nat) = 1 then 0 else k.val; rw [if_neg (by decide)]
    | ⟨2, _⟩ => by show 0 = if (1 : Nat) = 1 then 0 else f.val; rw [if_pos rfl])).trans
  (broadcastInDim_apply _ bcast_S8x32_S8x32x1_0_1 x (ix3 b k (0 : Fin 1)) (ix2 b k) (fun a => match a with
    | ⟨0, _⟩ => by show b.val = if (8 : Nat) = 1 then 0 else b.val; rw [if_neg (by decide)]
    | ⟨1, _⟩ => by show k.val = if (32 : Nat) = 1 then 0 else k.val; rw [if_neg (by decide)]))

/-- The counts floored at one, at (b, k). -/
theorem floor_apply (x : S8x32x1.Idx → EReal) (b : Fin 8) (k : Fin 32) :
    (maximumf (F := Ideal) (φ := .f32) (shapeCast S8x32 x shapeCasts_S8x32x1_S8x32)
      (broadcastInDim S8x32 ![] bcast_S_S8x32 (constant (F := Ideal) S_ .f32 0x3F800000#32)) : S8x32.Idx → EReal) (ix2 b k)
      = max (x (ix3 b k (0 : Fin 1))) (Ideal.ofBits .f32 0x3F800000#32) := by
  show max (shapeCast S8x32 x shapeCasts_S8x32x1_S8x32 (ix2 b k)) (Ideal.ofBits .f32 0x3F800000#32) = _
  rw [recount_apply x b k]

end KHost0

/-! ## What region 0 is entered from -/

namespace KHost0

/-- The labels region 0 reads: the launched labels clipped into [0, 31] and re-laid. -/
theorem Ve0_v1_eq : (Ve0 m c main_v1 : S8x1x262144.Idx → BitVec 32)
    = broadcastInDim S8x1x262144 ![0, 2] bcast_S8x262144_S8x1x262144_0_2
        (minsi (broadcastInDim S8x262144 ![] bcast_S_S8x262144 (constantI S_ 32 31#32))
          (maxsi (broadcastInDim S8x262144 ![] bcast_S_S8x262144 (constantI S_ 32 0#32))
            (m ((c : Thread nD τ).loc main_arg1) : S8x262144.Idx → BitVec 32))) := by
  show StableHlo.after hostOps0_2 (Gen.V2 m c) (Proc.devRef .tc main_v1) = _
  after_results
  rfl

/-- The embeddings region 0 reads: the launched embeddings transposed. -/
theorem Ve0_v2_eq : (Ve0 m c main_v2 : S8x16x262144.Idx → EReal)
    = transpose S8x16x262144 [0, 2, 1] (m ((c : Thread nD τ).loc main_arg0) : S8x262144x16.Idx → EReal) transposes_S8x262144x16_S8x16x262144_0_2_1 := by
  show StableHlo.after hostOps0_2 (Gen.V2 m c) (Proc.devRef .tc main_v2) = _
  after_results

/-- A buffer that neither region 0 nor the stretch after it writes is, at region 1's entry, what it was at region 0's. -/
theorem Ve1_of_Ve0 (r : Ref sig .tc) (h1 : r ∉ hostOps1_W) (h4 : r ∉ ([main_v3_0, main_v3_1] : List (Ref sig .tc))) :
    Ve1 m c r = Ve0 m c r :=
  (Gen.V5_of m (outs4 m) c r h1).trans (Gen.V4_of m (outs4 m) c r h4)

end KHost0

/-- Region 0 reads the labels as launched (clipping changes no label in range), -/
theorem lab0 (h : Cert.Spec.InRange (Lk m c)) (b : Fin 8) (n : Fin 262144) :
    (Ve0 m c main_v1 : S8x1x262144.Idx → BitVec 32) (ix3 b (0 : Fin 1) n) = Lk m c b n := by
  refine (congrFun (KHost0.Ve0_v1_eq m c) (ix3 b (0 : Fin 1) n)).trans ((KHost0.relabel_apply _ b n).trans ?_)
  obtain ⟨l, hl⟩ := h b n
  show IntOp.minsi 31#32 (IntOp.maxsi 0#32 (Lk m c b n)) = Lk m c b n
  rw [hl]; exact KHost0.clip_word l
/-- and the embeddings transposed. -/
theorem emb0 (b : Fin 8) (f : Fin 16) (n : Fin 262144) :
    (Ve0 m c main_v2 : S8x16x262144.Idx → EReal) (ix3 b f n) = Ek m c b n f :=
  (congrFun (KHost0.Ve0_v2_eq m c) (ix3 b f n)).trans
    (transpose_ix3_021_apply (m ((c : Thread nD τ).loc main_arg0) : S8x262144x16.Idx → EReal) transposes_S8x262144x16_S8x16x262144_0_2_1 b f n)

/-- Region 1 reads the same two arrays: nothing in between writes them. -/
theorem lab1 (h : Cert.Spec.InRange (Lk m c)) (b : Fin 8) (n : Fin 262144) :
    (Ve1 m c main_v1 : S8x1x262144.Idx → BitVec 32) (ix3 b (0 : Fin 1) n) = Lk m c b n :=
  (congrFun (KHost0.Ve1_of_Ve0 m c main_v1 (by decide) (by decide) : (Ve1 m c main_v1 : S8x1x262144.Idx → BitVec 32) = Ve0 m c main_v1) (ix3 b (0 : Fin 1) n)).trans
    (lab0 m c h b n)
theorem emb1 (b : Fin 8) (f : Fin 16) (n : Fin 262144) :
    (Ve1 m c main_v2 : S8x16x262144.Idx → EReal) (ix3 b f n) = Ek m c b n f :=
  (congrFun (KHost0.Ve1_of_Ve0 m c main_v2 (by decide) (by decide) : (Ve1 m c main_v2 : S8x16x262144.Idx → EReal) = Ve0 m c main_v2) (ix3 b f n)).trans
    (emb0 m c b f n)

/-! ## Between the regions -/

namespace KHost0

/-- Region 0's two output arrays as the stretch after it finds them, and the floored counts it forms. -/
abbrev sumsArr : S8x32x16.Idx → EReal := Gen.V4 m (outs4 m) c main_v3_0
abbrev cntArr : S8x32x1.Idx → EReal := Gen.V4 m (outs4 m) c main_v3_1
abbrev safeArr : S8x32.Idx → EReal :=
  maximumf (F := Ideal) (φ := .f32) (shapeCast S8x32 (cntArr m c) shapeCasts_S8x32x1_S8x32)
    (broadcastInDim S8x32 ![] bcast_S_S8x32 (constant (F := Ideal) S_ .f32 0x3F800000#32))

/-- Region 0's two output arrays, entry by entry, over the launched arguments. -/
theorem sums0 (h : Cert.Spec.InRange (Lk m c)) (b : Fin 8) (k : Fin 32) (f : Fin 16) :
    sumsArr m c (ix3 b k f) = Cert.Spec.sums (Ek m c) (Lk m c) b k f := by
  have e : sumsArr m c = ((dat0 (Ve0 m) c).arrAt 2 cfg0.N : S8x32x16.Idx → EReal) :=
    (V4_at0 m (outs4 m) c).trans (W4_arr m c 2)
  have e2 : (∑ n : Fin 262144, Cert.Spec.oh (Ve0 m c main_v1 (ix3 b (0 : Fin 1) n)) k.val * Ve0 m c main_v2 (ix3 b f n) : EReal)
      = Cert.Spec.sums (Ek m c) (Lk m c) b k f := by
    unfold Cert.Spec.sums
    exact Finset.sum_congr rfl fun n _ => congrArg₂ (fun (w : BitVec 32) (x : EReal) => Cert.Spec.oh w k.val * x) (lab0 m c h b n) (emb0 m c b f n)
  exact (congrFun e (ix3 b k f)).trans ((sums_val (Ve0 m) c b k f).trans e2)
theorem counts0 (h : Cert.Spec.InRange (Lk m c)) (b : Fin 8) (k : Fin 32) :
    cntArr m c (ix3 b k (0 : Fin 1)) = Cert.Spec.counts (Lk m c) b k := by
  have e : cntArr m c = ((dat0 (Ve0 m) c).arrAt 3 cfg0.N : S8x32x1.Idx → EReal) :=
    (V4_at1 m (outs4 m) c).trans (W4_arr m c 3)
  have e2 : (∑ n : Fin 262144, Cert.Spec.oh (Ve0 m c main_v1 (ix3 b (0 : Fin 1) n)) k.val : EReal) = Cert.Spec.counts (Lk m c) b k := by
    unfold Cert.Spec.counts
    exact Finset.sum_congr rfl fun n _ => congrArg (fun (w : BitVec 32) => Cert.Spec.oh w k.val) (lab0 m c h b n)
  exact (congrFun e (ix3 b k (0 : Fin 1))).trans ((counts_val (Ve0 m) c b k).trans e2)

theorem Ve1_v6_eq : (Ve1 m c main_v6 : S8x32.Idx → EReal) = safeArr m c := by
  show StableHlo.after hostOps1 (Gen.V4 m (outs4 m) c) (Proc.devRef .tc main_v6) = _
  after_results
  all_goals rfl

theorem Ve1_v9_eq : (Ve1 m c main_v9 : S8x32x16.Idx → EReal)
    = Host.divf (F := Ideal) (φ := .f32) (sumsArr m c)
        (broadcastInDim S8x32x16 ![0, 1, 2] bcast_S8x32x1_S8x32x16_0_1_2
          (broadcastInDim S8x32x1 ![0, 1] bcast_S8x32_S8x32x1_0_1 (safeArr m c))) := by
  show StableHlo.after hostOps1 (Gen.V4 m (outs4 m) c) (Proc.devRef .tc main_v9) = _
  after_results
  all_goals rfl

theorem safeArr_apply (h : Cert.Spec.InRange (Lk m c)) (b : Fin 8) (k : Fin 32) :
    safeArr m c (ix2 b k) = Cert.Spec.safe (Lk m c) b k := by
  refine (floor_apply (cntArr m c) b k).trans ?_
  unfold Cert.Spec.safe
  exact congrArg (fun x : EReal => max x (Ideal.ofBits .f32 0x3F800000#32)) (counts0 m c h b k)

end KHost0

/-- The floored counts after the stretch between the regions. -/
theorem kSafe_apply (h : Cert.Spec.InRange (Lk m c)) (b : Fin 8) (k : Fin 32) :
    (Ve1 m c main_v6 : S8x32.Idx → EReal) (ix2 b k) = Cert.Spec.safe (Lk m c) b k :=
  (congrFun (KHost0.Ve1_v6_eq m c) (ix2 b k)).trans (KHost0.safeArr_apply m c h b k)

/-- The means region 1 reads are the cluster means. -/
theorem means1 (h : Cert.Spec.InRange (Lk m c)) (b : Fin 8) (k : Fin 32) (f : Fin 16) :
    (Ve1 m c main_v9 : S8x32x16.Idx → EReal) (ix3 b k f) = Cert.Spec.mean (Ek m c) (Lk m c) b k f := by
  refine (congrFun (KHost0.Ve1_v9_eq m c) (ix3 b k f)).trans ?_
  show Ideal.div (KHost0.sumsArr m c (ix3 b k f))
    (broadcastInDim S8x32x16 ![0, 1, 2] bcast_S8x32x1_S8x32x16_0_1_2 (broadcastInDim S8x32x1 ![0, 1] bcast_S8x32_S8x32x1_0_1 (KHost0.safeArr m c)) (ix3 b k f)) = _
  unfold Cert.Spec.mean
  exact congrArg₂ Ideal.div (KHost0.sums0 m c h b k f) ((KHost0.spread_apply (KHost0.safeArr m c) b k f).trans (KHost0.safeArr_apply m c h b k))

/-- Region 1 changes neither the means nor the floored counts. -/
theorem kMeans_apply (h : Cert.Spec.InRange (Lk m c)) (b : Fin 8) (k : Fin 32) (f : Fin 16) :
    (Gen.V6 m (outs m) c main_v9 : S8x32x16.Idx → EReal) (ix3 b k f) = Cert.Spec.mean (Ek m c) (Lk m c) b k f :=
  (congrFun ((Gen.V6_of m (outs m) c main_v9 (by decide)).trans (congrFun (V5_outs m c) _) : (Gen.V6 m (outs m) c main_v9 : S8x32x16.Idx → EReal) = Ve1 m c main_v9) (ix3 b k f)).trans
    (means1 m c h b k f)
theorem kSafe6_apply (h : Cert.Spec.InRange (Lk m c)) (b : Fin 8) (k : Fin 32) :
    (Gen.V6 m (outs m) c main_v6 : S8x32.Idx → EReal) (ix2 b k) = Cert.Spec.safe (Lk m c) b k :=
  (congrFun ((Gen.V6_of m (outs m) c main_v6 (by decide)).trans (congrFun (V5_outs m c) _) : (Gen.V6 m (outs m) c main_v6 : S8x32.Idx → EReal) = Ve1 m c main_v6) (ix2 b k)).trans
    (kSafe_apply m c h b k)

end Cert.KernelIdeal.Hand

end
-- ==== Proof.KI.Val1.lean ====
/-
  Region 1's output array at the ideal instance, entry by entry: the per-cluster sums of the points' pull terms. A
  point's pull term is computed from its embedding and the mean row read for it by a matrix product of the batch's
  means block with the one-hot label tile; a tile's contribution to the accumulator is the matrix product of the
  one-hot tile with the tile's pull terms; the accumulator adds a batch's eight tiles in order starting from zero and
  the batch's last point copies it out.
-/
import proofs.«422320_j2723009265750_3_alg».proof.Proof.KI.R1
import proofs.«422320_j2723009265750_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

namespace V1

/-! ## The tile's contribution at an index -/

/-- The indicator as the kernel forms it: the comparison's bit widened to a word and converted. -/
theorem ind_word (w : BitVec 32) (k : ℕ) :
    ((((IntOp.cmpi .eq w (BitVec.ofNat 32 k)).setWidth 32).toInt : ℝ) : EReal) = Cert.Spec.oh w k := by
  unfold Cert.Spec.oh
  by_cases h : w = BitVec.ofNat 32 k
  · rw [if_pos h, h]; simp [IntOp.cmpi]
  · rw [if_neg h]
    have hb : (w == BitVec.ofNat 32 k) = false := by simpa using h
    simp [IntOp.cmpi, hb]

/-- The one-hot label tile: row k, lane n is one when lane n's label word is k. -/
def hot (l : Vec Ideal S1x1x32768 .i32) : FVec Ideal S32x32768 .f32 :=
  sitofp .f32 (extui 32 (cmpi .eq (broadcastTo S32x32768 (shapeCast S1x32768 l shapeCasts_S1x1x32768_S1x32768) broadcasts_S1x32768_S32x32768)
    (iota .tc S32x32768 32 [0] iota_S32x32768_d0_w32)) natLt_1_32)

theorem hot_apply (l : Vec Ideal S1x1x32768 .i32) (k : Fin 32) (n : Fin 32768) :
    hot l (ix2 k n) = Cert.Spec.oh (l (ix3 (0 : Fin 1) (0 : Fin 1) n)) k.val := by
  unfold hot
  show ((((IntOp.cmpi .eq (broadcastTo S32x32768 (shapeCast S1x32768 l shapeCasts_S1x1x32768_S1x32768) broadcasts_S1x32768_S32x32768 (ix2 k n))
      (iota .tc S32x32768 32 [0] iota_S32x32768_d0_w32 (ix2 k n))).setWidth 32).toInt : ℝ) : EReal) = _
  rw [broadcastTo_1b_ab_apply, shapeCast_1ab_ab_apply, iota_single_apply]
  exact ind_word _ _

/-! The mean rows read for the tile's lanes: the means block times the one-hot tile, contracting the cluster axis. -/

theorem lhs_gath_0 (i : S16x32768.Idx) (q : dot_S32x16_S32x32768_S16x32768_0_0_1_1_n_n.contr.Idx) :
    (dot_S32x16_S32x32768_S16x32768_0_0_1_1_n_n.lhsIdx i q 0).val = (q ⟨0, by decide⟩).val :=
  dot_S32x16_S32x32768_S16x32768_0_0_1_1_n_n.lhsIdx_val_of_single rfl i q
theorem lhs_gath_1 (i : S16x32768.Idx) (q : dot_S32x16_S32x32768_S16x32768_0_0_1_1_n_n.contr.Idx) :
    (dot_S32x16_S32x32768_S16x32768_0_0_1_1_n_n.lhsIdx i q 1).val = (i 0).val := by
  unfold DotDims.lhsIdx
  rw [dif_neg (show ¬(1 : Fin S32x16.rank) ∈ dot_S32x16_S32x32768_S16x32768_0_0_1_1_n_n.lhsBatch by decide),
    dif_pos (show (1 : Fin S32x16.rank) ∈ dot_S32x16_S32x32768_S16x32768_0_0_1_1_n_n.lhsNonContracting by decide)]
  rfl
theorem rhs_gath_0 (i : S16x32768.Idx) (q : dot_S32x16_S32x32768_S16x32768_0_0_1_1_n_n.contr.Idx) :
    (dot_S32x16_S32x32768_S16x32768_0_0_1_1_n_n.rhsIdx i q 0).val = (q ⟨0, by decide⟩).val :=
  dot_S32x16_S32x32768_S16x32768_0_0_1_1_n_n.rhsIdx_val_of_single rfl i q
theorem rhs_gath_1 (i : S16x32768.Idx) (q : dot_S32x16_S32x32768_S16x32768_0_0_1_1_n_n.contr.Idx) :
    (dot_S32x16_S32x32768_S16x32768_0_0_1_1_n_n.rhsIdx i q 1).val = (i 1).val := by
  unfold DotDims.rhsIdx
  rw [dif_neg (show ¬(1 : Fin S32x32768.rank) ∈ dot_S32x16_S32x32768_S16x32768_0_0_1_1_n_n.rhsBatch by decide),
    dif_pos (show (1 : Fin S32x32768.rank) ∈ dot_S32x16_S32x32768_S16x32768_0_0_1_1_n_n.rhsNonContracting by decide)]
  rfl

def gath (l : Vec Ideal S1x1x32768 .i32) (mu : Vec Ideal S1x32x16 .f32) : FVec Ideal S16x32768 .f32 :=
  matmul dot_S32x16_S32x32768_S16x32768_0_0_1_1_n_n none (shapeCast S32x16 mu shapeCasts_S1x32x16_S32x16 : FVec Ideal S32x16 .f32) (hot l)
    (constant (F := Ideal) S16x32768 .f32 0x00000000#32)

theorem gath_apply (l : Vec Ideal S1x1x32768 .i32) (mu : Vec Ideal S1x32x16 .f32) (f : Fin 16) (n : Fin 32768) :
    gath l mu (ix2 f n)
      = ∑ k' : Fin 32, mu (ix3 (0 : Fin 1) k' f) * Cert.Spec.oh (l (ix3 (0 : Fin 1) (0 : Fin 1) n)) k'.val := by
  unfold gath
  simp only [matmul]
  rw [Ideal.matmul_constant_zero_apply,
    ← Equiv.sum_comp (ValueIdx.contrEquiv1 dot_S32x16_S32x32768_S16x32768_0_0_1_1_n_n 32 rfl rfl).symm]
  refine Finset.sum_congr rfl fun k' _ => ?_
  have hk := ValueIdx.contrEquiv1_symm_val dot_S32x16_S32x32768_S16x32768_0_0_1_1_n_n 32 rfl rfl k'
  have el : dot_S32x16_S32x32768_S16x32768_0_0_1_1_n_n.lhsIdx (ix2 f n)
      ((ValueIdx.contrEquiv1 dot_S32x16_S32x32768_S16x32768_0_0_1_1_n_n 32 rfl rfl).symm k') = ix2 k' f := funext fun a => Fin.ext (by
    match a with
    | ⟨0, _⟩ => exact (lhs_gath_0 _ _).trans hk
    | ⟨1, _⟩ => exact lhs_gath_1 _ _)
  have er : dot_S32x16_S32x32768_S16x32768_0_0_1_1_n_n.rhsIdx (ix2 f n)
      ((ValueIdx.contrEquiv1 dot_S32x16_S32x32768_S16x32768_0_0_1_1_n_n 32 rfl rfl).symm k') = ix2 k' n := funext fun a => Fin.ext (by
    match a with
    | ⟨0, _⟩ => exact (rhs_gath_0 _ _).trans hk
    | ⟨1, _⟩ => exact rhs_gath_1 _ _)
  rw [el, er, shapeCast_1ab_ab_apply, hot_apply]

end V1

namespace V1

/-- The lane sum of a [16, 32768] tile at lane n is the sum of the lane's 16 entries. -/
theorem laneSum16 (src : FVec Ideal S16x32768 .f32) (hφ : FKind.Formats .f32)
    (hacc : (0x00000000#32 : BitVec 32) = FKind.add.neutral .f32 hφ) (n : Fin 32768) :
    multiReduction (F := Ideal) .add [0] S32768 src 0x00000000#32 reduces_S16x32768_S32768 hφ hacc (ix1 n)
      = ∑ f : Fin 16, src (ix2 f n) := by
  refine (Ideal.multiReduction_add_single src 0x00000000#32 reduces_S16x32768_S32768 hφ hacc (ix1 n)).trans ?_
  refine Finset.sum_congr rfl fun f _ => congrArg src ?_
  funext ax
  match ax with
  | ⟨0, _⟩ => rfl
  | ⟨1, _⟩ => rfl

/-- The tile's embeddings less the mean rows read for them. -/
def dif (l : Vec Ideal S1x1x32768 .i32) (x : Vec Ideal S1x16x32768 .f32) (mu : Vec Ideal S1x32x16 .f32) : FVec Ideal S16x32768 .f32 :=
  subf (shapeCast S16x32768 x shapeCasts_S1x16x32768_S16x32768 : FVec Ideal S16x32768 .f32) (gath l mu)

/-- The squared distance of each of the tile's lanes to the mean row read for it. -/
def sqd (l : Vec Ideal S1x1x32768 .i32) (x : Vec Ideal S1x16x32768 .f32) (mu : Vec Ideal S1x32x16 .f32) : FVec Ideal S32768 .f32 :=
  multiReduction (F := Ideal) .add [0] S32768 (mulf (dif l x mu) (dif l x mu)) 0x00000000#32 reduces_S16x32768_S32768 (.inl rfl) rfl

theorem sqd_apply (l : Vec Ideal S1x1x32768 .i32) (x : Vec Ideal S1x16x32768 .f32) (mu : Vec Ideal S1x32x16 .f32) (n : Fin 32768) :
    sqd l x mu (ix1 n)
      = ∑ f : Fin 16,
          (x (ix3 (0 : Fin 1) f n) - ∑ k' : Fin 32, mu (ix3 (0 : Fin 1) k' f) * Cert.Spec.oh (l (ix3 (0 : Fin 1) (0 : Fin 1) n)) k'.val)
          * (x (ix3 (0 : Fin 1) f n) - ∑ k' : Fin 32, mu (ix3 (0 : Fin 1) k' f) * Cert.Spec.oh (l (ix3 (0 : Fin 1) (0 : Fin 1) n)) k'.val) := by
  unfold sqd
  refine (laneSum16 _ _ _ n).trans ?_
  refine Finset.sum_congr rfl fun f _ => ?_
  unfold dif
  rw [mulf_apply, subf_apply, shapeCast_1ab_ab_apply, gath_apply]

/-- A square root at an index is the square root of the entry. -/
theorem sqrt_at {s : Shape} (v : FVec Ideal s .f32) (i : s.Idx) : sqrt v i = Ideal.sqrt (v i) := rfl

/-- The pull terms of the tile's lanes. -/
def pv (l : Vec Ideal S1x1x32768 .i32) (x : Vec Ideal S1x16x32768 .f32) (mu : Vec Ideal S1x32x16 .f32) : FVec Ideal S1x32768 .f32 :=
  mulf
    (maximumf (subf (sqrt (maximumf (shapeCast S1x32768 (sqd l x mu) shapeCasts_S32768_S1x32768) (broadcast S1x32768 (Scalar.ofBits .f32 0x2B8CBCCC#32))))
      (broadcast S1x32768 (Scalar.ofBits .f32 0x3E800000#32))) (broadcast S1x32768 (Scalar.ofBits .f32 0x00000000#32)))
    (maximumf (subf (sqrt (maximumf (shapeCast S1x32768 (sqd l x mu) shapeCasts_S32768_S1x32768) (broadcast S1x32768 (Scalar.ofBits .f32 0x2B8CBCCC#32))))
      (broadcast S1x32768 (Scalar.ofBits .f32 0x3E800000#32))) (broadcast S1x32768 (Scalar.ofBits .f32 0x00000000#32)))

theorem pv_apply (l : Vec Ideal S1x1x32768 .i32) (x : Vec Ideal S1x16x32768 .f32) (mu : Vec Ideal S1x32x16 .f32) (n : Fin 32768) :
    pv l x mu (ix2 (0 : Fin 1) n)
      = Cert.Spec.pull (fun f => x (ix3 (0 : Fin 1) f n))
          (fun f => ∑ k' : Fin 32, mu (ix3 (0 : Fin 1) k' f) * Cert.Spec.oh (l (ix3 (0 : Fin 1) (0 : Fin 1) n)) k'.val) := by
  have h : shapeCast S1x32768 (sqd l x mu) shapeCasts_S32768_S1x32768 (ix2 (0 : Fin 1) n)
      = ∑ f : Fin 16,
          (x (ix3 (0 : Fin 1) f n) - ∑ k' : Fin 32, mu (ix3 (0 : Fin 1) k' f) * Cert.Spec.oh (l (ix3 (0 : Fin 1) (0 : Fin 1) n)) k'.val)
          * (x (ix3 (0 : Fin 1) f n) - ∑ k' : Fin 32, mu (ix3 (0 : Fin 1) k' f) * Cert.Spec.oh (l (ix3 (0 : Fin 1) (0 : Fin 1) n)) k'.val) := by
    rw [shapeCast_a_1a_apply, sqd_apply]
  have hs : ∀ w : BitVec 32, Scalar.ofBits (F := Ideal) .f32 w = Ideal.ofBits .f32 w := fun _ => rfl
  unfold pv Cert.Spec.pull
  simp only [mulf_apply, maximumf_apply, subf_apply, sqrt_at, broadcast_apply, hs]
  rw [h]

/-! The tile's contribution: the one-hot tile times the pull terms, contracting the lane axis. -/

theorem lhs_con_0 (i : S32x1.Idx) (q : dot_S32x32768_S1x32768_S32x1_1_1_0_0_n_n.contr.Idx) :
    (dot_S32x32768_S1x32768_S32x1_1_1_0_0_n_n.lhsIdx i q 0).val = (i 0).val := by
  unfold DotDims.lhsIdx
  rw [dif_neg (show ¬(0 : Fin S32x32768.rank) ∈ dot_S32x32768_S1x32768_S32x1_1_1_0_0_n_n.lhsBatch by decide),
    dif_pos (show (0 : Fin S32x32768.rank) ∈ dot_S32x32768_S1x32768_S32x1_1_1_0_0_n_n.lhsNonContracting by decide)]
  rfl
theorem lhs_con_1 (i : S32x1.Idx) (q : dot_S32x32768_S1x32768_S32x1_1_1_0_0_n_n.contr.Idx) :
    (dot_S32x32768_S1x32768_S32x1_1_1_0_0_n_n.lhsIdx i q 1).val = (q ⟨0, by decide⟩).val :=
  dot_S32x32768_S1x32768_S32x1_1_1_0_0_n_n.lhsIdx_val_of_single rfl i q
theorem rhs_con_0 (i : S32x1.Idx) (q : dot_S32x32768_S1x32768_S32x1_1_1_0_0_n_n.contr.Idx) :
    (dot_S32x32768_S1x32768_S32x1_1_1_0_0_n_n.rhsIdx i q 0).val = (i 1).val := by
  unfold DotDims.rhsIdx
  rw [dif_neg (show ¬(0 : Fin S1x32768.rank) ∈ dot_S32x32768_S1x32768_S32x1_1_1_0_0_n_n.rhsBatch by decide),
    dif_pos (show (0 : Fin S1x32768.rank) ∈ dot_S32x32768_S1x32768_S32x1_1_1_0_0_n_n.rhsNonContracting by decide)]
  rfl
theorem rhs_con_1 (i : S32x1.Idx) (q : dot_S32x32768_S1x32768_S32x1_1_1_0_0_n_n.contr.Idx) :
    (dot_S32x32768_S1x32768_S32x1_1_1_0_0_n_n.rhsIdx i q 1).val = (q ⟨0, by decide⟩).val :=
  dot_S32x32768_S1x32768_S32x1_1_1_0_0_n_n.rhsIdx_val_of_single rfl i q

/-- The stored value as a term of the named pieces. -/
theorem pay3_eq (l : Vec Ideal S1x1x32768 .i32) (x : Vec Ideal S1x16x32768 .f32) (mu : Vec Ideal S1x32x16 .f32) (a : Vec Ideal S32x1 .f32) :
    k1_pay3 (F := Ideal) l x mu a
      = shapeCast S32x1 (addf (a : FVec Ideal S32x1 .f32)
          (matmul dot_S32x32768_S1x32768_S32x1_1_1_0_0_n_n none (hot l) (pv l x mu) (constant (F := Ideal) S32x1 .f32 0x00000000#32)))
          shapeCasts_S32x1_S32x1 := rfl

/-- Entry (k, 0) of what a tile stores into the accumulator: what it held plus the sum over the tile's lanes of the
    indicator that the lane's label word is k times the lane's pull term. -/
theorem pay3_apply (l : Vec Ideal S1x1x32768 .i32) (x : Vec Ideal S1x16x32768 .f32) (mu : Vec Ideal S1x32x16 .f32) (a : Vec Ideal S32x1 .f32)
    (k : Fin 32) :
    k1_pay3 (F := Ideal) l x mu a (ix2 k (0 : Fin 1))
      = a (ix2 k (0 : Fin 1)) + ∑ n : Fin 32768, Cert.Spec.oh (l (ix3 (0 : Fin 1) (0 : Fin 1) n)) k.val
          * Cert.Spec.pull (fun f => x (ix3 (0 : Fin 1) f n))
              (fun f => ∑ k' : Fin 32, mu (ix3 (0 : Fin 1) k' f) * Cert.Spec.oh (l (ix3 (0 : Fin 1) (0 : Fin 1) n)) k'.val) := by
  rw [pay3_eq, shapeCast_self, addf_apply]
  refine congrArg (a (ix2 k (0 : Fin 1)) + ·) ?_
  simp only [matmul]
  rw [Ideal.matmul_constant_zero_apply,
    ← Equiv.sum_comp (ValueIdx.contrEquiv1 dot_S32x32768_S1x32768_S32x1_1_1_0_0_n_n 32768 rfl rfl).symm]
  refine Finset.sum_congr rfl fun n _ => ?_
  have hk := ValueIdx.contrEquiv1_symm_val dot_S32x32768_S1x32768_S32x1_1_1_0_0_n_n 32768 rfl rfl n
  have el : dot_S32x32768_S1x32768_S32x1_1_1_0_0_n_n.lhsIdx (ix2 k (0 : Fin 1))
      ((ValueIdx.contrEquiv1 dot_S32x32768_S1x32768_S32x1_1_1_0_0_n_n 32768 rfl rfl).symm n) = ix2 k n := funext fun a => Fin.ext (by
    match a with
    | ⟨0, _⟩ => exact lhs_con_0 _ _
    | ⟨1, _⟩ => exact (lhs_con_1 _ _).trans hk)
  have er : dot_S32x32768_S1x32768_S32x1_1_1_0_0_n_n.rhsIdx (ix2 k (0 : Fin 1))
      ((ValueIdx.contrEquiv1 dot_S32x32768_S1x32768_S32x1_1_1_0_0_n_n 32768 rfl rfl).symm n) = ix2 (0 : Fin 1) n := funext fun a => Fin.ext (by
    match a with
    | ⟨0, _⟩ => exact rhs_con_0 _ _
    | ⟨1, _⟩ => exact (rhs_con_1 _ _).trans hk)
  rw [el, er, hot_apply, pv_apply]

end V1

/-! ## The blocks read off the arrays -/

namespace V1

/-- The printed index maps over the grid: at point t the embeddings' and labels' blocks are (t / 8, 0, t % 8), the means'
    and the output's (t / 8, 0, 0). -/
theorem idx_0 : ∀ t : Fin cfg1.N, win1_0.index t (0 : Fin 3) = t.val / 8 ∧ win1_0.index t (1 : Fin 3) = 0
    ∧ win1_0.index t (2 : Fin 3) = t.val % 8 :=
  (by decide +kernel : ∀ t : Fin grid1.N, _)
theorem idx_1 : ∀ t : Fin cfg1.N, win1_1.index t (0 : Fin 3) = t.val / 8 ∧ win1_1.index t (1 : Fin 3) = 0
    ∧ win1_1.index t (2 : Fin 3) = t.val % 8 :=
  (by decide +kernel : ∀ t : Fin grid1.N, _)
theorem idx_2 : ∀ t : Fin cfg1.N, win1_2.index t (0 : Fin 3) = t.val / 8 ∧ win1_2.index t (1 : Fin 3) = 0
    ∧ win1_2.index t (2 : Fin 3) = 0 :=
  (by decide +kernel : ∀ t : Fin grid1.N, _)
theorem idx_3 : ∀ t : Fin cfg1.N, win1_3.index t (0 : Fin 3) = t.val / 8 ∧ win1_3.index t (1 : Fin 3) = 0
    ∧ win1_3.index t (2 : Fin 3) = 0 :=
  (by decide +kernel : ∀ t : Fin grid1.N, _)

end V1

variable (V : (c : Dev nD) → (b : Ref sig .tc) → Buf (Elt Ideal) ((c : Thread nD τ).loc b))

namespace V1

/-- Lane n of the embeddings' tile at point 8·b + j is point 32768·j + n of batch b. -/
theorem xblk_apply (c : Dev nD) (t : Fin cfg1.N) (b j : Fin 8) (ht : t.val = 8 * b.val + j.val) (f : Fin 16) (n : Fin 32768) :
    xblk1 V c t (ix3 (0 : Fin 1) f n) = V c main_v2 (ix3 b f (Cert.Spec.tpt j n)) := by
  obtain ⟨e0, e1, e2⟩ := idx_0 t
  unfold xblk1 iblk1
  rw [View.read_apply]
  show V c main_v2 _ = V c main_v2 _
  refine congrArg (V c main_v2) ?_
  funext a
  apply Fin.ext
  match a with
  | ⟨0, _⟩ => show win1_0.index t (0 : Fin 3) * 1 + 1 * 0 = b.val; rw [e0, ht]; omega
  | ⟨1, _⟩ => show win1_0.index t (1 : Fin 3) * 16 + 1 * f.val = f.val; rw [e1]; omega
  | ⟨2, _⟩ => show win1_0.index t (2 : Fin 3) * 32768 + 1 * n.val = 32768 * j.val + n.val; rw [e2, ht]; omega

/-- Lane n of the labels' tile at point 8·b + j is the label word of point 32768·j + n of batch b. -/
theorem lblk_apply (c : Dev nD) (t : Fin cfg1.N) (b j : Fin 8) (ht : t.val = 8 * b.val + j.val) (n : Fin 32768) :
    lblk1 V c t (ix3 (0 : Fin 1) (0 : Fin 1) n) = V c main_v1 (ix3 b (0 : Fin 1) (Cert.Spec.tpt j n)) := by
  obtain ⟨e0, e1, e2⟩ := idx_1 t
  unfold lblk1 iblk1
  rw [View.read_apply]
  show V c main_v1 _ = V c main_v1 _
  refine congrArg (V c main_v1) ?_
  funext a
  apply Fin.ext
  match a with
  | ⟨0, _⟩ => show win1_1.index t (0 : Fin 3) * 1 + 1 * 0 = b.val; rw [e0, ht]; omega
  | ⟨1, _⟩ => show win1_1.index t (1 : Fin 3) * 1 + 1 * 0 = 0; rw [e1]
  | ⟨2, _⟩ => show win1_1.index t (2 : Fin 3) * 32768 + 1 * n.val = 32768 * j.val + n.val; rw [e2, ht]; omega

/-- The means' block at point 8·b + j is batch b's. -/
theorem mblk_apply (c : Dev nD) (t : Fin cfg1.N) (b j : Fin 8) (ht : t.val = 8 * b.val + j.val) (k' : Fin 32) (f : Fin 16) :
    mblk1 V c t (ix3 (0 : Fin 1) k' f) = V c main_v9 (ix3 b k' f) := by
  obtain ⟨e0, e1, e2⟩ := idx_2 t
  unfold mblk1 iblk1
  rw [View.read_apply]
  show V c main_v9 _ = V c main_v9 _
  refine congrArg (V c main_v9) ?_
  funext a
  apply Fin.ext
  match a with
  | ⟨0, _⟩ => show win1_2.index t (0 : Fin 3) * 1 + 1 * 0 = b.val; rw [e0, ht]; omega
  | ⟨1, _⟩ => show win1_2.index t (1 : Fin 3) * 32 + 1 * k'.val = k'.val; rw [e1]; omega
  | ⟨2, _⟩ => show win1_2.index t (2 : Fin 3) * 16 + 1 * f.val = f.val; rw [e2]; omega

end V1

/-! ## The accumulator over a batch's tiles -/

namespace V1

/-- The summand of entry (b, k) at point n of batch b. -/
def gpt (c : Dev nD) (b : Fin 8) (k : Fin 32) (n : Fin 262144) : EReal :=
  Cert.Spec.oh (V c main_v1 (ix3 b (0 : Fin 1) n)) k.val
    * Cert.Spec.pull (fun f => V c main_v2 (ix3 b f n))
        (fun f => ∑ k' : Fin 32, @HMul.hMul EReal EReal EReal instHMul (V c main_v9 (ix3 b k' f)) (Cert.Spec.oh (V c main_v1 (ix3 b (0 : Fin 1) n)) k'.val))

/-- Entry (k, 0) of what the tile at point 8·b + j stores: what the accumulator held plus the tile's sum of summands. -/
theorem tile_apply (c : Dev nD) (t : Fin cfg1.N) (b j : Fin 8) (ht : t.val = 8 * b.val + j.val) (a : Vec Ideal S32x1 .f32) (k : Fin 32) :
    k1_pay3 (F := Ideal) (lblk1 V c t) (xblk1 V c t) (mblk1 V c t) a (ix2 k (0 : Fin 1))
      = a (ix2 k (0 : Fin 1)) + Cert.Spec.tileSum (gpt V c b k) j := by
  refine (pay3_apply (lblk1 V c t) (xblk1 V c t) (mblk1 V c t) a k).trans ?_
  refine congrArg (a (ix2 k (0 : Fin 1)) + ·) ?_
  unfold Cert.Spec.tileSum gpt
  refine Finset.sum_congr rfl fun n _ => ?_
  simp only [lblk_apply V c t b j ht, xblk_apply V c t b j ht, mblk_apply V c t b j ht]

/-- The zero splat the accumulator starts from. -/
theorem pay2_apply (i : S32x1.Idx) : k1_pay2 (F := Ideal) i = 0 := by
  unfold k1_pay2
  rw [shapeCast_self]
  exact Ideal.ofBits_zero_f32

/-- The accumulator's contents depend on the point's number only. -/
theorem outs_congr (c : Dev nD) (u v : ℕ) (hu : u < cfg1.N) (hv : v < cfg1.N) (e : u = v) :
    outsAt1 V c u hu = outsAt1 V c v hv := by
  subst e; rfl

/-- After tile j of batch b the accumulator's entry (k, 0) is the partial sum of the batch's summands over tiles 0 … j. -/
theorem acc_tile (c : Dev nD) (b : Fin 8) (k : Fin 32) : ∀ (j : ℕ) (hj : j < 8) (h : 8 * b.val + j < cfg1.N),
    (outsAt1 V c (8 * b.val + j) h).2 (ix2 k (0 : Fin 1)) = Cert.Spec.accT 0 (gpt V c b k) j hj
  | 0, hj, h => by
    have e := acc1_first V c ⟨8 * b.val + 0, h⟩ (by show (8 * b.val + 0) % 8 = 0; omega)
    rw [show (outsAt1 V c (8 * b.val + 0) h).2 = _ from e, tile_apply V c _ b ⟨0, hj⟩ rfl, pay2_apply]
    rfl
  | j + 1, hj, h => by
    have e := acc1_next V c ⟨8 * b.val + (j + 1), h⟩ (by show (8 * b.val + (j + 1)) % 8 ≠ 0; omega)
    have hN : cfg1.N = 64 := N_1
    rw [show (outsAt1 V c (8 * b.val + (j + 1)) h).2 = _ from e, tile_apply V c _ b ⟨j + 1, hj⟩ rfl,
      outs_congr V c (8 * b.val + (j + 1) - 1) (8 * b.val + j) _ (by omega) (by omega),
      acc_tile c b k j (Nat.lt_of_succ_lt hj) (by omega)]
    rfl

end V1

/-! ## The output array -/

namespace V1

/-- The accumulator re-laid as the output block reads, at (u, k, 0), the accumulator at (k, 0). -/
theorem pay1_apply (acc : Vec Ideal S32x1 .f32) (y : S1x32x1.Idx) (k : Fin 32) (hk : (y 1).val = k.val) :
    k1_pay1 (F := Ideal) acc y = acc (ix2 k (0 : Fin 1)) := by
  unfold k1_pay1
  refine shapeCast_apply acc shapeCasts_S32x1_S1x32x1 y (ix2 k (0 : Fin 1)) ?_
  have h0 : (y 0).val < 1 := (y 0).isLt
  have h2 : (y 2).val < 1 := (y 2).isLt
  rw [Shape.rowMajor_val_two, Shape.rowMajor_val_three]
  show k.val * 1 + 0 = ((y 0).val * 32 + (y 1).val) * 1 + (y 2).val
  omega

/-- Entry (b, k) of the result: the sum of the summands over all of batch b's points. -/
def gsum (c : Dev nD) (b : Fin 8) (k : Fin 32) : EReal := ∑ n : Fin 262144, gpt V c b k n

/-- The output array's final contents as one function of its index. -/
def G (c : Dev nD) : S8x32x1.Idx → EReal := fun i => gsum V c (i 0) (i 1)

theorem G_of (c : Dev nD) (i : S8x32x1.Idx) (b : Fin 8) (k : Fin 32) (hb : (i 0).val = b.val) (hk : (i 1).val = k.val) :
    G V c i = gsum V c b k := by
  have eb : (i 0 : Fin 8) = b := Fin.ext hb
  have ek : (i 1 : Fin 32) = k := Fin.ext hk
  show gsum V c (i 0) (i 1) = _
  rw [eb, ek]

/-- The output window's block read off contents of the array: an entry of the block is the contents' entry under it. -/
theorem read3 (t : Fin cfg1.N) (g : S8x32x1.Idx → EReal) (y : ((cfg1.win 3).xblock (cfg1.grid.coords t)).Idx) :
    ((cfg1.win 3).blk t).view.read (Elt Ideal) g y = g (((cfg1.win 3).blk t).view.emb y) := rfl

/-- What a write-back of the output window writes, at an index of the block. -/
theorem cut3 (t : Fin cfg1.N) (X : S1x32x1.Idx → EReal) (y : ((cfg1.win 3).xblock (cfg1.grid.coords t)).Idx) :
    (cfg1.win 3).cut (grid1.coords t) X y = X ((cfg1.win 3).xinj (grid1.coords t) y) := rfl

/-- What a batch's last point writes back is its block of the final contents. -/
theorem flushed_eq (c : Dev nD) (t : Fin cfg1.N) (hf : (cfg1.win 3).flush t = true) :
    (dat1 (F := Ideal) V c).flushed 3 t = ((cfg1.win 3).blk t).view.read (Elt Ideal) (G V c) := by
  have h7 : t.val % 8 = 7 := (flush1_3 t).mp hf
  have hN : t.val < 64 := lt_of_lt_of_eq t.isLt N_1
  obtain ⟨e0, e1, e2⟩ := idx_3 t
  show (cfg1.win 3).cut (grid1.coords t) ((dat1 (F := Ideal) V c).after 3 t) = _
  rw [after1_3, out1_last V c t h7]
  funext y
  rw [read3 t (G V c) y, cut3 t _ y]
  have hy0 : (y 0).val < 1 := (y 0).isLt
  have hy1 : (y 1).val < 32 := (y 1).isLt
  have hb : t.val / 8 < 8 := by omega
  refine (pay1_apply _ _ ⟨(y 1).val, hy1⟩ rfl).trans ?_
  refine Eq.trans ?_ (G_of V c _ ⟨t.val / 8, hb⟩ ⟨(y 1).val, hy1⟩ ?_ ?_).symm
  · rw [outs_congr V c t.val (8 * (t.val / 8) + 7) t.isLt (lt_of_lt_of_eq (by omega : 8 * (t.val / 8) + 7 < 64) N_1.symm) (by omega)]
    exact (acc_tile V c ⟨t.val / 8, hb⟩ ⟨(y 1).val, hy1⟩ 7 (by decide) _).trans (Cert.Spec.accT_last _)
  · show win1_3.index t (0 : Fin 3) * 1 + 1 * (y 0).val = t.val / 8
    rw [e0]; omega
  · show win1_3.index t (1 : Fin 3) * 32 + 1 * (y 1).val = (y 1).val
    rw [e1]; omega

end V1

/-- Entry (b, k, 0) of the output array after region 1: the sum over batch b's points of the indicator that the point's
    label word is k times the point's pull term against the mean row read for it. -/
theorem varsum_val (c : Dev nD) (b : Fin 8) (k : Fin 32) :
    ((dat1 (F := Ideal) V c).arrAt 3 cfg1.N : S8x32x1.Idx → EReal) (ix3 b k (0 : Fin 1))
      = ∑ n : Fin 262144, Cert.Spec.oh (V c main_v1 (ix3 b (0 : Fin 1) n)) k.val
          * Cert.Spec.pull (fun f => V c main_v2 (ix3 b f n))
              (fun f => ∑ k' : Fin 32, @HMul.hMul EReal EReal EReal instHMul (V c main_v9 (ix3 b k' f)) (Cert.Spec.oh (V c main_v1 (ix3 b (0 : Fin 1) n)) k'.val)) := by
  have hN : cfg1.N = 64 := N_1
  have hb : 8 * b.val + 7 < cfg1.N := by rw [hN]; omega
  obtain ⟨e0, e1, e2⟩ := V1.idx_3 ⟨8 * b.val + 7, hb⟩
  refine ((dat1 (F := Ideal) V c).arrAt_apply_of_mem 3 (V1.G V c) (V1.flushed_eq V c) cfg1.N ⟨8 * b.val + 7, hb⟩ (ix3 b k (0 : Fin 1)) hb
    ((flush1_3 _).mpr (by show (8 * b.val + 7) % 8 = 7; omega)) ?_).trans ?_
  · show ix3 b k (0 : Fin 1) ∈ ((View.whole main_v10).slice (win1_3.rect ⟨8 * b.val + 7, hb⟩)).set
    rw [View.set_slice_whole, Rect.mem_set_unit]
    intro a
    match a with
    | ⟨0, _⟩ =>
      show win1_3.index ⟨8 * b.val + 7, hb⟩ (0 : Fin 3) * 1 ≤ b.val ∧ b.val < win1_3.index ⟨8 * b.val + 7, hb⟩ (0 : Fin 3) * 1 + 1
      rw [e0]; show (8 * b.val + 7) / 8 * 1 ≤ b.val ∧ b.val < (8 * b.val + 7) / 8 * 1 + 1; omega
    | ⟨1, _⟩ =>
      show win1_3.index ⟨8 * b.val + 7, hb⟩ (1 : Fin 3) * 32 ≤ k.val ∧ k.val < win1_3.index ⟨8 * b.val + 7, hb⟩ (1 : Fin 3) * 32 + 32
      rw [e1]; omega
    | ⟨2, _⟩ =>
      show win1_3.index ⟨8 * b.val + 7, hb⟩ (2 : Fin 3) * 1 ≤ 0 ∧ 0 < win1_3.index ⟨8 * b.val + 7, hb⟩ (2 : Fin 3) * 1 + 1
      rw [e2]; omega
  · refine (V1.G_of V c _ b k rfl rfl).trans ?_
    unfold V1.gsum V1.gpt
    rfl

end Cert.KernelIdeal.Hand

end
-- ==== Proof.KI.KHost1.lean ====
/-
  The kernel program's per-cluster pull sums over the floored counts, at the ideal instance: region 1's output array,
  re-laid [8, 32], divided by the counts floored at one.
-/
import proofs.«422320_j2723009265750_3_alg».proof.Proof.KI.KHost0
import proofs.«422320_j2723009265750_3_alg».proof.Proof.KI.Val1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- Region 1's output array after the region: the per-cluster sums of the pull terms. -/
theorem kVarsum_apply (h : Cert.Spec.InRange (Lk m c)) (b : Fin 8) (k : Fin 32) :
    (Gen.V6 m (outs m) c main_v10 : S8x32x1.Idx → EReal) (ix3 b k (0 : Fin 1)) = Cert.Spec.varsum (Ek m c) (Lk m c) b k := by
  have e0 : (Gen.V6 m (outs m) c main_v10 : S8x32x1.Idx → EReal)
      = ((dat1 (F := Ideal) (Ve1 m) c).arrAt 3 cfg1.N : S8x32x1.Idx → EReal) :=
    (V6_at m (outs m) c).trans ((outs_6 m main_v10 c).trans (W6_arr m c 3))
  have e1 : (Gen.V6 m (outs m) c main_v10 : S8x32x1.Idx → EReal) (ix3 b k (0 : Fin 1))
      = ((dat1 (F := Ideal) (Ve1 m) c).arrAt 3 cfg1.N : S8x32x1.Idx → EReal) (ix3 b k (0 : Fin 1)) := congrFun e0 _
  refine Eq.trans (α := EReal) e1 (Eq.trans (α := EReal) (varsum_val (Ve1 m) c b k) ?_)
  unfold Cert.Spec.varsum
  refine Finset.sum_congr rfl fun n _ => ?_
  rw [lab1 m c h b n]
  have hx : (fun f : Fin 16 => (Ve1 m c main_v2 : S8x16x262144.Idx → EReal) (ix3 b f n)) = Ek m c b n :=
    funext fun f => emb1 m c b f n
  have hμ : (fun f : Fin 16 => ∑ k' : Fin 32, @HMul.hMul EReal EReal EReal instHMul ((Ve1 m c main_v9 : S8x32x16.Idx → EReal) (ix3 b k' f))
        (Cert.Spec.oh (Lk m c b n) k'.val)) = Cert.Spec.meanAt (Ek m c) (Lk m c) b n :=
    funext fun f => by
      unfold Cert.Spec.meanAt
      exact Finset.sum_congr rfl fun k' _ => by rw [means1 m c h b k' f]
  exact congrArg₂ (fun x μ => Cert.Spec.oh (Lk m c b n) k.val * Cert.Spec.pull x μ) hx hμ

/-- Re-laid [8, 32] and divided by the floored counts. -/
theorem kVpc_apply (h : Cert.Spec.InRange (Lk m c)) (b : Fin 8) (k : Fin 32) :
    (Host.divf (F := Ideal) (φ := .f32) (shapeCast S8x32 (Gen.V6 m (outs m) c main_v10 : FVec Ideal S8x32x1 .f32) Facts₀.shapeCasts_S8x32x1_S8x32)
        (Gen.V6 m (outs m) c main_v6 : FVec Ideal S8x32 .f32) : S8x32.Idx → EReal) (ix2 b k)
      = Cert.Spec.vpc (Ek m c) (Lk m c) b k := by
  have e1 : shapeCast S8x32 (Gen.V6 m (outs m) c main_v10 : FVec Ideal S8x32x1 .f32) Facts₀.shapeCasts_S8x32x1_S8x32 (ix2 b k)
      = (Gen.V6 m (outs m) c main_v10 : S8x32x1.Idx → EReal) (ix3 b k (0 : Fin 1)) :=
    shapeCast_apply (Gen.V6 m (outs m) c main_v10 : FVec Ideal S8x32x1 .f32) Facts₀.shapeCasts_S8x32x1_S8x32 (ix2 b k) (ix3 b k (0 : Fin 1))
      (by show (S8x32x1.rowMajor (ix3 b k (0 : Fin 1))).val = (S8x32.rowMajor (ix2 b k)).val
          rewrite [Shape.rowMajor_val_three, Shape.rowMajor_val_two]
          show (b.val * 32 + k.val) * 1 + 0 = b.val * 32 + k.val
          omega)
  show Ideal.div (shapeCast S8x32 (Gen.V6 m (outs m) c main_v10 : FVec Ideal S8x32x1 .f32) Facts₀.shapeCasts_S8x32x1_S8x32 (ix2 b k))
      ((Gen.V6 m (outs m) c main_v6 : S8x32.Idx → EReal) (ix2 b k)) = _
  rw [e1, kVarsum_apply m c h b k, kSafe6_apply m c h b k]
  rfl

end Cert.KernelIdeal.Hand

end
-- ==== Proof.TailDef.lean ====
import proofs.«422320_j2723009265750_3_alg».proof.Proof.Gen.ReferenceIdeal.Read

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The host operations both programs end with, as one function of the cluster means M : [8, 32, 16] and the per-cluster
    pull sums over the floored counts vpc : [8, 32]. -/
def tail (M : FVec F S8x32x16 .f32) (vpc : FVec F S8x32 .f32) : FVec F S_ .f32 :=
  addf (addf (mulf (constant S_ .f32 0x3F800000#32) (Host.divf (Host.reduceAdd (Host.divf (Host.reduceAdd vpc (constant S_ .f32 0x00000000#32) reducesTo_S8x32_S8_d1 h_S_) (broadcastInDim S8 ![] bcast_S_S8 (constant S_ .f32 0x42000000#32))) (constant S_ .f32 0x00000000#32) reducesTo_S8_S_d0 h_S_) (constant S_ .f32 0x41000000#32))) (mulf (constant S_ .f32 0x3F800000#32) (Host.divf (Host.reduceAdd (Host.divf (Host.reduceAdd (select (broadcastInDim S8x32x32 ![1, 2] bcast_S32x32_S8x32x32_1_2 (cmpi .eq (addi (iotaInDim S32x32 32 0) (broadcastInDim S32x32 ![] bcast_S_S32x32 (constantI S_ 32 0#32))) (iotaInDim S32x32 32 1))) (broadcastInDim S8x32x32 ![] bcast_S_S8x32x32 (id (constant S_ .f32 0x00000000#32))) (mulf (maximumf (subf (broadcastInDim S8x32x32 ![] bcast_S_S8x32x32 (constant S_ .f32 0x40400000#32)) (Host.sqrt (select (broadcastInDim S8x32x32 ![1, 2] bcast_S32x32_S8x32x32_1_2 (cmpi .eq (addi (iotaInDim S32x32 32 0) (broadcastInDim S32x32 ![] bcast_S_S32x32 (constantI S_ 32 0#32))) (iotaInDim S32x32 32 1))) (broadcastInDim S8x32x32 ![] bcast_S_S8x32x32 (id (constant S_ .f32 0x3F800000#32))) (Host.reduceAdd (mulf (subf (broadcastInDim S8x32x32x16 ![0, 1, 2, 3] bcast_S8x32x1x16_S8x32x32x16_0_1_2_3 (broadcastInDim S8x32x1x16 ![0, 1, 3] bcast_S8x32x16_S8x32x1x16_0_1_3 M)) (broadcastInDim S8x32x32x16 ![0, 1, 2, 3] bcast_S8x1x32x16_S8x32x32x16_0_1_2_3 (broadcastInDim S8x1x32x16 ![0, 2, 3] bcast_S8x32x16_S8x1x32x16_0_2_3 M))) (subf (broadcastInDim S8x32x32x16 ![0, 1, 2, 3] bcast_S8x32x1x16_S8x32x32x16_0_1_2_3 (broadcastInDim S8x32x1x16 ![0, 1, 3] bcast_S8x32x16_S8x32x1x16_0_1_3 M)) (broadcastInDim S8x32x32x16 ![0, 1, 2, 3] bcast_S8x1x32x16_S8x32x32x16_0_1_2_3 (broadcastInDim S8x1x32x16 ![0, 2, 3] bcast_S8x32x16_S8x1x32x16_0_2_3 M)))) (constant S_ .f32 0x00000000#32) reducesTo_S8x32x32x16_S8x32x32_d3 h_S_)))) (broadcastInDim S8x32x32 ![] bcast_S_S8x32x32 (constant S_ .f32 0x00000000#32))) (maximumf (subf (broadcastInDim S8x32x32 ![] bcast_S_S8x32x32 (constant S_ .f32 0x40400000#32)) (Host.sqrt (select (broadcastInDim S8x32x32 ![1, 2] bcast_S32x32_S8x32x32_1_2 (cmpi .eq (addi (iotaInDim S32x32 32 0) (broadcastInDim S32x32 ![] bcast_S_S32x32 (constantI S_ 32 0#32))) (iotaInDim S32x32 32 1))) (broadcastInDim S8x32x32 ![] bcast_S_S8x32x32 (id (constant S_ .f32 0x3F800000#32))) (Host.reduceAdd (mulf (subf (broadcastInDim S8x32x32x16 ![0, 1, 2, 3] bcast_S8x32x1x16_S8x32x32x16_0_1_2_3 (broadcastInDim S8x32x1x16 ![0, 1, 3] bcast_S8x32x16_S8x32x1x16_0_1_3 M)) (broadcastInDim S8x32x32x16 ![0, 1, 2, 3] bcast_S8x1x32x16_S8x32x32x16_0_1_2_3 (broadcastInDim S8x1x32x16 ![0, 2, 3] bcast_S8x32x16_S8x1x32x16_0_2_3 M))) (subf (broadcastInDim S8x32x32x16 ![0, 1, 2, 3] bcast_S8x32x1x16_S8x32x32x16_0_1_2_3 (broadcastInDim S8x32x1x16 ![0, 1, 3] bcast_S8x32x16_S8x32x1x16_0_1_3 M)) (broadcastInDim S8x32x32x16 ![0, 1, 2, 3] bcast_S8x1x32x16_S8x32x32x16_0_1_2_3 (broadcastInDim S8x1x32x16 ![0, 2, 3] bcast_S8x32x16_S8x1x32x16_0_2_3 M)))) (constant S_ .f32 0x00000000#32) reducesTo_S8x32x32x16_S8x32x32_d3 h_S_)))) (broadcastInDim S8x32x32 ![] bcast_S_S8x32x32 (constant S_ .f32 0x00000000#32))))) (constant S_ .f32 0x00000000#32) reducesTo_S8x32x32_S8_d1_2 h_S_) (broadcastInDim S8 ![] bcast_S_S8 (constant S_ .f32 0x44F80000#32))) (constant S_ .f32 0x00000000#32) reducesTo_S8_S_d0 h_S_) (constant S_ .f32 0x41000000#32)))) (mulf (constant S_ .f32 0x3A83126F#32) (Host.divf (Host.reduceAdd (Host.divf (Host.reduceAdd (Host.sqrt (maximumf (Host.reduceAdd (mulf M M) (constant S_ .f32 0x00000000#32) reducesTo_S8x32x16_S8x32_d2 h_S_) (broadcastInDim S8x32 ![] bcast_S_S8x32 (constant S_ .f32 0x2B8CBCCC#32)))) (constant S_ .f32 0x00000000#32) reducesTo_S8x32_S8_d1 h_S_) (broadcastInDim S8 ![] bcast_S_S8 (constant S_ .f32 0x42000000#32))) (constant S_ .f32 0x00000000#32) reducesTo_S8_S_d0 h_S_) (constant S_ .f32 0x41000000#32)))

end Cert.ReferenceIdeal.RefValue

end
-- ==== Proof.KI.KTail.lean ====
/-
  The kernel program's result is the shared tail of the means and of the per-cluster pull sums over the floored counts:
  the host stretches after region 1, read at the result buffer.
-/
import proofs.«422320_j2723009265750_3_alg».proof.Proof.Gen.KernelIdeal.Regions
import proofs.«422320_j2723009265750_3_alg».proof.Proof.TailDef
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

set_option maxHeartbeats 8000000 in
/-- From any contents after region 1, the five host stretches that follow leave in the result buffer the shared tail of
    the means buffer and of the pull sums, re-laid [8, 32], over the floored counts. -/
theorem tail_of_after (W : Valuation τ sig (Elt F)) :
    StableHlo.after hostOps2_4 (StableHlo.after hostOps2_3 (StableHlo.after hostOps2_2 (StableHlo.after hostOps2_1
        (StableHlo.after hostOps2 W)))) (Proc.devRef .tc main_v57)
      = Cert.ReferenceIdeal.RefValue.tail (F := F) (W (Proc.devRef .tc main_v9))
          (Host.divf (shapeCast S8x32 (W (Proc.devRef .tc main_v10)) Facts₀.shapeCasts_S8x32x1_S8x32) (W (Proc.devRef .tc main_v6))) := by
  after_results_simp <;> rfl

end Cert.KernelIdeal.Hand

end
-- ==== Proof.LibScatterAddRows.lean ====
/-
  An accumulating float scatter of whole rows, read at an entry, at the ideal instance.

  The operand is a table of R rows of C entries; update p of P is a row of C entries, and the row it is added to is read,
  signed, from entry (p, 0) of a one-column index array. At the ideal instance the scatter is the exact sum: entry (r, c)
  of the result is the operand's entry plus the sum, over the updates p whose index is r, of entry (p, c) of update p;
  an update whose index is outside [0, R) lands nowhere and adds nothing.
-/
import Idealize.ShloMosaic.PureOps.Ideal
import Idealize.ShloMosaic.PureOps.Dims
import Idealize.ShloMosaic.Lib.ValueIdx

noncomputable section

namespace Idealize.ShloMosaic

open ValueIdx

/-- The dimension numbers of a scatter of whole rows: the updates' axis 1 is the window axis, the operand's axis 0 is
    inserted and is the one the start index names, and the index array's axis 1 (of size one) holds the index vector. -/
abbrev ScatterDims.rows {R P C : Nat}
    (wf : ScatterDims.WF (⟨2, ![R, C]⟩ : Shape) ⟨2, ![P, 1]⟩ ⟨2, ![P, C]⟩ [1] [0] [0] 1) :
    ScatterDims (⟨2, ![R, C]⟩ : Shape) ⟨2, ![P, 1]⟩ ⟨2, ![P, C]⟩ :=
  ⟨[1], [0], [0], 1, wf⟩

section RowsAxes
variable {R P C w : Nat}
    (wf : ScatterDims.WF (⟨2, ![R, C]⟩ : Shape) ⟨2, ![P, 1]⟩ ⟨2, ![P, C]⟩ [1] [0] [0] 1)
    (idx : IVec (⟨2, ![P, 1]⟩ : Shape) w) (p : Fin P) (c' : Fin C)

/-- The operand's axes that are not inserted: axis 1 alone. -/
theorem ScatterDims.rows_sKept : (ScatterDims.rows wf).sKept = [1] := by
  show (List.finRange 2).filter (fun a => a ∉ [(0 : Fin 2)]) = [(1 : Fin 2)]
  decide

/-- On operand axis 1, which the start index does not name, the window starts at 0. -/
theorem ScatterDims.rows_start1 : (ScatterDims.rows wf).start (ix2 p c') idx 1 = 0 := by
  unfold ScatterDims.start
  rw [dif_neg (show (1 : Fin 2) ∉ [(0 : Fin 2)] by decide)]

/-- Operand axis 0 is inserted: the window coordinate there is 0. -/
theorem ScatterDims.rows_window0 : (ScatterDims.rows wf).window (ix2 p c') 0 = 0 := by
  unfold ScatterDims.window
  rw [dif_neg (by rw [ScatterDims.rows_sKept]; show (0 : Fin 2) ∉ [(1 : Fin 2)]; decide)]

/-- On operand axis 1 the window coordinate is the update's column. -/
theorem ScatterDims.rows_window1 : (ScatterDims.rows wf).window (ix2 p c') 1 = c'.val := by
  unfold ScatterDims.window
  rw [dif_pos (by rw [ScatterDims.rows_sKept]; show (1 : Fin 2) ∈ [(1 : Fin 2)]; decide)]
  rfl

/-- Update (p, c') reads its start index at entry (p, 0) of the index array. -/
theorem ScatterDims.rows_siIdx (c : Fin (ScatterDims.rows wf).scatterDimsToOperandDims.length) :
    (ScatterDims.rows wf).siIdx (ix2 p c') c = ix2 p (0 : Fin 1) := by
  funext b
  match b with
  | ⟨0, _⟩ => rfl
  | ⟨1, _⟩ => exact @Subsingleton.elim (Fin 1) _ _ _

/-- On operand axis 0 the window starts at the row index, read signed. -/
theorem ScatterDims.rows_start0 :
    (ScatterDims.rows wf).start (ix2 p c') idx 0 = (idx (ix2 p (0 : Fin 1))).toInt := by
  unfold ScatterDims.start
  rw [dif_pos (show (0 : Fin 2) ∈ [(0 : Fin 2)] by decide), ScatterDims.rows_siIdx]

end RowsAxes

/-- A rank-2 index is (a, b) exactly when its coordinates are a and b. -/
theorem ValueIdx.eq_ix2_iff {n0 n1 : Nat} (f : (⟨2, ![n0, n1]⟩ : Shape).Idx) (a : Fin n0) (b : Fin n1) :
    f = ix2 a b ↔ f 0 = a ∧ f 1 = b := by
  constructor
  · rintro rfl; exact ⟨rfl, rfl⟩
  · rintro ⟨rfl, rfl⟩; exact eq_ix2 f

/-- Update (p, c') lands on entry (r, c) exactly when its row index, read signed, is r and c' = c. -/
theorem ScatterDims.rows_resultIdx?_eq_some_iff {R P C w : Nat}
    (wf : ScatterDims.WF (⟨2, ![R, C]⟩ : Shape) ⟨2, ![P, 1]⟩ ⟨2, ![P, C]⟩ [1] [0] [0] 1)
    (idx : IVec (⟨2, ![P, 1]⟩ : Shape) w) (p : Fin P) (c' : Fin C) (r : Fin R) (c : Fin C) :
    (ScatterDims.rows wf).resultIdx? (ix2 p c') idx = some (ix2 r c)
      ↔ (idx (ix2 p (0 : Fin 1))).toInt = (r.val : Int) ∧ c' = c := by
  have hs0 := ScatterDims.rows_start0 wf idx p c'
  have hs1 := ScatterDims.rows_start1 wf idx p c'
  have hw0 := ScatterDims.rows_window0 wf p c'
  have hw1 := ScatterDims.rows_window1 wf p c'
  have hr := r.isLt
  have hc' := c'.isLt
  unfold ScatterDims.resultIdx?
  by_cases h : ∀ a, 0 ≤ (ScatterDims.rows wf).start (ix2 p c') idx a + (ScatterDims.rows wf).window (ix2 p c') a ∧
      (ScatterDims.rows wf).start (ix2 p c') idx a + (ScatterDims.rows wf).window (ix2 p c') a
        < (⟨2, ![R, C]⟩ : Shape).size a
  · rw [dif_pos h, Option.some.injEq, ValueIdx.eq_ix2_iff]
    have h0 := h 0
    rw [hs0, hw0] at h0
    constructor
    · rintro ⟨e0, e1⟩
      have e0' : ((ScatterDims.rows wf).start (ix2 p c') idx 0 + (ScatterDims.rows wf).window (ix2 p c') 0).toNat = r.val :=
        congrArg Fin.val e0
      have e1' : ((ScatterDims.rows wf).start (ix2 p c') idx 1 + (ScatterDims.rows wf).window (ix2 p c') 1).toNat = c.val :=
        congrArg Fin.val e1
      rw [hs0, hw0] at e0'
      rw [hs1, hw1] at e1'
      exact ⟨by omega, Fin.ext (by omega)⟩
    · rintro ⟨e, rfl⟩
      constructor
      · apply Fin.ext
        show ((ScatterDims.rows wf).start (ix2 p c') idx 0 + (ScatterDims.rows wf).window (ix2 p c') 0).toNat = r.val
        rw [hs0, hw0]; omega
      · apply Fin.ext
        show ((ScatterDims.rows wf).start (ix2 p c') idx 1 + (ScatterDims.rows wf).window (ix2 p c') 1).toNat = c'.val
        rw [hs1, hw1]; omega
  · rw [dif_neg h]
    constructor
    · intro e; exact absurd e (by simp)
    · rintro ⟨e, rfl⟩
      exfalso; apply h
      intro a
      match a with
      | ⟨0, _⟩ =>
        show 0 ≤ (ScatterDims.rows wf).start (ix2 p c') idx 0 + (ScatterDims.rows wf).window (ix2 p c') 0 ∧
          (ScatterDims.rows wf).start (ix2 p c') idx 0 + (ScatterDims.rows wf).window (ix2 p c') 0 < (R : Int)
        rw [hs0, hw0]; omega
      | ⟨1, _⟩ =>
        show 0 ≤ (ScatterDims.rows wf).start (ix2 p c') idx 1 + (ScatterDims.rows wf).window (ix2 p c') 1 ∧
          (ScatterDims.rows wf).start (ix2 p c') idx 1 + (ScatterDims.rows wf).window (ix2 p c') 1 < (C : Int)
        rw [hs1, hw1]; omega

/-- The accumulating scatter of rows at the ideal instance, read at entry (r, c): the operand's entry plus the sum over
    the updates whose row index is r of their entry in column c. -/
theorem Ideal.hostScatterAdd_rows_apply {R P C w : Nat}
    (wf : ScatterDims.WF (⟨2, ![R, C]⟩ : Shape) ⟨2, ![P, 1]⟩ ⟨2, ![P, C]⟩ [1] [0] [0] 1)
    (x : (⟨2, ![R, C]⟩ : Shape).Idx → EReal) (idx : IVec (⟨2, ![P, 1]⟩ : Shape) w)
    (upd : (⟨2, ![P, C]⟩ : Shape).Idx → EReal) (r : Fin R) (c : Fin C) :
    Ideal.hostScatterAdd (ScatterDims.rows wf) x idx upd (ix2 r c)
      = x (ix2 r c) + ∑ p : Fin P, if (idx (ix2 p (0 : Fin 1))).toInt = (r.val : Int) then upd (ix2 p c) else 0 := by
  unfold Ideal.hostScatterAdd
  congr 1
  rw [Finset.sum_filter, ValueIdx.sum_idx2]
  apply Finset.sum_congr rfl
  intro p _
  simp only [ScatterDims.rows_resultIdx?_eq_some_iff]
  by_cases ht : (idx (ix2 p (0 : Fin 1))).toInt = (r.val : Int)
  · simp only [ht, true_and, if_true]
    rw [Finset.sum_ite_eq']
    simp
  · simp [ht]

end Idealize.ShloMosaic

end
-- ==== Proof.LibScatterAddScalars.lean ====
/-
  An accumulating float scatter of scalars, read at an entry, at the ideal instance.

  The operand is a vector of R entries; update p of P is one scalar, and the entry it is added to is read, signed, from
  entry (p, 0) of a one-column index array. At the ideal instance the scatter is the exact sum: entry r of the result is
  the operand's entry plus the sum, over the updates p whose index is r, of update p; an update whose index is outside
  [0, R) lands nowhere and adds nothing.
-/
import Idealize.ShloMosaic.PureOps.Ideal
import Idealize.ShloMosaic.PureOps.Dims
import Idealize.ShloMosaic.Lib.ValueIdx

noncomputable section

namespace Idealize.ShloMosaic

open ValueIdx

/-- The dimension numbers of a scatter of scalars: the updates have no window axis, the operand's one axis is inserted
    and is the one the start index names, and the index array's axis 1 (of size one) holds the index vector. -/
abbrev ScatterDims.scalars {R P : Nat}
    (wf : ScatterDims.WF (⟨1, ![R]⟩ : Shape) ⟨2, ![P, 1]⟩ ⟨1, ![P]⟩ [] [0] [0] 1) :
    ScatterDims (⟨1, ![R]⟩ : Shape) ⟨2, ![P, 1]⟩ ⟨1, ![P]⟩ :=
  ⟨[], [0], [0], 1, wf⟩

section ScalarsAxes
variable {R P w : Nat}
    (wf : ScatterDims.WF (⟨1, ![R]⟩ : Shape) ⟨2, ![P, 1]⟩ ⟨1, ![P]⟩ [] [0] [0] 1)
    (idx : IVec (⟨2, ![P, 1]⟩ : Shape) w) (p : Fin P)

/-- The operand has no axis that is not inserted. -/
theorem ScatterDims.scalars_sKept : (ScatterDims.scalars wf).sKept = [] := by
  show (List.finRange 1).filter (fun a => a ∉ [(0 : Fin 1)]) = []
  decide

/-- Operand axis 0 is inserted: the window coordinate there is 0. -/
theorem ScatterDims.scalars_window0 : (ScatterDims.scalars wf).window (ix1 p) 0 = 0 := by
  unfold ScatterDims.window
  rw [dif_neg (by rw [ScatterDims.scalars_sKept]; exact List.not_mem_nil)]

/-- Update p reads its start index at entry (p, 0) of the index array. -/
theorem ScatterDims.scalars_siIdx (c : Fin (ScatterDims.scalars wf).scatterDimsToOperandDims.length) :
    (ScatterDims.scalars wf).siIdx (ix1 p) c = ix2 p (0 : Fin 1) := by
  funext b
  match b with
  | ⟨0, _⟩ => rfl
  | ⟨1, _⟩ => exact @Subsingleton.elim (Fin 1) _ _ _

/-- On operand axis 0 the window starts at the index, read signed. -/
theorem ScatterDims.scalars_start0 :
    (ScatterDims.scalars wf).start (ix1 p) idx 0 = (idx (ix2 p (0 : Fin 1))).toInt := by
  unfold ScatterDims.start
  rw [dif_pos (show (0 : Fin 1) ∈ [(0 : Fin 1)] by decide), ScatterDims.scalars_siIdx]

end ScalarsAxes

/-- A rank-1 index set is its one coordinate range … -/
def ValueIdx.idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem ValueIdx.sum_idx1 {M : Type*} [AddCommMonoid M] {n : Nat} (f : (⟨1, ![n]⟩ : Shape).Idx → M) :
    ∑ i, f i = ∑ a : Fin n, f (ix1 a) := by
  rw [← Equiv.sum_comp (ValueIdx.idxEquiv1 (n := n)).symm f]
  rfl

/-- A rank-1 index is (a) exactly when its coordinate is a. -/
theorem ValueIdx.eq_ix1_iff {n : Nat} (f : (⟨1, ![n]⟩ : Shape).Idx) (a : Fin n) : f = ix1 a ↔ f 0 = a := by
  constructor
  · rintro rfl; rfl
  · rintro rfl; exact eq_ix1 f

/-- Update p lands on entry r exactly when its index, read signed, is r. -/
theorem ScatterDims.scalars_resultIdx?_eq_some_iff {R P w : Nat}
    (wf : ScatterDims.WF (⟨1, ![R]⟩ : Shape) ⟨2, ![P, 1]⟩ ⟨1, ![P]⟩ [] [0] [0] 1)
    (idx : IVec (⟨2, ![P, 1]⟩ : Shape) w) (p : Fin P) (r : Fin R) :
    (ScatterDims.scalars wf).resultIdx? (ix1 p) idx = some (ix1 r)
      ↔ (idx (ix2 p (0 : Fin 1))).toInt = (r.val : Int) := by
  have hs0 := ScatterDims.scalars_start0 wf idx p
  have hw0 := ScatterDims.scalars_window0 wf p
  have hr := r.isLt
  unfold ScatterDims.resultIdx?
  by_cases h : ∀ a, 0 ≤ (ScatterDims.scalars wf).start (ix1 p) idx a + (ScatterDims.scalars wf).window (ix1 p) a ∧
      (ScatterDims.scalars wf).start (ix1 p) idx a + (ScatterDims.scalars wf).window (ix1 p) a
        < (⟨1, ![R]⟩ : Shape).size a
  · rw [dif_pos h, Option.some.injEq, ValueIdx.eq_ix1_iff]
    have h0 := h 0
    rw [hs0, hw0] at h0
    constructor
    · intro e0
      have e0' : ((ScatterDims.scalars wf).start (ix1 p) idx 0 + (ScatterDims.scalars wf).window (ix1 p) 0).toNat = r.val :=
        congrArg Fin.val e0
      rw [hs0, hw0] at e0'
      omega
    · intro e
      apply Fin.ext
      show ((ScatterDims.scalars wf).start (ix1 p) idx 0 + (ScatterDims.scalars wf).window (ix1 p) 0).toNat = r.val
      rw [hs0, hw0]; omega
  · rw [dif_neg h]
    constructor
    · intro e; exact absurd e (by simp)
    · intro e
      exfalso; apply h
      intro a
      match a with
      | ⟨0, _⟩ =>
        show 0 ≤ (ScatterDims.scalars wf).start (ix1 p) idx 0 + (ScatterDims.scalars wf).window (ix1 p) 0 ∧
          (ScatterDims.scalars wf).start (ix1 p) idx 0 + (ScatterDims.scalars wf).window (ix1 p) 0 < (R : Int)
        rw [hs0, hw0]; omega

/-- The accumulating scatter of scalars at the ideal instance, read at entry r: the operand's entry plus the sum over
    the updates whose index is r. -/
theorem Ideal.hostScatterAdd_scalars_apply {R P w : Nat}
    (wf : ScatterDims.WF (⟨1, ![R]⟩ : Shape) ⟨2, ![P, 1]⟩ ⟨1, ![P]⟩ [] [0] [0] 1)
    (x : (⟨1, ![R]⟩ : Shape).Idx → EReal) (idx : IVec (⟨2, ![P, 1]⟩ : Shape) w)
    (upd : (⟨1, ![P]⟩ : Shape).Idx → EReal) (r : Fin R) :
    Ideal.hostScatterAdd (ScatterDims.scalars wf) x idx upd (ix1 r)
      = x (ix1 r) + ∑ p : Fin P, if (idx (ix2 p (0 : Fin 1))).toInt = (r.val : Int) then upd (ix1 p) else 0 := by
  unfold Ideal.hostScatterAdd
  congr 1
  rw [Finset.sum_filter, ValueIdx.sum_idx1]
  apply Finset.sum_congr rfl
  intro p _
  simp only [ScatterDims.scalars_resultIdx?_eq_some_iff]

end Idealize.ShloMosaic

end
-- ==== Proof.LibTakeRows.lean ====
/-
  Rows of a table taken by a column of row numbers, read at an entry.

  jnp's `table[idx]` for a rank-2 `table : [R, C]` and an integer vector `idx : [n]` lowers to a
  `stablehlo.gather` over the indices as a column `[n, 1]`: offset_dims `[1]`, collapsed_slice_dims `[0]`,
  start_index_map `[0]`, index_vector_dim 1, slice_sizes `[1, C]`. Result entry (e, k) is the table's entry
  (row, k), where row is the start index `idx[e, 0]` read as a signed integer and clamped into `[0, R − 1]`,
  as StableHLO's gather clamps every start index.
-/
import Idealize.ShloMosaic.Lib.ValueIdx

noncomputable section

namespace Idealize.ShloMosaic.TakeRows

open Idealize.ShloMosaic Idealize.ShloMosaic.ValueIdx

variable {α : Type}

/-- Those dimension numbers for a table `[R, C]`, start indices `[n, 1]` and a result `[n, C]`; their conditions
    `wf` are decided on a program's literal shapes. -/
abbrev rowDims (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER READ AT (e, k): the table at row `idx[e, 0]`, read signed and clamped into `[0, R − 1]`, column k. -/
theorem gather_rows_apply {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowDims R C n wf) x idx (ix2 e k)
      = x (ix2 ⟨min (idx (ix2 e ⟨0, Nat.one_pos⟩)).toInt.toNat (R - 1), by omega⟩ k) := by
  unfold Host.gather
  congr 1
  funext a
  refine Fin.ext ?_
  show (rowDims R C n wf).start (ix2 e k) idx a + (rowDims R C n wf).batchCoord (ix2 e k) a
    + (rowDims R C n wf).offCoord (ix2 e k) a = _
  have h0 : (rowDims R C n wf).start (ix2 e k) idx (0 : Fin 2) + (rowDims R C n wf).batchCoord (ix2 e k) (0 : Fin 2)
      + (rowDims R C n wf).offCoord (ix2 e k) (0 : Fin 2) = min (idx (ix2 e ⟨0, Nat.one_pos⟩)).toInt.toNat (R - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C n wf).startIndexMap from List.mem_singleton.mpr rfl)]
    have hsi : (rowDims R C n wf).siIdx (ix2 e k) ⟨List.idxOf (0 : Fin 2) (rowDims R C n wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims R C n wf).start (ix2 e k) idx (1 : Fin 2) + (rowDims R C n wf).batchCoord (ix2 e k) (1 : Fin 2)
      + (rowDims R C n wf).offCoord (ix2 e k) (1 : Fin 2) = k.val := by
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl
  match a with
  | ⟨0, _⟩ => exact h0
  | ⟨1, _⟩ => exact h1

end Idealize.ShloMosaic.TakeRows

end
-- ==== Proof.RefVal.lean ====
/-
  The reference at the ideal instance, entry by entry. Its per-cluster sums, counts and per-cluster pull sums are
  accumulating scatters over the 2097152 flattened points, the row a point lands on being 32·batch + label; with every
  label in range a point lands on its own batch's cluster row, so an entry is the sum over the batch's points of the
  indicator of the cluster times the point's term. The row gathered for a point is its cluster's mean row.
-/
import proofs.«422320_j2723009265750_3_alg».proof.Proof.Gen.ReferenceIdeal.Read
import proofs.«422320_j2723009265750_3_alg».proof.Proof.Spec
import proofs.«422320_j2723009265750_3_alg».proof.Proof.LibScatterAddRows
import proofs.«422320_j2723009265750_3_alg».proof.Proof.LibScatterAddScalars
import proofs.«422320_j2723009265750_3_alg».proof.Proof.LibTakeRows
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

variable (x0 : (⟨S8x262144x16, .f32⟩ : BufTy).Contents (Elt Ideal)) (x1 : (⟨S8x262144, .i32⟩ : BufTy).Contents (Elt Ideal))

/-- The arguments read at explicit coordinates. -/
abbrev Ef : Fin 8 → Fin 262144 → Fin 16 → EReal := fun b n f => x0 (ix3 b n f)
abbrev Lf : Fin 8 → Fin 262144 → BitVec 32 := fun b n => x1 (ix2 b n)

/-! ## The flattened points -/

/-- The flat number of point n of batch b. -/
def pt (b : Fin 8) (n : Fin 262144) : Fin 2097152 :=
  ⟨262144 * b.val + n.val, by have := b.isLt; have := n.isLt; omega⟩

/-- The row of the [256, ·] tables that belongs to cluster k of batch b. -/
def row (b : Fin 8) (k : Fin 32) : Fin 256 :=
  ⟨32 * b.val + k.val, by have := b.isLt; have := k.isLt; omega⟩

/-- The flattened points are the points of the eight batches. -/
theorem sum_pts (g : Fin 2097152 → EReal) : ∑ p : Fin 2097152, g p = ∑ b : Fin 8, ∑ n : Fin 262144, g (pt b n) := by
  rw [← Fintype.sum_prod_type' (fun (b : Fin 8) (n : Fin 262144) => g (pt b n))]
  symm
  apply Fintype.sum_equiv (finProdFinEquiv.trans (finCongr (by norm_num : 8 * 262144 = 2097152)))
  intro p
  congr 1
  apply Fin.ext
  simp only [pt, Equiv.trans_apply, finProdFinEquiv_apply_val, finCongr_apply, Fin.coe_cast]
  omega

/-- The flat index word of point (b, n): 32·b plus the label, in 32-bit arithmetic. -/
theorem flat_eq (b : Fin 8) (n : Fin 262144) :
    val_main_v6 (F := Ideal) x1 (ix1 (pt b n)) = BitVec.ofNat 32 b.val * 32#32 + x1 (ix2 b n) := by
  have e6 : idx_main_v6 (ix1 (pt b n)) = ix2 b n := funext fun a => Fin.ext (by
    have := b.isLt; have := n.isLt
    match a with
    | ⟨0, _⟩ => show (262144 * b.val + n.val) / 262144 = b.val; omega
    | ⟨1, _⟩ => show (262144 * b.val + n.val) % 262144 = n.val; omega)
  rw [val_main_v6_apply, e6, val_main_v5_apply, val_main_v4_apply, val_main_v3_apply, val_main_v1_apply,
    val_main_v2_apply, val_main_v0_apply, val_main_c_apply]
  rfl

/-- A word 32·b + l with b < 8 and l < 32 reads, signed, as that number. -/
theorem word_toInt (b : Fin 8) (l : Fin 32) :
    (BitVec.ofNat 32 b.val * 32#32 + BitVec.ofNat 32 l.val).toInt = ((32 * b.val + l.val : ℕ) : Int) := by
  have hb := b.isLt
  have hl := l.isLt
  have e : BitVec.ofNat 32 b.val * 32#32 + BitVec.ofNat 32 l.val = BitVec.ofNat 32 (32 * b.val + l.val) := by
    apply BitVec.eq_of_toNat_eq
    simp only [BitVec.toNat_add, BitVec.toNat_mul, BitVec.toNat_ofNat]
    omega
  rw [e, BitVec.toInt_eq_toNat_cond, BitVec.toNat_ofNat]
  split <;> omega

/-- With the label in range the flat index of point (b, n), read signed, is 32·b + l. -/
theorem flat_toInt (b : Fin 8) (n : Fin 262144) (l : Fin 32) (hl : Lf x1 b n = BitVec.ofNat 32 l.val) :
    (val_main_v6 (F := Ideal) x1 (ix1 (pt b n))).toInt = ((32 * b.val + l.val : ℕ) : Int) := by
  rw [flat_eq, show x1 (ix2 b n) = BitVec.ofNat 32 l.val from hl, word_toInt]

/-- A sum over the flattened points of the terms whose flat index is the row of cluster k of batch b: the sum over the
    batch's points of the indicator of the cluster times the term. -/
theorem sum_flat (h : Cert.Spec.InRange (Lf x1)) (b : Fin 8) (k : Fin 32) (t : Fin 2097152 → EReal) :
    (∑ p : Fin 2097152, if (val_main_v6 (F := Ideal) x1 (ix1 p)).toInt = ((row b k).val : Int) then t p else 0)
      = ∑ n : Fin 262144, Cert.Spec.oh (Lf x1 b n) k.val * t (pt b n) := by
  rw [sum_pts, Finset.sum_eq_single b]
  · apply Finset.sum_congr rfl
    intro n _
    obtain ⟨l, hl⟩ := h b n
    rw [Cert.Spec.oh_mul, flat_toInt x1 b n l hl, hl]
    have hiff : (((32 * b.val + l.val : ℕ) : Int) = ((row b k).val : Int)) ↔ BitVec.ofNat 32 l.val = BitVec.ofNat 32 k.val := by
      rw [Cert.Spec.ofNat_eq_iff]
      constructor
      · intro e
        have e' : 32 * b.val + l.val = 32 * b.val + k.val := by exact_mod_cast e
        exact Fin.ext (by omega)
      · rintro rfl; rfl
    rw [if_congr hiff rfl rfl]
  · intro b' _ hb'
    apply Finset.sum_eq_zero
    intro n _
    obtain ⟨l, hl⟩ := h b' n
    rw [flat_toInt x1 b' n l hl, if_neg]
    intro e
    have e' : 32 * b'.val + l.val = 32 * b.val + k.val := by exact_mod_cast e
    have := l.isLt
    have := k.isLt
    exact hb' (Fin.ext (by omega))
  · intro hb; exact absurd (Finset.mem_univ b) hb

/-! ## The three scatters -/

/-- The one-column index arrays read at (p, 0) are the flat index of point p. -/
theorem v9_at (p : Fin 2097152) : val_main_v9 (F := Ideal) x1 (ix2 p (0 : Fin 1)) = val_main_v6 (F := Ideal) x1 (ix1 p) := by
  rw [val_main_v9_apply]
  exact congrArg _ (funext fun a => Fin.ext (by match a with | ⟨0, _⟩ => rfl))

theorem v13_at (p : Fin 2097152) : val_main_v13 (F := Ideal) x1 (ix2 p (0 : Fin 1)) = val_main_v6 (F := Ideal) x1 (ix1 p) := by
  rw [val_main_v13_apply]
  exact congrArg _ (funext fun a => Fin.ext (by match a with | ⟨0, _⟩ => rfl))

theorem v39_at (p : Fin 2097152) : val_main_v39 (F := Ideal) x1 (ix2 p (0 : Fin 1)) = val_main_v6 (F := Ideal) x1 (ix1 p) := by
  rw [val_main_v39_apply]
  exact congrArg _ (funext fun a => Fin.ext (by match a with | ⟨0, _⟩ => rfl))

/-- The flattened embeddings at point (b, n), coordinate f. -/
theorem v7_at (b : Fin 8) (n : Fin 262144) (f : Fin 16) :
    val_main_v7 (F := Ideal) x0 (ix2 (pt b n) f) = x0 (ix3 b n f) := by
  rw [val_main_v7_apply]
  exact congrArg _ (funext fun a => Fin.ext (by
    have := b.isLt; have := n.isLt; have := f.isLt
    match a with
    | ⟨0, _⟩ => show ((262144 * b.val + n.val) * 16 + f.val) / 4194304 = b.val; omega
    | ⟨1, _⟩ => show ((262144 * b.val + n.val) * 16 + f.val) / 16 % 262144 = n.val; omega
    | ⟨2, _⟩ => show ((262144 * b.val + n.val) * 16 + f.val) % 16 = f.val; omega))

/-- The literal 1.0 is the extended real one. -/
theorem one_f32 : Ideal.ofBits .f32 0x3F800000#32 = 1 := IdealRules.sign_bit.ideal_onePat .f32

/-- The scattered sums at the row of cluster k of batch b. -/
theorem sums_row (h : Cert.Spec.InRange (Lf x1)) (b : Fin 8) (k : Fin 32) (f : Fin 16) :
    val_main_v10 (F := Ideal) x0 x1 (ix2 (row b k) f) = Cert.Spec.sums (Ef x0) (Lf x1) b k f := by
  rw [show val_main_v10 (F := Ideal) x0 x1
      = Ideal.hostScatterAdd (ScatterDims.rows Facts₀.scatter_S256x16_S2097152x1_S2097152x16_1_0_0_1_wf)
          (val_main_v8 (F := Ideal)) (val_main_v9 (F := Ideal) x1) (val_main_v7 (F := Ideal) x0) from rfl]
  rw [Ideal.hostScatterAdd_rows_apply, val_main_v8_apply, val_main_cst_apply, Ideal.ofBits_def, Ideal.ofBits_zero_f32, zero_add]
  simp only [v9_at]
  rw [sum_flat x1 h b k (fun p => val_main_v7 (F := Ideal) x0 (ix2 p f))]
  unfold Cert.Spec.sums
  apply Finset.sum_congr rfl
  intro n _
  rw [v7_at]

/-- The scattered counts at the row of cluster k of batch b. -/
theorem counts_row (h : Cert.Spec.InRange (Lf x1)) (b : Fin 8) (k : Fin 32) :
    val_main_v14 (F := Ideal) x1 (ix1 (row b k)) = Cert.Spec.counts (Lf x1) b k := by
  rw [show val_main_v14 (F := Ideal) x1
      = Ideal.hostScatterAdd (ScatterDims.scalars Facts₀.scatter_S256_S2097152x1_S2097152_n_0_0_1_wf)
          (val_main_v12 (F := Ideal)) (val_main_v13 (F := Ideal) x1) (val_main_v11 (F := Ideal)) from rfl]
  rw [Ideal.hostScatterAdd_scalars_apply, val_main_v12_apply, val_main_cst_1_apply, Ideal.ofBits_def, Ideal.ofBits_zero_f32, zero_add]
  simp only [v13_at]
  rw [sum_flat x1 h b k (fun p => val_main_v11 (F := Ideal) (ix1 p))]
  unfold Cert.Spec.counts
  apply Finset.sum_congr rfl
  intro n _
  rw [val_main_v11_apply, val_main_cst_0_apply, Ideal.ofBits_def, one_f32, mul_one]

/-- The floored counts at that row. -/
theorem safe_row (h : Cert.Spec.InRange (Lf x1)) (b : Fin 8) (k : Fin 32) :
    val_main_v16 (F := Ideal) x1 (ix1 (row b k)) = Cert.Spec.safe (Lf x1) b k := by
  rw [val_main_v16_apply, counts_row x1 h, val_main_v15_apply, val_main_cst_2_apply]
  rfl

/-- The means table at that row. -/
theorem mean_row (h : Cert.Spec.InRange (Lf x1)) (b : Fin 8) (k : Fin 32) (f : Fin 16) :
    val_main_v19 (F := Ideal) x0 x1 (ix2 (row b k) f) = Cert.Spec.mean (Ef x0) (Lf x1) b k f := by
  rw [val_main_v19_apply, sums_row x0 x1 h, val_main_v18_apply, val_main_v17_apply]
  have e : idx_main_v17 (idx_main_v18 (ix2 (row b k) f)) = ix1 (row b k) :=
    funext fun a => Fin.ext (by match a with | ⟨0, _⟩ => rfl)
  rw [e, safe_row x1 h]
  rfl

/-! ## The gather and the pull terms -/

/-- With the label in range the index the gather uses for point (b, n) is the flat index itself: it is not negative. -/
theorem v25_at (b : Fin 8) (n : Fin 262144) (l : Fin 32) (hl : Lf x1 b n = BitVec.ofNat 32 l.val) :
    val_main_v25 (F := Ideal) x1 (ix2 (pt b n) ⟨0, Nat.one_pos⟩) = BitVec.ofNat 32 b.val * 32#32 + BitVec.ofNat 32 l.val := by
  have e25 : idx_main_v25 (ix2 (pt b n) (⟨0, Nat.one_pos⟩ : Fin 1)) = ix1 (pt b n) :=
    funext fun a => Fin.ext (by match a with | ⟨0, _⟩ => rfl)
  have hw : val_main_v6 (F := Ideal) x1 (ix1 (pt b n)) = BitVec.ofNat 32 b.val * 32#32 + BitVec.ofNat 32 l.val := by
    rw [flat_eq, show x1 (ix2 b n) = BitVec.ofNat 32 l.val from hl]
  have hnn : (BitVec.ofNat 32 b.val * 32#32 + BitVec.ofNat 32 l.val).slt 0#32 = false := by
    rw [BitVec.slt, word_toInt]
    simp only [BitVec.toInt_zero]
    exact decide_eq_false (by omega)
  rw [val_main_v25_apply, e25, val_main_v24_apply, val_main_v21_apply, val_main_v20_apply, val_main_c_3_apply, hw]
  show Scalar.select (BitVec.ofBool ((BitVec.ofNat 32 b.val * 32#32 + BitVec.ofNat 32 l.val).slt 0#32)) _ _ = _
  rw [hnn]
  exact select_zero _ _

/-- The row gathered for point (b, n) is its cluster's mean row. -/
theorem gather_at (h : Cert.Spec.InRange (Lf x1)) (b : Fin 8) (n : Fin 262144) (f : Fin 16) :
    val_main_v26 (F := Ideal) x0 x1 (ix2 (pt b n) f) = Cert.Spec.meanAt (Ef x0) (Lf x1) b n f := by
  obtain ⟨l, hl⟩ := h b n
  rw [Cert.Spec.meanAt_eq (Ef x0) (Lf x1) h b n l hl f]
  rw [show val_main_v26 (F := Ideal) x0 x1
      = Host.gather (TakeRows.rowDims 256 16 2097152 Facts₀.gather_S256x16_S2097152x1_S2097152x16_1_0_n_n_0_1_116_wf)
          (val_main_v19 (F := Ideal) x0 x1) (val_main_v25 (F := Ideal) x1) from rfl]
  rw [TakeRows.gather_rows_apply (by decide)]
  refine (congrArg (fun r => val_main_v19 (F := Ideal) x0 x1 (ix2 r f)) (Fin.ext ?_)).trans (mean_row x0 x1 h b l f)
  show min (val_main_v25 (F := Ideal) x1 (ix2 (pt b n) ⟨0, Nat.one_pos⟩)).toInt.toNat (256 - 1) = 32 * b.val + l.val
  rw [v25_at x1 b n l hl, word_toInt]
  have := b.isLt
  have := l.isLt
  omega

/-- The pull term of point (b, n). -/
theorem pvar_at (h : Cert.Spec.InRange (Lf x1)) (b : Fin 8) (n : Fin 262144) :
    val_main_v37 (F := Ideal) x0 x1 (ix1 (pt b n)) = Cert.Spec.pvar (Ef x0) (Lf x1) b n := by
  have hsum : val_main_v29 (F := Ideal) x0 x1 (ix1 (pt b n))
      = ∑ f : Fin 16, (Ef x0 b n f - Cert.Spec.meanAt (Ef x0) (Lf x1) b n f) * (Ef x0 b n f - Cert.Spec.meanAt (Ef x0) (Lf x1) b n f) := by
    rw [val_main_v29_apply, val_main_cst_5_apply, Ideal.ofBits_def, Ideal.ofBits_zero_f32, zero_add]
    apply Finset.sum_congr rfl
    intro f _
    have e29 : idx_main_v29 (ix1 (pt b n)) f = ix2 (pt b n) f :=
      funext fun a => Fin.ext (by match a with | ⟨0, _⟩ => rfl | ⟨1, _⟩ => rfl)
    rw [e29, val_main_v28_apply, val_main_v27_apply, v7_at, gather_at x0 x1 h b n f]
    rfl
  rw [val_main_v37_apply, val_main_v36_apply, val_main_v34_apply, val_main_v32_apply, val_main_v31_apply, hsum,
    val_main_v35_apply, val_main_v33_apply, val_main_v30_apply, val_main_cst_8_apply, val_main_cst_7_apply, val_main_cst_6_apply]
  rfl

/-- The scattered pull sums at the row of cluster k of batch b. -/
theorem pulls_row (h : Cert.Spec.InRange (Lf x1)) (b : Fin 8) (k : Fin 32) :
    val_main_v40 (F := Ideal) x0 x1 (ix1 (row b k)) = Cert.Spec.varsum (Ef x0) (Lf x1) b k := by
  rw [show val_main_v40 (F := Ideal) x0 x1
      = Ideal.hostScatterAdd (ScatterDims.scalars Facts₀.scatter_S256_S2097152x1_S2097152_n_0_0_1_wf)
          (val_main_v38 (F := Ideal)) (val_main_v39 (F := Ideal) x1) (val_main_v37 (F := Ideal) x0 x1) from rfl]
  rw [Ideal.hostScatterAdd_scalars_apply, val_main_v38_apply, val_main_cst_9_apply, Ideal.ofBits_def, Ideal.ofBits_zero_f32, zero_add]
  simp only [v39_at]
  rw [sum_flat x1 h b k (fun p => val_main_v37 (F := Ideal) x0 x1 (ix1 p))]
  unfold Cert.Spec.varsum
  apply Finset.sum_congr rfl
  intro n _
  rw [pvar_at x0 x1 h]

/-! ## The two results -/

/-- The reference's means, re-laid [8, 32, 16], are the cluster means. -/
theorem refMeans_apply (h : Cert.Spec.InRange (Lf x1)) (b : Fin 8) (k : Fin 32) (f : Fin 16) :
    val_main_v48 (F := Ideal) x0 x1 (ix3 b k f) = Cert.Spec.mean (Ef x0) (Lf x1) b k f := by
  rw [val_main_v48_apply]
  refine (congrArg (val_main_v19 (F := Ideal) x0 x1) (funext fun a => Fin.ext ?_)).trans (mean_row x0 x1 h b k f)
  have := b.isLt; have := k.isLt; have := f.isLt
  match a with
  | ⟨0, _⟩ => show ((b.val * 32 + k.val) * 16 + f.val) / 16 = 32 * b.val + k.val; omega
  | ⟨1, _⟩ => show ((b.val * 32 + k.val) * 16 + f.val) % 16 = f.val; omega

/-- The reference's per-cluster pull sums over the floored counts, re-laid [8, 32]. -/
theorem refVpc_apply (h : Cert.Spec.InRange (Lf x1)) (b : Fin 8) (k : Fin 32) :
    val_main_v42 (F := Ideal) x0 x1 (ix2 b k) = Cert.Spec.vpc (Ef x0) (Lf x1) b k := by
  rw [val_main_v42_apply]
  have e : idx_main_v42 (ix2 b k) = ix1 (row b k) := funext fun a => Fin.ext (by
    have := b.isLt; have := k.isLt
    match a with
    | ⟨0, _⟩ => show b.val * 32 + k.val = 32 * b.val + k.val; omega)
  rw [e, val_main_v41_apply, pulls_row x0 x1 h, safe_row x1 h]
  rfl

end Cert.ReferenceIdeal.RefValue

end
-- ==== Proof.Tail.lean ====
/-
  The reference's result is the shared tail of its means and its per-cluster pull sums over the floored counts.
-/
import proofs.«422320_j2723009265750_3_alg».proof.Proof.TailDef

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem ref_tail (x0 : (⟨S8x262144x16, .f32⟩ : BufTy).Contents (Elt F)) (x1 : (⟨S8x262144, .i32⟩ : BufTy).Contents (Elt F)) :
    Cert.ReferenceIdeal.Read.val_main_v88 (F := F) x0 x1
      = tail (Cert.ReferenceIdeal.Read.val_main_v48 (F := F) x0 x1) (Cert.ReferenceIdeal.Read.val_main_v42 (F := F) x0 x1) := by
  rfl

end Cert.ReferenceIdeal.RefValue

end
-- ==== Proof.PreDecode.lean ====
/-
  The precondition decoded: when the printed predicate is all ones, every label word is a cluster number below 32
  (each is at least 0 and below 32 as a signed 32-bit integer, so it is the word of its own value).
-/
import proofs.«422320_j2723009265750_3_alg».proof.Pre_finite_inputs
import proofs.«422320_j2723009265750_3_alg».proof.Proof.Spec
import Idealize.ShloMosaic.Lib.ReduceAll
import Idealize.ShloMosaic.Lib.StableHlo.Predicate
import Idealize.ShloMosaic.Lib.ValueIdx

noncomputable section

namespace Cert.Proof.Pre

open Idealize.ShloMosaic Idealize.ShloMosaic.ValueIdx Cert.Pre_finite_inputs

variable {F : FTy → Type} [FloatOps F] [Cert.Pre_finite_inputs.Facts]

/-- The scalar shape has a single index. -/
instance subsingleton_scalar_idx : Subsingleton S_.Idx := ⟨fun a b => funext fun d => d.elim0⟩

/-- A 32-bit word that is at least 0 and below 32 as a signed integer has unsigned value below 32. -/
theorem toNat_lt_of_signed (w : BitVec 32) (h0 : (0#32 : BitVec 32).toInt ≤ w.toInt) (h1 : w.toInt < (32#32 : BitVec 32).toInt) :
    w.toNat < 32 := by
  have e0 : (0#32 : BitVec 32).toInt = 0 := by decide
  have e1 : (32#32 : BitVec 32).toInt = 32 := by decide
  rw [e0] at h0
  rw [e1] at h1
  have hc := BitVec.toInt_eq_toNat_cond w
  have hw := w.isLt
  split at hc <;> omega

/-- Under the precondition every label is in range. -/
theorem inRange_of_pre (x0 : FVec F S8x262144x16 .f32) (x1 : IVec S8x262144 32)
    (h : Cert.Pre_finite_inputs.fn (F := F) x0 x1 = fun _ => 1#1) :
    ∀ (b : Fin 8) (n : Fin 262144), ∃ l : Fin 32, x1 (ix2 b n) = BitVec.ofNat 32 l.val := by
  intro b n
  -- the predicate at its one index: the conjunction of the two reductions
  have h0 := congrFun h ix0
  dsimp only [Cert.Pre_finite_inputs.fn] at h0
  have h1 : IntOp.andi _ _ = 1#1 := h0
  obtain ⟨-, h9⟩ := IntOp.andi_eq_one.1 h1
  -- the second reduction is over every label: read it at label (b, n)
  have hel := Host.reduce_andi_all _ _ _ _ _ h9 (ix2 b n)
  have hel' : IntOp.andi _ _ = 1#1 := hel
  obtain ⟨hge, hlt⟩ := IntOp.andi_eq_one.1 hel'
  have hge' : IntOp.cmpi .sge (x1 (ix2 b n)) 0#32 = 1#1 := hge
  have hlt' : IntOp.cmpi .slt (x1 (ix2 b n)) 32#32 = 1#1 := hlt
  have hw : (x1 (ix2 b n)).toNat < 32 := toNat_lt_of_signed _ (IntOp.cmpi_sge.1 hge') (IntOp.cmpi_slt.1 hlt')
  refine ⟨⟨(x1 (ix2 b n)).toNat, hw⟩, ?_⟩
  apply BitVec.eq_of_toNat_eq
  rw [BitVec.toNat_ofNat]
  exact (Nat.mod_eq_of_lt (by omega)).symm

end Cert.Proof.Pre

end
-- ==== Proof.lean ====
/-
  The certificate: the kernel computes the discriminative loss of the reference.

  Both programs compute, per batch and cluster, the sum and the number of the cluster's points, the mean (the sum over
  the number floored at one), then per point the pull term of its distance to its cluster's mean, summed per cluster and
  divided by the floored number, and end with the same host operations on the means and those quotients. The kernel
  adds a batch's points tile by tile in two grid passes with accumulators carried across the tiles; the reference adds
  them with accumulating scatters over the flattened points and gathers each point's mean row. With every label a
  cluster number below 32 (the precondition) the two are the same function of the arguments: the one-hot products pick
  exactly the points and the mean rows the scatters and the gather do, and a sum of tile sums is the sum. No law used
  needs finiteness: zero times anything is zero on the extended reals, and addition there is associative and commutative.

  The frames of the two kernel programs are the run of @main as host stretches and the two kernel regions; the
  reference's frame is its run.
-/
import proofs.«422320_j2723009265750_3_alg».proof.Defs
import proofs.«422320_j2723009265750_3_alg».proof.Proof.Gen.Kernel
import proofs.«422320_j2723009265750_3_alg».proof.Proof.Gen.KernelIdeal
import proofs.«422320_j2723009265750_3_alg».proof.Proof.Gen.ReferenceIdeal
import proofs.«422320_j2723009265750_3_alg».proof.Proof.Gen.Pre_finite_inputs
import proofs.«422320_j2723009265750_3_alg».proof.Proof.K.Run
import proofs.«422320_j2723009265750_3_alg».proof.Proof.KI.Run
import proofs.«422320_j2723009265750_3_alg».proof.Proof.KI.KHost0
import proofs.«422320_j2723009265750_3_alg».proof.Proof.KI.KHost1
import proofs.«422320_j2723009265750_3_alg».proof.Proof.KI.KTail
import proofs.«422320_j2723009265750_3_alg».proof.Proof.RefVal
import proofs.«422320_j2723009265750_3_alg».proof.Proof.Tail
import proofs.«422320_j2723009265750_3_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs' means agree entry by entry, and so do their per-cluster quotients: both are the mathematics' -/
theorem means_eq (m : (ℓ : Loc Cert.KernelIdeal.nD Cert.KernelIdeal.τ Cert.KernelIdeal.sig) → Buf (Elt Ideal) ℓ) (c : Dev Cert.KernelIdeal.nD)
    (h : Cert.Spec.InRange (Cert.KernelIdeal.Hand.Lk m c)) :
    Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = Cert.KernelIdeal.Gen.V6 m (Cert.KernelIdeal.Hand.outs m) c Cert.KernelIdeal.main_v9 := by
  funext i
  obtain ⟨b, k, f, rfl⟩ : ∃ (b : Fin 8) (k : Fin 32) (f : Fin 16), i = ix3 b k f := ⟨i 0, i 1, i 2, eq_ix3 i⟩
  exact (Cert.ReferenceIdeal.RefValue.refMeans_apply _ _ h b k f).trans (Cert.KernelIdeal.Hand.kMeans_apply m c h b k f).symm

theorem vpc_eq (m : (ℓ : Loc Cert.KernelIdeal.nD Cert.KernelIdeal.τ Cert.KernelIdeal.sig) → Buf (Elt Ideal) ℓ) (c : Dev Cert.KernelIdeal.nD)
    (h : Cert.Spec.InRange (Cert.KernelIdeal.Hand.Lk m c)) :
    Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = Host.divf (F := Ideal) (φ := .f32) (shapeCast Cert.KernelIdeal.S8x32 (Cert.KernelIdeal.Gen.V6 m (Cert.KernelIdeal.Hand.outs m) c Cert.KernelIdeal.main_v10 : FVec Ideal Cert.KernelIdeal.S8x32x1 .f32) Cert.KernelIdeal.Facts₀.shapeCasts_S8x32x1_S8x32)
          (Cert.KernelIdeal.Gen.V6 m (Cert.KernelIdeal.Hand.outs m) c Cert.KernelIdeal.main_v6 : FVec Ideal Cert.KernelIdeal.S8x32 .f32) := by
  funext i
  obtain ⟨b, k, rfl⟩ : ∃ (b : Fin 8) (k : Fin 32), i = ix2 b k := ⟨i 0, i 1, eq_ix2 i⟩
  exact (Cert.ReferenceIdeal.RefValue.refVpc_apply _ _ h b k).trans (Cert.KernelIdeal.Hand.kVpc_apply m c h b k).symm

/-- From memories agreeing on the arguments both idealized programs run, and the reference's result is the kernel's:
    each is the shared tail of its means and its per-cluster quotients, which agree. -/
theorem algebraic : Cert.algebraic_KernelIdeal_ReferenceIdeal := by
  intro m ρ m' ρ' hpre hagree
  refine ⟨fun c => Cert.KernelIdeal.Gen.V11 m (Cert.KernelIdeal.Hand.outs m) c Cert.KernelIdeal.main_v57, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  have hin : Cert.Spec.InRange (Cert.KernelIdeal.Hand.Lk m c) := Cert.Proof.Pre.inRange_of_pre _ _ (hpre c)
  rw [Cert.ReferenceIdeal.Read.val_main_v88_eq, Cert.ReferenceIdeal.RefValue.ref_tail, (hagree c).1, (hagree c).2]
  refine Eq.trans ?_ (Cert.KernelIdeal.Hand.tail_of_after (Cert.KernelIdeal.Gen.V6 m (Cert.KernelIdeal.Hand.outs m) c)).symm
  rw [means_eq m c hin, vpc_eq m c hin]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
